-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4x256x3136 .f32 .bf16
  ∧ IdealRules.truncf_extf.Statement Cert.KernelIdeal.S4x256x3136 .f32 .bf16
  ∧ IdealRules.truncf_extf.Statement Cert.KernelIdeal.S4x256x3136 .f32 .bf16
  ∧ IdealRules.truncf_extf.Statement Cert.KernelIdeal.S2x256x3136 .f32 .bf16
  ∧ IdealRules.truncf_extf.Statement Cert.KernelIdeal.S2x256x3136 .f32 .bf16
  ∧ IdealRules.truncf_extf.Statement Cert.KernelIdeal.S2x256x3136 .f32 .bf16
  ∧ IdealRules.truncf_extf.Statement Cert.KernelIdeal.S2x256x3136 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) (main_arg2 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x56x56 : Shape := ⟨4, ![64, 256, 56, 56]⟩
abbrev S256 : Shape := ⟨1, ![256]⟩
abbrev S64x256x3136 : Shape := ⟨3, ![64, 256, 3136]⟩
abbrev S1x256x1 : Shape := ⟨3, ![1, 256, 1]⟩
abbrev S4x256x3136 : Shape := ⟨3, ![4, 256, 3136]⟩
abbrev S4x256 : Shape := ⟨2, ![4, 256]⟩
abbrev S4x256x1 : Shape := ⟨3, ![4, 256, 1]⟩
abbrev S256x1 : Shape := ⟨2, ![256, 1]⟩
abbrev S_ : Shape := ⟨0, ![]⟩
abbrev S2x256x3136 : Shape := ⟨3, ![2, 256, 3136]⟩

abbrev nBuf : Space → Nat
  | .hbm => 31
  | .vmem => 17
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S64x256x3136, .f32⟩
  | .hbm, ⟨4, _⟩ => ⟨S1x256x1, .f32⟩
  | .hbm, ⟨5, _⟩ => ⟨S_, .f32⟩
  | .hbm, ⟨6, _⟩ => ⟨S1x256x1, .f32⟩
  | .hbm, ⟨7, _⟩ => ⟨S1x256x1, .f32⟩
  | .hbm, ⟨8, _⟩ => ⟨S1x256x1, .bf16⟩
  | .hbm, ⟨9, _⟩ => ⟨S1x256x1, .f32⟩
  | .hbm, ⟨10, _⟩ => ⟨S1x256x1, .f32⟩
  | .hbm, ⟨11, _⟩ => ⟨S1x256x1, .bf16⟩
  | .hbm, ⟨12, _⟩ => ⟨S1x256x1, .f32⟩
  | .hbm, ⟨13, _⟩ => ⟨S_, .f32⟩
  | .hbm, ⟨14, _⟩ => ⟨S1x256x1, .f32⟩
  | .hbm, ⟨15, _⟩ => ⟨S1x256x1, .f32⟩
  | .hbm, ⟨16, _⟩ => ⟨S1x256x1, .bf16⟩
  | .hbm, ⟨17, _⟩ => ⟨S1x256x1, .f32⟩
  | .hbm, ⟨18, _⟩ => ⟨S_, .f32⟩
  | .hbm, ⟨19, _⟩ => ⟨S1x256x1, .f32⟩
  | .hbm, ⟨20, _⟩ => ⟨S1x256x1, .f32⟩
  | .hbm, ⟨21, _⟩ => ⟨S1x256x1, .f32⟩
  | .hbm, ⟨22, _⟩ => ⟨S_, .f32⟩
  | .hbm, ⟨23, _⟩ => ⟨S1x256x1, .f32⟩
  | .hbm, ⟨24, _⟩ => ⟨S1x256x1, .f32⟩
  | .hbm, ⟨25, _⟩ => ⟨S256, .bf16⟩
  | .hbm, ⟨26, _⟩ => ⟨S256, .f32⟩
  | .hbm, ⟨27, _⟩ => ⟨S1x256x1, .f32⟩
  | .hbm, ⟨28, _⟩ => ⟨S1x256x1, .f32⟩
  | .hbm, ⟨29, _⟩ => ⟨S64x256x3136, .f32⟩
  | .hbm, ⟨30, _⟩ => ⟨S64x256x56x56, .f32⟩
  | .local _ .vmem, ⟨0, _⟩ => ⟨S4x256x3136, .f32⟩
  | .local _ .vmem, ⟨1, _⟩ => ⟨S4x256x3136, .f32⟩
  | .local _ .vmem, ⟨2, _⟩ => ⟨S1x256x1, .f32⟩
  | .local _ .vmem, ⟨3, _⟩ => ⟨S1x256x1, .f32⟩
  | .local _ .vmem, ⟨4, _⟩ => ⟨S4x256x3136, .f32⟩
  | .local _ .vmem, ⟨5, _⟩ => ⟨S4x256x3136, .f32⟩
  | .local _ .vmem, ⟨6, _⟩ => ⟨S1x256x1, .f32⟩
  | .local _ .vmem, ⟨7, _⟩ => ⟨S1x256x1, .f32⟩
  | .local _ .vmem, ⟨8, _⟩ => ⟨S1x256x1, .f32⟩
  | .local _ .vmem, ⟨9, _⟩ => ⟨S2x256x3136, .f32⟩
  | .local _ .vmem, ⟨10, _⟩ => ⟨S2x256x3136, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S2x256x3136, .f32⟩
  | .local _ .vmem, ⟨16, _⟩ => ⟨S2x256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem5_1 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v16 : BitVec 1 := Scalar.cmpi .eq arg0 c15_i32
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_13 : BitVec 32 := 0#32
  let v25 : BitVec 1 := Scalar.cmpi .ne v24 c0_i32_13
  v25

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S4x256x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x256x3136 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x256x3136 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S64x256x56x56_S64x256x3136 : S64x256x56x56.ShapeCasts S64x256x3136
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S4x256x3136_S4x256x3136_0_0_0 : ∀ a, (![0, 0, 0] : Fin 3 → Nat) a + S4x256x3136.size a ≤ S4x256x3136.size a
  h_S4x256x3136 : 0 < S4x256x3136.numel
  shapeCasts_S4x256x3136_S4x256x3136 : S4x256x3136.ShapeCasts S4x256x3136
  bitsLt_bf16_f32 : FTy.bits .bf16 < FTy.bits .f32
  reduces_S4x256x3136_S4x256 : S4x256x3136.Reduces [2] S4x256
  shapeCasts_S4x256_S4x256x1 : S4x256.ShapeCasts S4x256x1
  reduces_S4x256x1_S256x1 : S4x256x1.Reduces [0] S256x1
  shapeCasts_S256x1_S1x256x1 : S256x1.ShapeCasts S1x256x1
  bcast_S_S1x256x1 : S_.BroadcastsInDim S1x256x1 (![] : Fin 0 → Fin S1x256x1.rank)
  broadcasts_S1x256x1_S4x256x3136 : S1x256x1.Broadcasts S4x256x3136
  shapeCasts_S256_S1x256x1 : S256.ShapeCasts S1x256x1
  inb_S2x256x3136_S2x256x3136_0_0_0 : ∀ a, (![0, 0, 0] : Fin 3 → Nat) a + S2x256x3136.size a ≤ S2x256x3136.size a
  h_S2x256x3136 : 0 < S2x256x3136.numel
  shapeCasts_S2x256x3136_S2x256x3136 : S2x256x3136.ShapeCasts S2x256x3136
  broadcasts_S1x256x1_S2x256x3136 : S1x256x1.Broadcasts S2x256x3136
  shapeCasts_S64x256x3136_S64x256x56x56 : S64x256x3136.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x3136.size a ≤ S64x256x3136.size a
  hwx0_0 : ∀ i : grid0.Coords, EltTy.bits .f32 = 32 ∨ (Rect.block (s := S64x256x3136) S4x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S1x256x1.size a
  hwx0_1 : ∀ i : grid0.Coords, EltTy.bits .f32 = 32 ∨ (Rect.block (s := S1x256x1) S1x256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x3136.size a ≤ S64x256x3136.size a
  hwx1_0 : ∀ i : grid1.Coords, EltTy.bits .f32 = 32 ∨ (Rect.block (s := S64x256x3136) S4x256x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S1x256x1.size a
  hwx1_1 : ∀ i : grid1.Coords, EltTy.bits .f32 = 32 ∨ (Rect.block (s := S1x256x1) S1x256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S1x256x1.size a
  hwx1_2 : ∀ i : grid1.Coords, EltTy.bits .f32 = 32 ∨ (Rect.block (s := S1x256x1) S1x256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x256x3136.size a ≤ S64x256x3136.size a
  hwx2_0 : ∀ i : grid2.Coords, EltTy.bits .f32 = 32 ∨ (Rect.block (s := S64x256x3136) S2x256x3136.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256x1.size a ≤ S1x256x1.size a
  hwx2_1 : ∀ i : grid2.Coords, EltTy.bits .f32 = 32 ∨ (Rect.block (s := S1x256x1) S1x256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256x1.size a ≤ S1x256x1.size a
  hwx2_2 : ∀ i : grid2.Coords, EltTy.bits .f32 = 32 ∨ (Rect.block (s := S1x256x1) S1x256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256x1.size a ≤ S1x256x1.size a
  hwx2_3 : ∀ i : grid2.Coords, EltTy.bits .f32 = 32 ∨ (Rect.block (s := S1x256x1) S1x256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256x1.size a ≤ S1x256x1.size a
  hwx2_4 : ∀ i : grid2.Coords, EltTy.bits .f32 = 32 ∨ (Rect.block (s := S1x256x1) S1x256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x256x3136.size a ≤ S64x256x3136.size a
  hwx2_5 : ∀ i : grid2.Coords, EltTy.bits .f32 = 32 ∨ (Rect.block (s := S64x256x3136) S2x256x3136.size (cc2_transform_5 i) (hinb2_5 i)).WholeWords (EltTy.packing .f32)

variable [Facts₀]

abbrev win0_0 : Pipeline.Window sig grid0 :=
  Pipeline.Window.ofSpec (Memref.whole main_v0) S4x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S4x256x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S2x256x3136.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S2x256x3136.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1x256x1x1 : Shape := ⟨4, ![1, 256, 1, 1]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S64x256x56x56, .bf16⟩
  | .hbm, ⟨4, _⟩ => ⟨S64x256x56x56, .f32⟩
  | .hbm, ⟨5, _⟩ => ⟨S256, .bf16⟩
  | .hbm, ⟨6, _⟩ => ⟨S256, .f32⟩
  | .hbm, ⟨7, _⟩ => ⟨S1x256x1x1, .f32⟩
  | .hbm, ⟨8, _⟩ => ⟨S1x256x1x1, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256, .bf16⟩
  | .hbm, ⟨15, _⟩ => ⟨S256, .f32⟩
  | .hbm, ⟨16, _⟩ => ⟨S1x256x1x1, .f32⟩
  | .hbm, ⟨17, _⟩ => ⟨S64x256x56x56, .f32⟩
  | .hbm, ⟨18, _⟩ => ⟨S64x256x56x56, .f32⟩
  | .hbm, ⟨19, _⟩ => ⟨S64x256x56x56, .f32⟩
  | .hbm, ⟨20, _⟩ => ⟨S64x256x56x56, .bf16⟩
  | .hbm, ⟨21, _⟩ => ⟨S64x256x56x56, .f32⟩
  | .hbm, ⟨22, _⟩ => ⟨S_, .f32⟩
  | .hbm, ⟨23, _⟩ => ⟨S256, .f32⟩
  | .hbm, ⟨24, _⟩ => ⟨S256, .bf16⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .bf16⟩
  | .hbm, ⟨30, _⟩ => ⟨S256, .f32⟩
  | .hbm, ⟨31, _⟩ => ⟨S1x256x1x1, .f32⟩
  | .hbm, ⟨32, _⟩ => ⟨S_, .f32⟩
  | .hbm, ⟨33, _⟩ => ⟨S1x256x1x1, .f32⟩
  | .hbm, ⟨34, _⟩ => ⟨S1x256x1x1, .f32⟩
  | .hbm, ⟨35, _⟩ => ⟨S1x256x1x1, .f32⟩
  | .hbm, ⟨36, _⟩ => ⟨S_, .f32⟩
  | .hbm, ⟨37, _⟩ => ⟨S1x256x1x1, .f32⟩
  | .hbm, ⟨38, _⟩ => ⟨S1x256x1x1, .f32⟩
  | .hbm, ⟨39, _⟩ => ⟨S64x256x56x56, .f32⟩
  | .hbm, ⟨40, _⟩ => ⟨S64x256x56x56, .f32⟩
  | .hbm, ⟨41, _⟩ => ⟨S64x256x56x56, .f32⟩
  | .hbm, ⟨42, _⟩ => ⟨S64x256x56x56, .f32⟩
  | .hbm, ⟨43, _⟩ => ⟨S64x256x56x56, .bf16⟩
  | .hbm, ⟨44, _⟩ => ⟨S64x256x56x56, .f32⟩
  | .hbm, ⟨45, _⟩ => ⟨S64x256x56x56, .f32⟩
  | .hbm, ⟨46, _⟩ => ⟨S64x256x56x56, .f32⟩
  | .hbm, ⟨47, _⟩ => ⟨S64x256x56x56, .bf16⟩
  | .hbm, ⟨48, _⟩ => ⟨S64x256x56x56, .f32⟩
  | .hbm, ⟨49, _⟩ => ⟨S64x256x56x56, .f32⟩
  | .hbm, ⟨50, _⟩ => ⟨S64x256x56x56, .f32⟩
  | .hbm, ⟨51, _⟩ => ⟨S64x256x56x56, .bf16⟩
  | .hbm, ⟨52, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]

class Facts₀ : Prop where
  bitsLt_bf16_f32 : FTy.bits .bf16 < FTy.bits .f32
  shapeCasts_S256_S1x256x1x1 : S256.ShapeCasts S1x256x1x1
  reducesTo_S64x256x56x56_S256_d0_2_3 : S64x256x56x56.ReducesTo [0, 2, 3] S256
  h_S_ : 0 < S_.numel
  bcast_S_S256 : S_.BroadcastsInDim S256 (![] : Fin 0 → Fin S256.rank)
  bcast_S1x256x1x1_S64x256x56x56_0_1_2_3 : S1x256x1x1.BroadcastsInDim S64x256x56x56 (![0, 1, 2, 3] : Fin 4 → Fin S64x256x56x56.rank)
  bcast_S_S1x256x1x1 : S_.BroadcastsInDim S1x256x1x1 (![] : Fin 0 → Fin S1x256x1x1.rank)

variable [Facts₀]

class Facts : Prop extends Facts₀ where

variable [Facts]
-- ==== Proof.Kernel.SumBody.lean ====
/-
  The per-channel sum kernel (the program's first launch) as a body the pipeline calls at each of its 16 grid
  points. The body keeps a running per-channel total in a scratch vector of shape [1, 256, 1]: at the first point
  it clears the scratch, at every point it adds the point's block total (the block [4, 256, 3136] summed over its
  last axis and then over its first), and at the last point it copies the scratch into the output block. So a point
  is in one of three control cases — first (clear, add), middle (add), last (add, copy out) — and this module runs
  the body once per case: from the input block, the output block's buffer and the scratch it is handed, to the
  stores it leaves in the output's buffer and in the scratch, listed last store first.
-/
import proofs.«156847_j180388626588_1_alg».proof.Proof.Gen.Kernel.Launch
import proofs.«156847_j180388626588_1_alg».proof.Proof.Gen.Kernel.Skeleton
import proofs.«156847_j180388626588_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The body's first branch, "this is the first point": the clear of the running total. -/
abbrev sumFirst (i : grid0.Coords) : Prop := (Scalar.cmpi .ne (Scalar.extui (Scalar.cmpi .eq (BitVec.ofNat 32 (i 0).val) 0#32)) 0#32) = 1#1
/-- It is taken at point 0 only. -/
theorem sumFirst_iff : ∀ t : Fin cfg0.N, sumFirst (grid0.coords t) ↔ t.val = 0 :=
  (by decide +kernel : ∀ t : Fin grid0.N, sumFirst (grid0.coords t) ↔ t.val = 0)

/-- The body's second branch, "this is the last point": the copy of the running total into the output block. -/
abbrev sumLast (i : grid0.Coords) : Prop := k0_cond2 i = 1#1
/-- It is taken at point 15 only. -/
theorem sumLast_iff : ∀ t : Fin cfg0.N, sumLast (grid0.coords t) ↔ t.val = 15 :=
  (by decide +kernel : ∀ t : Fin grid0.N, sumLast (grid0.coords t) ↔ t.val = 15)

/-! ## Where the output window is idle -/

/-- The input window is never idle. -/
theorem sumIn_live : ∀ t : Fin cfg0.N, cfg0.idle 0 (grid0.coords t) = false := by decide +kernel
/-- Off the last point the body stores nothing into the output block: the window is idle there, -/
theorem sumOut_idle : ∀ t : Fin cfg0.N, ¬sumLast (grid0.coords t) → cfg0.idle 1 (grid0.coords t) = true := by decide +kernel
/-- and the pipeline does not write its block back there. -/
theorem sumOut_noFlush : ∀ t : Fin cfg0.N, ¬sumLast (grid0.coords t) → (cfg0.win 1).flush t = false := by decide +kernel
/-- At the last point the output window is live. -/
theorem sumOut_live : ∀ t : Fin cfg0.N, sumLast (grid0.coords t) → cfg0.idle 1 (grid0.coords t) = false := by decide +kernel

/-! ## The buffers the body is called on -/

/-- One staging buffer of the output window, through which the output block's contents are stated. -/
abbrev sumOutView : View sig .tc .vmem S1x256x1 .f32 := (Memref.whole cc0_stg1_0 : Memref sig .tc .vmem S1x256x1 .f32).view
/-- The staging buffers the pipeline passes at point `t`, and that they are whole. -/
abbrev sumInAt (t : Fin cfg0.N) : Memref sig .tc .vmem S4x256x3136 .f32 := win0_0.stage (cfg0.slots t 0)
abbrev sumInAt_whole (t : Fin cfg0.N) : (sumInAt t).IsWhole := hstage0_0 ((cfg0.slots t 0).cast nbuf0_0)
abbrev sumOutAt (t : Fin cfg0.N) : Memref sig .tc .vmem S1x256x1 .f32 := win0_1.stage (cfg0.slots t 1)
abbrev sumOutAt_whole (t : Fin cfg0.N) : (sumOutAt t).IsWhole := hstage0_1 ((cfg0.slots t 1).cast nbuf0_1)
/-- The running total's scratch buffer, and its view. -/
abbrev sumAcc : Memref sig .tc .vmem S1x256x1 .f32 := Memref.whole cc0_scratch0
abbrev sumAccView : View sig .tc .vmem S1x256x1 .f32 := sumAcc.view

/-- The scoped buffers of the core that this launch neither stages through nor uses as its scratch (the other two
    launches' staging buffers and scratch), each at some contents: they ride through this launch unopened. -/
abbrev sumOthers (c : Dev nD) : sProp 𝕄 :=
  Pipeline.scopedRestBut (Ix := Unit) (Name := ℕ) (U := UR sig nD τ) (Lvl := ℕ) (Val := Elt F) spec0 c [cc0_scratch0]

/-- What the region's invariant holds while no contents are tracked: the scratch at some contents, the other scoped
    buffers, and the generator register at some state. -/
theorem sumIdleInv_eq (c : Dev nD) :
    (Pipeline.ΦA spec0 c : sProp 𝕄)
      = iprop(iprop((∃ d, owns (c : Thread nD τ) sumAcc fullShare d) ∗ sumOthers c) ∗ (∃ r, prngReg c r)) := by
  unfold Pipeline.ΦA
  rw [Pipeline.scopedRest_split_of_list spec0 c [cc0_scratch0] (by decide) (by decide)]
  simp only [sumAcc, owns_whole]; try rfl

/-! ## The body, case by case -/

set_option maxHeartbeats 1000000 in
/-- THE FIRST POINT (clear, add; no copy out). On whole buffers — the input block's at `x0`, the output block's at
    `xo` (handed back untouched), the scratch at anything — the body runs to the continuation holding the input as
    it was and the scratch with the stores `LS` written; `LO` (no store) is what it leaves in the output's buffer. -/
noncomputable def sumRunFirst (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i)
    (x0 : Vec F S4x256x3136 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT (add only). The scratch is handed over at what the point before left, `xs`. -/
noncomputable def sumRunMid (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i)
    (x0 : Vec F S4x256x3136 .f32) (xs : Vec F S1x256x1 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare xo ∗ owns (c : Thread nD τ) arg3 fullShare xs
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT (add, copy out). The output block's buffer is taken at anything and left with the stores `LO`. -/
noncomputable def sumRunLast (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i)
    (x0 : Vec F S4x256x3136 .f32) (xs : Vec F S1x256x1 .f32) :
    Σ' (LO : List (View.Piece (Elt F) S1x256x1 .f32)), { LS : List (View.Piece (Elt F) S1x256x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Gen

end
-- ==== Proof.Kernel.SumRegion.lean ====
/-
  The per-channel sum launch as a REGION of the program: what its scratch (the running per-channel total) and its
  output block hold after each of the 16 grid points, the invariant that carries the scratch's contents from one
  point to the next, the pipeline's proof data at given region-entry contents `V`, and the body obligation.
  After point 0 the scratch holds the first case's stores; after a later point, the middle (or last) case's stores
  over what the point before left; the output block's buffer is stored into at the last point only.
-/
import proofs.«156847_j180388626588_1_alg».proof.Proof.Kernel.SumBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block at a point -/

/-- Window `w`'s block at point `t`, read off its array as the region finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point, never
    cut, never idle), for any proof data whose array is `V`'s and whose body leaves the block in place. -/
theorem sumBefore_in_of {c : Dev nD} (dat : Dat τ (Elt F) Unit ℕ (UR sig nD τ) ℕ cfg0 c) (hA : dat.A 0 = V c (Pipeline.arrRef spec0 0))
    (hafter : ∀ t, dat.after 0 t = sumBlk V c 0 t) (t : Fin cfg0.N) (d) : dat.before 0 t d = sumBlk V c 0 t :=
  (dat.before_in_eq_fetched 0 rfl (fun _ => rfl) (fun _ _ _ => rfl) (fun t => by rw [hafter]; unfold Dat.blockOf sumBlk; rw [hA]; try rfl) t d).trans
    (by unfold Dat.fetched Dat.blockOf sumBlk; rw [hA]; try rfl)

/-! ## What each case leaves -/

/-- The first case's stores into the scratch cover it. -/
theorem sumFirst_cover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) (y : S1x256x1.Idx) :
    ∃ pc ∈ (sumRunFirst c i arg1 harg1 arg2 harg2 arg3 harg3 hc0 hc1 x0).2.1, y ∈ pc.1.set :=
  View.cover_of_tiledL (sumRunFirst c i arg1 harg1 arg2 harg2 arg3 harg3 hc0 hc1 x0).2.1 S1x256x1.size (by sl_kernel_rfl) y
/-- What the first case leaves in the scratch. -/
def sumFirst_acc (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) : Vec F S1x256x1 .f32 :=
  sumAccView.read (Elt F) (sumAccView.writes (Elt F) sumAccView.junk (sumRunFirst c i arg1 harg1 arg2 harg2 arg3 harg3 hc0 hc1 x0).2.1)
/-- The first case stores nothing into the output block: a placeholder nothing consults. -/
def sumFirst_out (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) : Vec F S1x256x1 .f32 :=
  sumOutView.read (Elt F) (sumOutView.writes (Elt F) sumOutView.junk (sumRunFirst c i arg1 harg1 arg2 harg2 arg3 harg3 hc0 hc1 x0).1)

/-- A middle case's stores into the scratch cover it. -/
theorem sumMid_cover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) (y : S1x256x1.Idx) :
    ∃ pc ∈ (sumRunMid c i arg1 harg1 arg2 harg2 arg3 harg3 hc0 hc1 x0 xs).2.1, y ∈ pc.1.set :=
  View.cover_of_tiledL (sumRunMid c i arg1 harg1 arg2 harg2 arg3 harg3 hc0 hc1 x0 xs).2.1 S1x256x1.size (by sl_kernel_rfl) y
/-- What a middle case leaves in the scratch, over what the point before left (`xs`). -/
def sumMid_acc (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) : Vec F S1x256x1 .f32 :=
  sumAccView.read (Elt F) (sumAccView.writes (Elt F) sumAccView.junk (sumRunMid c i arg1 harg1 arg2 harg2 arg3 harg3 hc0 hc1 x0 xs).2.1)
/-- A middle case stores nothing into the output block: a placeholder nothing consults. -/
def sumMid_out (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) : Vec F S1x256x1 .f32 :=
  sumOutView.read (Elt F) (sumOutView.writes (Elt F) sumOutView.junk (sumRunMid c i arg1 harg1 arg2 harg2 arg3 harg3 hc0 hc1 x0 xs).1)

/-- The last case's stores into the scratch cover it, -/
theorem sumLast_cover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) (y : S1x256x1.Idx) :
    ∃ pc ∈ (sumRunLast c i arg1 harg1 arg2 harg2 arg3 harg3 hc0 hc1 x0 xs).2.1, y ∈ pc.1.set :=
  View.cover_of_tiledL (sumRunLast c i arg1 harg1 arg2 harg2 arg3 harg3 hc0 hc1 x0 xs).2.1 S1x256x1.size (by sl_kernel_rfl) y
/-- and its store into the output block covers the block. -/
theorem sumLast_outCover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) (y : S1x256x1.Idx) :
    ∃ pc ∈ (sumRunLast c i arg1 harg1 arg2 harg2 arg3 harg3 hc0 hc1 x0 xs).1, y ∈ pc.1.set :=
  View.cover_of_tiledL (sumRunLast c i arg1 harg1 arg2 harg2 arg3 harg3 hc0 hc1 x0 xs).1 S1x256x1.size (by sl_kernel_rfl) y
/-- What the last case leaves in the scratch, -/
def sumLast_acc (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) : Vec F S1x256x1 .f32 :=
  sumAccView.read (Elt F) (sumAccView.writes (Elt F) sumAccView.junk (sumRunLast c i arg1 harg1 arg2 harg2 arg3 harg3 hc0 hc1 x0 xs).2.1)
/-- and in the output block's buffer. -/
def sumLast_out (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) : Vec F S1x256x1 .f32 :=
  sumOutView.read (Elt F) (sumOutView.writes (Elt F) sumOutView.junk (sumRunLast c i arg1 harg1 arg2 harg2 arg3 harg3 hc0 hc1 x0 xs).1)

/-! ## Point by point -/

/-- THE ACCUMULATION. What the output block's buffer (first component) and the scratch (second component) hold after the
    body at position `n`: point 0 is the first case; a later point is the last case at position 15 and a middle case
    otherwise, run over the scratch the point before left. -/
def sumAt (c : Dev nD) : (n : ℕ) → n < cfg0.N → Vec F S1x256x1 .f32 × Vec F S1x256x1 .f32
  | 0, hn =>
    (sumFirst_out c (grid0.coords ⟨0, hn⟩) (sumInAt ⟨0, hn⟩) (sumInAt_whole ⟨0, hn⟩) (sumOutAt ⟨0, hn⟩) (sumOutAt_whole ⟨0, hn⟩) sumAcc (Memref.isWhole_whole _) ((sumFirst_iff ⟨0, hn⟩).mpr rfl) (fun h => absurd ((sumLast_iff ⟨0, hn⟩).mp h) (show ¬ (0 : ℕ) = 15 by decide)) (sumBlk V c 0 ⟨0, hn⟩),
     sumFirst_acc c (grid0.coords ⟨0, hn⟩) (sumInAt ⟨0, hn⟩) (sumInAt_whole ⟨0, hn⟩) (sumOutAt ⟨0, hn⟩) (sumOutAt_whole ⟨0, hn⟩) sumAcc (Memref.isWhole_whole _) ((sumFirst_iff ⟨0, hn⟩).mpr rfl) (fun h => absurd ((sumLast_iff ⟨0, hn⟩).mp h) (show ¬ (0 : ℕ) = 15 by decide)) (sumBlk V c 0 ⟨0, hn⟩))
  | n + 1, hn =>
    if h1 : n + 1 = 15 then
      (sumLast_out c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) ((sumLast_iff ⟨n + 1, hn⟩).mpr h1) (sumBlk V c 0 ⟨n + 1, hn⟩) (sumAt c n (Nat.lt_of_succ_lt hn)).2,
       sumLast_acc c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) ((sumLast_iff ⟨n + 1, hn⟩).mpr h1) (sumBlk V c 0 ⟨n + 1, hn⟩) (sumAt c n (Nat.lt_of_succ_lt hn)).2)
    else
      (sumMid_out c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) (fun h => h1 ((sumLast_iff ⟨n + 1, hn⟩).mp h)) (sumBlk V c 0 ⟨n + 1, hn⟩) (sumAt c n (Nat.lt_of_succ_lt hn)).2,
       sumMid_acc c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) (fun h => h1 ((sumLast_iff ⟨n + 1, hn⟩).mp h)) (sumBlk V c 0 ⟨n + 1, hn⟩) (sumAt c n (Nat.lt_of_succ_lt hn)).2)

/-- At the first point: the first case's contents. -/
theorem sumAt_first (c : Dev nD) (t : Fin cfg0.N) (h0 : t.val = 0) (h1 : ¬t.val = 15) :
    sumAt V c t.val t.isLt = (sumFirst_out c (grid0.coords t) (sumInAt t) (sumInAt_whole t) (sumOutAt t) (sumOutAt_whole t) sumAcc (Memref.isWhole_whole _) ((sumFirst_iff t).mpr h0) (fun h => h1 ((sumLast_iff t).mp h)) (sumBlk V c 0 t), sumFirst_acc c (grid0.coords t) (sumInAt t) (sumInAt_whole t) (sumOutAt t) (sumOutAt_whole t) sumAcc (Memref.isWhole_whole _) ((sumFirst_iff t).mpr h0) (fun h => h1 ((sumLast_iff t).mp h)) (sumBlk V c 0 t)) := by
  obtain ⟨n, hn⟩ := t
  cases n with
  | zero => exact rfl
  | succ n => exact absurd h0 (Nat.succ_ne_zero n)

/-- At a middle point: the middle case's contents, over what the point before left. -/
theorem sumAt_mid (c : Dev nD) (t : Fin cfg0.N) (h0 : ¬t.val = 0) (h1 : ¬t.val = 15) :
    sumAt V c t.val t.isLt = (sumMid_out c (grid0.coords t) (sumInAt t) (sumInAt_whole t) (sumOutAt t) (sumOutAt_whole t) sumAcc (Memref.isWhole_whole _) (fun h => h0 ((sumFirst_iff t).mp h)) (fun h => h1 ((sumLast_iff t).mp h)) (sumBlk V c 0 t) (sumAt V c (t.val - 1) (Nat.lt_of_le_of_lt (Nat.sub_le _ _) t.isLt)).2, sumMid_acc c (grid0.coords t) (sumInAt t) (sumInAt_whole t) (sumOutAt t) (sumOutAt_whole t) sumAcc (Memref.isWhole_whole _) (fun h => h0 ((sumFirst_iff t).mp h)) (fun h => h1 ((sumLast_iff t).mp h)) (sumBlk V c 0 t) (sumAt V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem sumAt_last (c : Dev nD) (t : Fin cfg0.N) (h0 : ¬t.val = 0) (h1 : t.val = 15) :
    sumAt V c t.val t.isLt = (sumLast_out c (grid0.coords t) (sumInAt t) (sumInAt_whole t) (sumOutAt t) (sumOutAt_whole t) sumAcc (Memref.isWhole_whole _) (fun h => h0 ((sumFirst_iff t).mp h)) ((sumLast_iff t).mpr h1) (sumBlk V c 0 t) (sumAt V c (t.val - 1) (Nat.lt_of_le_of_lt (Nat.sub_le _ _) t.isLt)).2, sumLast_acc c (grid0.coords t) (sumInAt t) (sumInAt_whole t) (sumOutAt t) (sumOutAt_whole t) sumAcc (Memref.isWhole_whole _) (fun h => h0 ((sumFirst_iff t).mp h)) ((sumLast_iff t).mpr h1) (sumBlk V c 0 t) (sumAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant that carries the running total -/

/-- Before position `n`: before the first point nothing is tracked (the scratch at anything); afterwards the scratch
    holds what the point before left in it; the other scoped buffers and the generator register ride along. -/
def sumInv (c : Dev nD) : (n : ℕ) → n ≤ cfg0.N → sProp 𝕄
  | 0, _ => Pipeline.ΦA spec0 c
  | n + 1, hn => iprop(iprop(owns (c : Thread nD τ) sumAcc fullShare ((sumAt V c n hn).2) ∗ sumOthers c) ∗ (∃ r, prngReg c r))

theorem sumInv_zero (c : Dev nD) (n : ℕ) (h : n ≤ cfg0.N) (hz : n = 0) : sumInv V c n h = Pipeline.ΦA spec0 c := by
  subst hz; rfl

theorem sumInv_succ (c : Dev nD) (n : ℕ) (hn : n < cfg0.N) :
    sumInv V c (n + 1) hn = iprop(iprop(owns (c : Thread nD τ) sumAcc fullShare ((sumAt V c n hn).2) ∗ sumOthers c) ∗ (∃ r, prngReg c r)) := rfl

theorem sumInv_pos (c : Dev nD) (n : ℕ) (h : n ≤ cfg0.N) (hz : n ≠ 0) :
    sumInv V c n h = iprop(iprop(owns (c : Thread nD τ) sumAcc fullShare ((sumAt V c (n - 1) (by omega)).2) ∗ sumOthers c) ∗ (∃ r, prngReg c r)) := by
  cases n with
  | zero => exact absurd rfl hz
  | succ n => rfl

/-! ## The pipeline's proof data -/

/-- The proof data of the sum launch on core `c` at region-entry contents `V`: after the body at point `t` the input's
    buffer holds its block and the output's what `sumAt` says; the invariant carries the scratch; nothing owed. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => (sumAt V c t.val t.isLt).1
  Φ t := sumInv V c t.val (Nat.le_of_lt_succ t.isLt)
  q _ := fullShare
  owed _ := 0

theorem sumDat_A (c : Dev nD) (w : Fin cfg0.W) : (sumDat V c).A w = V c (Pipeline.arrRef spec0 w) := by
  dsimp only [sumDat]

theorem sumDat_inv_castSucc (c : Dev nD) (t : Fin cfg0.N) :
    (sumDat V c).Φ t.castSucc = sumInv V c t.val (Nat.le_of_lt t.isLt) := by
  dsimp only [sumDat]; simp only [Fin.coe_castSucc]

theorem sumDat_after_in (c : Dev nD) (t : Fin cfg0.N) : (sumDat V c).after 0 t = sumBlk V c 0 t := by dsimp only [sumDat]
theorem sumDat_after_out (c : Dev nD) (t : Fin cfg0.N) : (sumDat V c).after 1 t = (sumAt V c t.val t.isLt).1 := by dsimp only [sumDat]

theorem sumDat_before_in (c : Dev nD) (t : Fin cfg0.N) (d) : (sumDat V c).before 0 t d = sumBlk V c 0 t :=
  sumBefore_in_of V (sumDat V c) (sumDat_A V c 0) (sumDat_after_in V c) t d

/-! ## The body obligation -/

def sumBodyPre (c : Dev nD) (t : Fin cfg0.N) : sProp 𝕄 :=
  iprop((sumDat V c).Φ t.castSucc ∗ (sumDat V c).owesAt () t.castSucc
    ∗ (∃ d, owns (c : Thread nD τ) (sumInAt t) fullShare ((sumDat V c).before 0 t d))
    ∗ (∃ d, owns (c : Thread nD τ) (sumOutAt t) fullShare ((sumDat V c).before 1 t d)))

def sumBodyPost (c : Dev nD) (t : Fin cfg0.N) : sProp 𝕄 :=
  iprop((sumDat V c).Φ t.succ ∗ (sumDat V c).owesAt () t.succ
    ∗ (sumDat V c).leavesExact 0 t
    ∗ (sumDat V c).leavesExact 1 t)

set_option maxHeartbeats 4800000 in
/-- The body at any point: the input's buffer holds its block; which case the point is in is decided by its position;
    the invariant hands the body the scratch at what the point before left (at anything at the first point) and takes
    it back at this point's contents; the output's buffer is handed back untouched off the last point. -/
theorem sumBody_sound (c : Dev nD) (t : Fin cfg0.N) :
    sumBodyPre V c t ⊢ wp frame (wpE (defs₀ (F := F)) Variants.none c none) Set.univ (bodyAt0 t) (fun _ => sumBodyPost V c t) := by
  unfold sumBodyPre sumBodyPost bodyAt0
  simp only [sumDat_before_in]
  rw [show (sumDat V c).owesAt () t.succ = (sumDat V c).owesAt () t.castSucc from rfl]
  rw [show (sumDat V c).Φ t.succ = sumInv V c (t.val + 1) t.isLt from rfl, sumInv_succ]
  have hN : t.val < 16 := lt_of_lt_of_eq t.isLt (show cfg0.N = 16 from N_0)
  rw [show (sumDat V c).leavesExact 0 t = owns (c : Thread nD τ) (sumInAt t) fullShare ((sumDat V c).after 0 t) from by
    unfold Dat.leavesExact; rw [sumIn_live t], sumDat_after_in]
  by_cases h0 : t.val = 0
  · have h1 : ¬t.val = 15 := by omega
    rw [Dat.leavesExact_idle (sumDat V c) 1 t (sumOut_idle t (fun h => h1 ((sumLast_iff t).mp h))) (sumOut_noFlush t (fun h => h1 ((sumLast_iff t).mp h)))]
    rw [sumAt_first V c t h0 h1]
    unfold sumFirst_acc; (try dsimp only)
    rw [sumDat_inv_castSucc V c t, sumInv_zero V c _ _ h0, sumIdleInv_eq]
    iintro ⟨⟨⟨HS0, Hrest⟩, Hg⟩, Ho, ⟨%d0, H0⟩, ⟨%d1, H1⟩⟩
    iapply ((sumRunFirst c (grid0.coords t) _ _ _ _ _ _ ((sumFirst_iff t).mpr h0) (fun h => h1 ((sumLast_iff t).mp h)) (sumBlk V c 0 t)).2.2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (sumFirst_cover c _ _ _ _ _ _ _ _ _ _)
        iexact Hrest
      iexact Hg
    isplitl [Ho]; · iexact Ho
    isplitl [H0]; · iexact H0
    iexists _; iexact H1
  · by_cases h1 : t.val = 15
    · rw [show (sumDat V c).leavesExact 1 t = owns (c : Thread nD τ) (sumOutAt t) fullShare ((sumDat V c).after 1 t) from by
        unfold Dat.leavesExact; rw [sumOut_live t ((sumLast_iff t).mpr h1)], sumDat_after_out]
      rw [sumAt_last V c t h0 h1]
      unfold sumLast_out sumLast_acc; (try dsimp only)
      rw [sumDat_inv_castSucc V c t, sumInv_pos V c _ _ h0]
      iintro ⟨⟨⟨HS0, Hrest⟩, Hg⟩, Ho, ⟨%d0, H0⟩, ⟨%d1, H1⟩⟩
      iapply ((sumRunLast c (grid0.coords t) _ _ _ _ _ _ (fun h => h0 ((sumFirst_iff t).mp h)) ((sumLast_iff t).mpr h1) (sumBlk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (sumLast_cover c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (sumLast_outCover c _ _ _ _ _ _ _ _ _ _ _)
    · rw [Dat.leavesExact_idle (sumDat V c) 1 t (sumOut_idle t (fun h => h1 ((sumLast_iff t).mp h))) (sumOut_noFlush t (fun h => h1 ((sumLast_iff t).mp h)))]
      rw [sumAt_mid V c t h0 h1]
      unfold sumMid_acc; (try dsimp only)
      rw [sumDat_inv_castSucc V c t, sumInv_pos V c _ _ h0]
      iintro ⟨⟨⟨HS0, Hrest⟩, Hg⟩, Ho, ⟨%d0, H0⟩, ⟨%d1, H1⟩⟩
      iapply ((sumRunMid c (grid0.coords t) _ _ _ _ _ _ (fun h => h0 ((sumFirst_iff t).mp h)) (fun h => h1 ((sumLast_iff t).mp h)) (sumBlk V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (sumMid_cover c _ _ _ _ _ _ _ _ _ _ _)
          iexact Hrest
        iexact Hg
      isplitl [Ho]; · iexact Ho
      isplitl [H0]; · iexact H0
      iexists _; iexact H1

/-- The library's body obligation, at every point. -/
theorem sumBody_obligation (c : Dev nD) : BodyObligation (sumDat (F := F) V c) (defs₀ (F := F)) Variants.none () Set.univ := fun t => by
  rw [bigSep_W0, bigSep_W0]
  exact sumBody_sound V c t

/-- What the launch hands the region is the invariant before the first point. -/
theorem sumInv_in (c : Dev nD) : Pipeline.ΦA spec0 c ⊢ (sumDat V c).Φ 0 := by
  rw [show (sumDat V c).Φ 0 = sumInv V c 0 (Nat.zero_le _) from rfl, sumInv_zero V c 0 _ rfl]
  try exact Idealize.SL.BI.Entails.refl _

/-- After the last point the invariant gives the untracked form back: the scratch's named contents are forgotten. -/
theorem sumInv_out (c : Dev nD) : (sumDat V c).Φ (Fin.last cfg0.N) ⊢ Pipeline.ΦA spec0 c := by
  rw [show (sumDat V c).Φ (Fin.last cfg0.N) = sumInv V c (Fin.last cfg0.N).val (Nat.le_of_lt_succ (Fin.last cfg0.N).isLt) from rfl,
    sumInv_pos V c _ _ (by rw [Fin.val_last]; have : cfg0.N = 16 := N_0; omega), sumIdleInv_eq]
  iintro ⟨⟨HS0, Hrest⟩, Hg⟩
  isplitl [HS0 Hrest]
  · isplitl [HS0]
    · iexists _; iexact HS0
    iexact Hrest
  iexact Hg

end Cert.Kernel.Gen

end
-- ==== Proof.Kernel.VarBody.lean ====
/-
  The per-channel squared-deviation kernel (the program's second launch) as a body the pipeline calls at each of
  its 16 grid points. The body keeps a running per-channel total in a scratch vector of shape [1, 256, 1]: at the
  first point it clears the scratch; at every point it subtracts the per-channel mean (a block [1, 256, 1], the same
  at every point) from the point's block [4, 256, 3136], squares, sums over the last axis and then over the first,
  and adds the result to the scratch; at the last point it copies the scratch into the output block. So a point is
  in one of three control cases — first (clear, add), middle (add), last (add, copy out) — and this module runs the
  body once per case: from the input block, the mean block, the output block's buffer and the scratch it is handed,
  to the stores it leaves in the output's buffer and in the scratch, listed last store first. The input block and
  the mean block are read only: the body hands both back as it found them.
-/
import proofs.«156847_j180388626588_1_alg».proof.Proof.Gen.Kernel.Launch
import proofs.«156847_j180388626588_1_alg».proof.Proof.Gen.Kernel.Skeleton
import proofs.«156847_j180388626588_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The body's first branch, "this is the first point": the clear of the running total. -/
abbrev varFirst (i : grid1.Coords) : Prop := (Scalar.cmpi .ne (Scalar.extui (Scalar.cmpi .eq (BitVec.ofNat 32 (i 0).val) 0#32)) 0#32) = 1#1
/-- It is taken at point 0 only. -/
theorem varFirst_iff : ∀ t : Fin cfg1.N, varFirst (grid1.coords t) ↔ t.val = 0 :=
  (by decide +kernel : ∀ t : Fin grid1.N, varFirst (grid1.coords t) ↔ t.val = 0)

/-- The body's second branch, "this is the last point": the copy of the running total into the output block. -/
abbrev varLast (i : grid1.Coords) : Prop := k1_cond2 i = 1#1
/-- It is taken at point 15 only. -/
theorem varLast_iff : ∀ t : Fin cfg1.N, varLast (grid1.coords t) ↔ t.val = 15 :=
  (by decide +kernel : ∀ t : Fin grid1.N, varLast (grid1.coords t) ↔ t.val = 15)

/-! ## Where the windows are idle -/

/-- The input window is never idle. -/
theorem varIn_live : ∀ t : Fin cfg1.N, cfg1.idle 0 (grid1.coords t) = false := by decide +kernel
/-- The mean's window is never idle. -/
theorem varMean_live : ∀ t : Fin cfg1.N, cfg1.idle 1 (grid1.coords t) = false := by decide +kernel
/-- Off the last point the body stores nothing into the output block: the window is idle there, -/
theorem varOut_idle : ∀ t : Fin cfg1.N, ¬varLast (grid1.coords t) → cfg1.idle 2 (grid1.coords t) = true := by decide +kernel
/-- and the pipeline does not write its block back there. -/
theorem varOut_noFlush : ∀ t : Fin cfg1.N, ¬varLast (grid1.coords t) → (cfg1.win 2).flush t = false := by decide +kernel
/-- At the last point the output window is live. -/
theorem varOut_live : ∀ t : Fin cfg1.N, varLast (grid1.coords t) → cfg1.idle 2 (grid1.coords t) = false := by decide +kernel

/-! ## The buffers the body is called on -/

/-- The staging buffer of the output window, through which the output block's contents are stated. -/
abbrev varOutView : View sig .tc .vmem S1x256x1 .f32 := (Memref.whole cc1_stg2_0 : Memref sig .tc .vmem S1x256x1 .f32).view
/-- The staging buffers the pipeline passes at point `t`, and that they are whole. -/
abbrev varInAt (t : Fin cfg1.N) : Memref sig .tc .vmem S4x256x3136 .f32 := win1_0.stage (cfg1.slots t 0)
abbrev varInAt_whole (t : Fin cfg1.N) : (varInAt t).IsWhole := hstage1_0 ((cfg1.slots t 0).cast nbuf1_0)
abbrev varMeanAt (t : Fin cfg1.N) : Memref sig .tc .vmem S1x256x1 .f32 := win1_1.stage (cfg1.slots t 1)
abbrev varMeanAt_whole (t : Fin cfg1.N) : (varMeanAt t).IsWhole := hstage1_1 ((cfg1.slots t 1).cast nbuf1_1)
abbrev varOutAt (t : Fin cfg1.N) : Memref sig .tc .vmem S1x256x1 .f32 := win1_2.stage (cfg1.slots t 2)
abbrev varOutAt_whole (t : Fin cfg1.N) : (varOutAt t).IsWhole := hstage1_2 ((cfg1.slots t 2).cast nbuf1_2)
/-- The running total's scratch buffer, and its view. -/
abbrev varAcc : Memref sig .tc .vmem S1x256x1 .f32 := Memref.whole cc1_scratch0
abbrev varAccView : View sig .tc .vmem S1x256x1 .f32 := varAcc.view

/-- The scoped buffers of the core that this launch neither stages through nor uses as its scratch (the other two
    launches' staging buffers and the first launch's scratch), each at some contents: they ride through this launch
    unopened. -/
abbrev varOthers (c : Dev nD) : sProp 𝕄 :=
  Pipeline.scopedRestBut (Ix := Unit) (Name := ℕ) (U := UR sig nD τ) (Lvl := ℕ) (Val := Elt F) spec1 c [cc1_scratch0]

/-- What the region's invariant holds while no contents are tracked: the scratch at some contents, the other scoped
    buffers, and the generator register at some state. -/
theorem varIdleInv_eq (c : Dev nD) :
    (Pipeline.ΦA spec1 c : sProp 𝕄)
      = iprop(iprop((∃ d, owns (c : Thread nD τ) varAcc fullShare d) ∗ varOthers c) ∗ (∃ r, prngReg c r)) := by
  unfold Pipeline.ΦA
  rw [Pipeline.scopedRest_split_of_list spec1 c [cc1_scratch0] (by decide) (by decide)]
  simp only [varAcc, owns_whole]; try rfl

/-! ## The body, case by case -/

set_option maxHeartbeats 1000000 in
/-- THE FIRST POINT (clear, add; no copy out). On whole buffers — the input block's at `x0`, the mean's at `x1`, the
    output block's at `xo` (all three handed back untouched), the scratch at anything — the body runs to the
    continuation holding the scratch with the stores `LS` written; `LO` (no store) is what it leaves in the output's
    buffer. -/
noncomputable def varRunFirst (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i)
    (x0 : Vec F S4x256x3136 .f32) (x1 : Vec F S1x256x1 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__var_kernel i arg1 harg1 arg2 harg2 arg3 harg3 arg4 harg4) K } := by
  refine ⟨[], ?_, fun xo E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (add only). The scratch is handed over at what the point before left, `xs`. -/
noncomputable def varRunMid (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i)
    (x0 : Vec F S4x256x3136 .f32) (x1 : Vec F S1x256x1 .f32) (xs : Vec F S1x256x1 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__var_kernel i arg1 harg1 arg2 harg2 arg3 harg3 arg4 harg4) K } := by
  refine ⟨[], ?_, fun xo E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (add, copy out). The output block's buffer is taken at anything and left with the stores `LO`. -/
noncomputable def varRunLast (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i)
    (x0 : Vec F S4x256x3136 .f32) (x1 : Vec F S1x256x1 .f32) (xs : Vec F S1x256x1 .f32) :
    Σ' (LO : List (View.Piece (Elt F) S1x256x1 .f32)), { LS : List (View.Piece (Elt F) S1x256x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc1__var_kernel i arg1 harg1 arg2 harg2 arg3 harg3 arg4 harg4) K } := by
  refine ⟨?_, ?_, fun E K => ?run⟩
  case run =>
    simp only [cc1__var_kernel_eq_skeleton]; unfold cc1__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Gen

end
-- ==== Proof.Kernel.VarRegion.lean ====
/-
  The per-channel squared-deviation launch as a REGION of the program: what its scratch (the running per-channel
  total) and its output block hold after each of the 16 grid points, the invariant that carries the scratch's contents
  from one point to the next, the pipeline's proof data at given region-entry contents `V`, and the body obligation.
  After point 0 the scratch holds the first case's stores; after a later point, the middle (or last) case's stores
  over what the point before left; the output block's buffer is stored into at the last point only. The mean's block
  is the same at every point: its window is fetched once and its buffer holds that block throughout.
-/
import proofs.«156847_j180388626588_1_alg».proof.Proof.Kernel.VarBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks at a point -/

/-- Window `w`'s block at point `t`, read off its array as the region finds it. -/
def varBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point, never
    cut, never idle), for any proof data whose array is `V`'s and whose body leaves the block in place. -/
theorem varBefore_in_of {c : Dev nD} (dat : Dat τ (Elt F) Unit ℕ (UR sig nD τ) ℕ cfg1 c) (hA : dat.A 0 = V c (Pipeline.arrRef spec1 0))
    (hafter : ∀ t, dat.after 0 t = varBlk V c 0 t) (t : Fin cfg1.N) (d) : dat.before 0 t d = varBlk V c 0 t :=
  (dat.before_in_eq_fetched 0 rfl (fun _ => rfl) (fun _ _ _ => rfl) (fun t => by rw [hafter]; unfold Dat.blockOf varBlk; rw [hA]; try rfl) t d).trans
    (by unfold Dat.fetched Dat.blockOf varBlk; rw [hA]; try rfl)

/-- The mean window's staging buffer holds its block at every point: it is fetched at the first point only, but its
    block index never moves and the body leaves the block in place, so the buffer still holds it afterwards. -/
theorem varBefore_mean_of {c : Dev nD} (dat : Dat τ (Elt F) Unit ℕ (UR sig nD τ) ℕ cfg1 c) (hA : dat.A 1 = V c (Pipeline.arrRef spec1 1))
    (hafter : ∀ t, dat.after 1 t = varBlk V c 1 t) (t : Fin cfg1.N) (d) : dat.before 1 t d = varBlk V c 1 t :=
  (dat.before_in_eq_fetched 1 rfl (fun _ => rfl) (fun _ _ _ => rfl) (fun t => by rw [hafter]; unfold Dat.blockOf varBlk; rw [hA]; try rfl) t d).trans
    (by unfold Dat.fetched Dat.blockOf varBlk; rw [hA]; try rfl)

/-! ## What each case leaves -/

/-- The first case's stores into the scratch cover it. -/
theorem varFirst_cover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) (y : S1x256x1.Idx) :
    ∃ pc ∈ (varRunFirst c i arg1 harg1 arg2 harg2 arg3 harg3 arg4 harg4 hc0 hc1 x0 x1).2.1, y ∈ pc.1.set :=
  View.cover_of_tiledL (varRunFirst c i arg1 harg1 arg2 harg2 arg3 harg3 arg4 harg4 hc0 hc1 x0 x1).2.1 S1x256x1.size (by sl_kernel_rfl) y
/-- What the first case leaves in the scratch. -/
def varFirst_acc (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) : Vec F S1x256x1 .f32 :=
  varAccView.read (Elt F) (varAccView.writes (Elt F) varAccView.junk (varRunFirst c i arg1 harg1 arg2 harg2 arg3 harg3 arg4 harg4 hc0 hc1 x0 x1).2.1)
/-- The first case stores nothing into the output block: a placeholder nothing consults. -/
def varFirst_out (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) : Vec F S1x256x1 .f32 :=
  varOutView.read (Elt F) (varOutView.writes (Elt F) varOutView.junk (varRunFirst c i arg1 harg1 arg2 harg2 arg3 harg3 arg4 harg4 hc0 hc1 x0 x1).1)

/-- A middle case's stores into the scratch cover it. -/
theorem varMid_cover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) (y : S1x256x1.Idx) :
    ∃ pc ∈ (varRunMid c i arg1 harg1 arg2 harg2 arg3 harg3 arg4 harg4 hc0 hc1 x0 x1 xs).2.1, y ∈ pc.1.set :=
  View.cover_of_tiledL (varRunMid c i arg1 harg1 arg2 harg2 arg3 harg3 arg4 harg4 hc0 hc1 x0 x1 xs).2.1 S1x256x1.size (by sl_kernel_rfl) y
/-- What a middle case leaves in the scratch, over what the point before left (`xs`). -/
def varMid_acc (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) : Vec F S1x256x1 .f32 :=
  varAccView.read (Elt F) (varAccView.writes (Elt F) varAccView.junk (varRunMid c i arg1 harg1 arg2 harg2 arg3 harg3 arg4 harg4 hc0 hc1 x0 x1 xs).2.1)
/-- A middle case stores nothing into the output block: a placeholder nothing consults. -/
def varMid_out (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) : Vec F S1x256x1 .f32 :=
  varOutView.read (Elt F) (varOutView.writes (Elt F) varOutView.junk (varRunMid c i arg1 harg1 arg2 harg2 arg3 harg3 arg4 harg4 hc0 hc1 x0 x1 xs).1)

/-- The last case's stores into the scratch cover it, -/
theorem varLast_cover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) (y : S1x256x1.Idx) :
    ∃ pc ∈ (varRunLast c i arg1 harg1 arg2 harg2 arg3 harg3 arg4 harg4 hc0 hc1 x0 x1 xs).2.1, y ∈ pc.1.set :=
  View.cover_of_tiledL (varRunLast c i arg1 harg1 arg2 harg2 arg3 harg3 arg4 harg4 hc0 hc1 x0 x1 xs).2.1 S1x256x1.size (by sl_kernel_rfl) y
/-- and its store into the output block covers the block. -/
theorem varLast_outCover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) (y : S1x256x1.Idx) :
    ∃ pc ∈ (varRunLast c i arg1 harg1 arg2 harg2 arg3 harg3 arg4 harg4 hc0 hc1 x0 x1 xs).1, y ∈ pc.1.set :=
  View.cover_of_tiledL (varRunLast c i arg1 harg1 arg2 harg2 arg3 harg3 arg4 harg4 hc0 hc1 x0 x1 xs).1 S1x256x1.size (by sl_kernel_rfl) y
/-- What the last case leaves in the scratch, -/
def varLast_acc (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) : Vec F S1x256x1 .f32 :=
  varAccView.read (Elt F) (varAccView.writes (Elt F) varAccView.junk (varRunLast c i arg1 harg1 arg2 harg2 arg3 harg3 arg4 harg4 hc0 hc1 x0 x1 xs).2.1)
/-- and in the output block's buffer. -/
def varLast_out (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) : Vec F S1x256x1 .f32 :=
  varOutView.read (Elt F) (varOutView.writes (Elt F) varOutView.junk (varRunLast c i arg1 harg1 arg2 harg2 arg3 harg3 arg4 harg4 hc0 hc1 x0 x1 xs).1)

/-! ## Point by point -/

/-- THE ACCUMULATION. What the output block's buffer (first component) and the scratch (second component) hold after the
    body at position `n`: point 0 is the first case; a later point is the last case at position 15 and a middle case
    otherwise, run over the scratch the point before left and over the mean's block. -/
def varAt (c : Dev nD) : (n : ℕ) → n < cfg1.N → Vec F S1x256x1 .f32 × Vec F S1x256x1 .f32
  | 0, hn =>
    (varFirst_out c (grid1.coords ⟨0, hn⟩) (varInAt ⟨0, hn⟩) (varInAt_whole ⟨0, hn⟩) (varMeanAt ⟨0, hn⟩) (varMeanAt_whole ⟨0, hn⟩) (varOutAt ⟨0, hn⟩) (varOutAt_whole ⟨0, hn⟩) varAcc (Memref.isWhole_whole _) ((varFirst_iff ⟨0, hn⟩).mpr rfl) (fun h => absurd ((varLast_iff ⟨0, hn⟩).mp h) (show ¬ (0 : ℕ) = 15 by decide)) (varBlk V c 0 ⟨0, hn⟩) (varBlk V c 1 ⟨0, hn⟩),
     varFirst_acc c (grid1.coords ⟨0, hn⟩) (varInAt ⟨0, hn⟩) (varInAt_whole ⟨0, hn⟩) (varMeanAt ⟨0, hn⟩) (varMeanAt_whole ⟨0, hn⟩) (varOutAt ⟨0, hn⟩) (varOutAt_whole ⟨0, hn⟩) varAcc (Memref.isWhole_whole _) ((varFirst_iff ⟨0, hn⟩).mpr rfl) (fun h => absurd ((varLast_iff ⟨0, hn⟩).mp h) (show ¬ (0 : ℕ) = 15 by decide)) (varBlk V c 0 ⟨0, hn⟩) (varBlk V c 1 ⟨0, hn⟩))
  | n + 1, hn =>
    if h1 : n + 1 = 15 then
      (varLast_out c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) ((varLast_iff ⟨n + 1, hn⟩).mpr h1) (varBlk V c 0 ⟨n + 1, hn⟩) (varBlk V c 1 ⟨n + 1, hn⟩) (varAt c n (Nat.lt_of_succ_lt hn)).2,
       varLast_acc c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) ((varLast_iff ⟨n + 1, hn⟩).mpr h1) (varBlk V c 0 ⟨n + 1, hn⟩) (varBlk V c 1 ⟨n + 1, hn⟩) (varAt c n (Nat.lt_of_succ_lt hn)).2)
    else
      (varMid_out c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) (fun h => h1 ((varLast_iff ⟨n + 1, hn⟩).mp h)) (varBlk V c 0 ⟨n + 1, hn⟩) (varBlk V c 1 ⟨n + 1, hn⟩) (varAt c n (Nat.lt_of_succ_lt hn)).2,
       varMid_acc c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) (fun h => h1 ((varLast_iff ⟨n + 1, hn⟩).mp h)) (varBlk V c 0 ⟨n + 1, hn⟩) (varBlk V c 1 ⟨n + 1, hn⟩) (varAt c n (Nat.lt_of_succ_lt hn)).2)

/-- At the first point: the first case's contents. -/
theorem varAt_first (c : Dev nD) (t : Fin cfg1.N) (h0 : t.val = 0) (h1 : ¬t.val = 15) :
    varAt V c t.val t.isLt = (varFirst_out c (grid1.coords t) (varInAt t) (varInAt_whole t) (varMeanAt t) (varMeanAt_whole t) (varOutAt t) (varOutAt_whole t) varAcc (Memref.isWhole_whole _) ((varFirst_iff t).mpr h0) (fun h => h1 ((varLast_iff t).mp h)) (varBlk V c 0 t) (varBlk V c 1 t), varFirst_acc c (grid1.coords t) (varInAt t) (varInAt_whole t) (varMeanAt t) (varMeanAt_whole t) (varOutAt t) (varOutAt_whole t) varAcc (Memref.isWhole_whole _) ((varFirst_iff t).mpr h0) (fun h => h1 ((varLast_iff t).mp h)) (varBlk V c 0 t) (varBlk V c 1 t)) := by
  obtain ⟨n, hn⟩ := t
  cases n with
  | zero => exact rfl
  | succ n => exact absurd h0 (Nat.succ_ne_zero n)

/-- At a middle point: the middle case's contents, over what the point before left. -/
theorem varAt_mid (c : Dev nD) (t : Fin cfg1.N) (h0 : ¬t.val = 0) (h1 : ¬t.val = 15) :
    varAt V c t.val t.isLt = (varMid_out c (grid1.coords t) (varInAt t) (varInAt_whole t) (varMeanAt t) (varMeanAt_whole t) (varOutAt t) (varOutAt_whole t) varAcc (Memref.isWhole_whole _) (fun h => h0 ((varFirst_iff t).mp h)) (fun h => h1 ((varLast_iff t).mp h)) (varBlk V c 0 t) (varBlk V c 1 t) (varAt V c (t.val - 1) (Nat.lt_of_le_of_lt (Nat.sub_le _ _) t.isLt)).2, varMid_acc c (grid1.coords t) (varInAt t) (varInAt_whole t) (varMeanAt t) (varMeanAt_whole t) (varOutAt t) (varOutAt_whole t) varAcc (Memref.isWhole_whole _) (fun h => h0 ((varFirst_iff t).mp h)) (fun h => h1 ((varLast_iff t).mp h)) (varBlk V c 0 t) (varBlk V c 1 t) (varAt V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem varAt_last (c : Dev nD) (t : Fin cfg1.N) (h0 : ¬t.val = 0) (h1 : t.val = 15) :
    varAt V c t.val t.isLt = (varLast_out c (grid1.coords t) (varInAt t) (varInAt_whole t) (varMeanAt t) (varMeanAt_whole t) (varOutAt t) (varOutAt_whole t) varAcc (Memref.isWhole_whole _) (fun h => h0 ((varFirst_iff t).mp h)) ((varLast_iff t).mpr h1) (varBlk V c 0 t) (varBlk V c 1 t) (varAt V c (t.val - 1) (Nat.lt_of_le_of_lt (Nat.sub_le _ _) t.isLt)).2, varLast_acc c (grid1.coords t) (varInAt t) (varInAt_whole t) (varMeanAt t) (varMeanAt_whole t) (varOutAt t) (varOutAt_whole t) varAcc (Memref.isWhole_whole _) (fun h => h0 ((varFirst_iff t).mp h)) ((varLast_iff t).mpr h1) (varBlk V c 0 t) (varBlk V c 1 t) (varAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant that carries the running total -/

/-- Before position `n`: before the first point nothing is tracked (the scratch at anything); afterwards the scratch
    holds what the point before left in it; the other scoped buffers and the generator register ride along. -/
def varInv (c : Dev nD) : (n : ℕ) → n ≤ cfg1.N → sProp 𝕄
  | 0, _ => Pipeline.ΦA spec1 c
  | n + 1, hn => iprop(iprop(owns (c : Thread nD τ) varAcc fullShare ((varAt V c n hn).2) ∗ varOthers c) ∗ (∃ r, prngReg c r))

theorem varInv_zero (c : Dev nD) (n : ℕ) (h : n ≤ cfg1.N) (hz : n = 0) : varInv V c n h = Pipeline.ΦA spec1 c := by
  subst hz; rfl

theorem varInv_succ (c : Dev nD) (n : ℕ) (hn : n < cfg1.N) :
    varInv V c (n + 1) hn = iprop(iprop(owns (c : Thread nD τ) varAcc fullShare ((varAt V c n hn).2) ∗ varOthers c) ∗ (∃ r, prngReg c r)) := rfl

theorem varInv_pos (c : Dev nD) (n : ℕ) (h : n ≤ cfg1.N) (hz : n ≠ 0) :
    varInv V c n h = iprop(iprop(owns (c : Thread nD τ) varAcc fullShare ((varAt V c (n - 1) (by omega)).2) ∗ varOthers c) ∗ (∃ r, prngReg c r)) := by
  cases n with
  | zero => exact absurd rfl hz
  | succ n => rfl

/-! ## The pipeline's proof data -/

/-- The proof data of the squared-deviation launch on core `c` at region-entry contents `V`: after the body at point `t`
    the input's buffer and the mean's buffer hold their blocks and the output's what `varAt` says; the invariant
    carries the scratch; nothing owed. -/
def varDat (c : Dev nD) : Dat τ (Elt F) Unit ℕ (UR sig nD τ) ℕ cfg1 c where
  A w := V c (Pipeline.arrRef spec1 w)
  after w t := match w with
    | ⟨0, _⟩ => varBlk V c 0 t
    | ⟨1, _⟩ => varBlk V c 1 t
    | ⟨2, _⟩ => (varAt V c t.val t.isLt).1
  Φ t := varInv V c t.val (Nat.le_of_lt_succ t.isLt)
  q _ := fullShare
  owed _ := 0

theorem varDat_A (c : Dev nD) (w : Fin cfg1.W) : (varDat V c).A w = V c (Pipeline.arrRef spec1 w) := by
  dsimp only [varDat]

theorem varDat_inv_castSucc (c : Dev nD) (t : Fin cfg1.N) :
    (varDat V c).Φ t.castSucc = varInv V c t.val (Nat.le_of_lt t.isLt) := by
  dsimp only [varDat]; simp only [Fin.coe_castSucc]

theorem varDat_after_in (c : Dev nD) (t : Fin cfg1.N) : (varDat V c).after 0 t = varBlk V c 0 t := by dsimp only [varDat]
theorem varDat_after_mean (c : Dev nD) (t : Fin cfg1.N) : (varDat V c).after 1 t = varBlk V c 1 t := by dsimp only [varDat]
theorem varDat_after_out (c : Dev nD) (t : Fin cfg1.N) : (varDat V c).after 2 t = (varAt V c t.val t.isLt).1 := by dsimp only [varDat]

theorem varDat_before_in (c : Dev nD) (t : Fin cfg1.N) (d) : (varDat V c).before 0 t d = varBlk V c 0 t :=
  varBefore_in_of V (varDat V c) (varDat_A V c 0) (varDat_after_in V c) t d
theorem varDat_before_mean (c : Dev nD) (t : Fin cfg1.N) (d) : (varDat V c).before 1 t d = varBlk V c 1 t :=
  varBefore_mean_of V (varDat V c) (varDat_A V c 1) (varDat_after_mean V c) t d

/-! ## The body obligation -/

def varBodyPre (c : Dev nD) (t : Fin cfg1.N) : sProp 𝕄 :=
  iprop((varDat V c).Φ t.castSucc ∗ (varDat V c).owesAt () t.castSucc
    ∗ (∃ d, owns (c : Thread nD τ) (varInAt t) fullShare ((varDat V c).before 0 t d))
    ∗ (∃ d, owns (c : Thread nD τ) (varMeanAt t) fullShare ((varDat V c).before 1 t d))
    ∗ (∃ d, owns (c : Thread nD τ) (varOutAt t) fullShare ((varDat V c).before 2 t d)))

def varBodyPost (c : Dev nD) (t : Fin cfg1.N) : sProp 𝕄 :=
  iprop((varDat V c).Φ t.succ ∗ (varDat V c).owesAt () t.succ
    ∗ (varDat V c).leavesExact 0 t
    ∗ (varDat V c).leavesExact 1 t
    ∗ (varDat V c).leavesExact 2 t)

set_option maxHeartbeats 4800000 in
/-- The body at any point: the input's and the mean's buffers hold their blocks; which case the point is in is decided
    by its position; the invariant hands the body the scratch at what the point before left (at anything at the first
    point) and takes it back at this point's contents; the output's buffer is handed back untouched off the last
    point. -/
theorem varBody_sound (c : Dev nD) (t : Fin cfg1.N) :
    varBodyPre V c t ⊢ wp frame (wpE (defs₀ (F := F)) Variants.none c none) Set.univ (bodyAt1 t) (fun _ => varBodyPost V c t) := by
  unfold varBodyPre varBodyPost bodyAt1
  simp only [varDat_before_in, varDat_before_mean]
  rw [show (varDat V c).owesAt () t.succ = (varDat V c).owesAt () t.castSucc from rfl]
  rw [show (varDat V c).Φ t.succ = varInv V c (t.val + 1) t.isLt from rfl, varInv_succ]
  have hN : t.val < 16 := lt_of_lt_of_eq t.isLt (show cfg1.N = 16 from N_1)
  rw [show (varDat V c).leavesExact 0 t = owns (c : Thread nD τ) (varInAt t) fullShare ((varDat V c).after 0 t) from by
    unfold Dat.leavesExact; rw [varIn_live t], varDat_after_in]
  rw [show (varDat V c).leavesExact 1 t = owns (c : Thread nD τ) (varMeanAt t) fullShare ((varDat V c).after 1 t) from by
    unfold Dat.leavesExact; rw [varMean_live t], varDat_after_mean]
  by_cases h0 : t.val = 0
  · have h1 : ¬t.val = 15 := by omega
    rw [Dat.leavesExact_idle (varDat V c) 2 t (varOut_idle t (fun h => h1 ((varLast_iff t).mp h))) (varOut_noFlush t (fun h => h1 ((varLast_iff t).mp h)))]
    rw [varAt_first V c t h0 h1]
    unfold varFirst_acc; (try dsimp only)
    rw [varDat_inv_castSucc V c t, varInv_zero V c _ _ h0, varIdleInv_eq]
    iintro ⟨⟨⟨HS0, Hrest⟩, Hg⟩, Ho, ⟨%d0, H0⟩, ⟨%d1, H1⟩, ⟨%d2, H2⟩⟩
    iapply ((varRunFirst c (grid1.coords t) _ _ _ _ _ _ _ _ ((varFirst_iff t).mpr h0) (fun h => h1 ((varLast_iff t).mp h)) (varBlk V c 0 t) (varBlk V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (varFirst_cover c _ _ _ _ _ _ _ _ _ _ _ _ _)
        iexact Hrest
      iexact Hg
    isplitl [Ho]; · iexact Ho
    isplitl [H0]; · iexact H0
    isplitl [H1]; · iexact H1
    iexists _; iexact H2
  · by_cases h1 : t.val = 15
    · rw [show (varDat V c).leavesExact 2 t = owns (c : Thread nD τ) (varOutAt t) fullShare ((varDat V c).after 2 t) from by
        unfold Dat.leavesExact; rw [varOut_live t ((varLast_iff t).mpr h1)], varDat_after_out]
      rw [varAt_last V c t h0 h1]
      unfold varLast_out varLast_acc; (try dsimp only)
      rw [varDat_inv_castSucc V c t, varInv_pos V c _ _ h0]
      iintro ⟨⟨⟨HS0, Hrest⟩, Hg⟩, Ho, ⟨%d0, H0⟩, ⟨%d1, H1⟩, ⟨%d2, H2⟩⟩
      iapply ((varRunLast c (grid1.coords t) _ _ _ _ _ _ _ _ (fun h => h0 ((varFirst_iff t).mp h)) ((varLast_iff t).mpr h1) (varBlk V c 0 t) (varBlk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (varLast_cover c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (varLast_outCover c _ _ _ _ _ _ _ _ _ _ _ _ _ _)
    · rw [Dat.leavesExact_idle (varDat V c) 2 t (varOut_idle t (fun h => h1 ((varLast_iff t).mp h))) (varOut_noFlush t (fun h => h1 ((varLast_iff t).mp h)))]
      rw [varAt_mid V c t h0 h1]
      unfold varMid_acc; (try dsimp only)
      rw [varDat_inv_castSucc V c t, varInv_pos V c _ _ h0]
      iintro ⟨⟨⟨HS0, Hrest⟩, Hg⟩, Ho, ⟨%d0, H0⟩, ⟨%d1, H1⟩, ⟨%d2, H2⟩⟩
      iapply ((varRunMid c (grid1.coords t) _ _ _ _ _ _ _ _ (fun h => h0 ((varFirst_iff t).mp h)) (fun h => h1 ((varLast_iff t).mp h)) (varBlk V c 0 t) (varBlk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (varMid_cover c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem varBody_obligation (c : Dev nD) : BodyObligation (varDat (F := F) V c) (defs₀ (F := F)) Variants.none () Set.univ := fun t => by
  rw [bigSep_W1, bigSep_W1]
  exact varBody_sound V c t

/-- What the launch hands the region is the invariant before the first point. -/
theorem varInv_in (c : Dev nD) : Pipeline.ΦA spec1 c ⊢ (varDat V c).Φ 0 := by
  rw [show (varDat V c).Φ 0 = varInv V c 0 (Nat.zero_le _) from rfl, varInv_zero V c 0 _ rfl]
  try exact Idealize.SL.BI.Entails.refl _

/-- After the last point the invariant gives the untracked form back: the scratch's named contents are forgotten. -/
theorem varInv_out (c : Dev nD) : (varDat V c).Φ (Fin.last cfg1.N) ⊢ Pipeline.ΦA spec1 c := by
  rw [show (varDat V c).Φ (Fin.last cfg1.N) = varInv V c (Fin.last cfg1.N).val (Nat.le_of_lt_succ (Fin.last cfg1.N).isLt) from rfl,
    varInv_pos V c _ _ (by rw [Fin.val_last]; have : cfg1.N = 16 := N_1; omega), varIdleInv_eq]
  iintro ⟨⟨HS0, Hrest⟩, Hg⟩
  isplitl [HS0 Hrest]
  · isplitl [HS0]
    · iexists _; iexact HS0
    iexact Hrest
  iexact Hg

end Cert.Kernel.Gen

end
-- ==== Proof.Kernel.NormBody.lean ====
/-
  The normalize kernel (the program's third launch) as a body the pipeline calls at each of its 32 grid points.
  At a point the body reads the input block [2, 256, 3136] and four per-channel vectors of shape [1, 256, 1]
  (mean, scale, gamma, beta), forms ((x - mean) * scale) * gamma + beta with each vector spread along the first
  and last axes, and stores the result over the whole output block. It keeps nothing from point to point and
  takes no branch: every point is the same single control case. This module runs the body once: from the five
  input buffers and the output block's buffer at anything, to the one store it leaves in the output's buffer.
-/
import proofs.«156847_j180388626588_1_alg».proof.Proof.Gen.Kernel.Launch
import proofs.«156847_j180388626588_1_alg».proof.Proof.Gen.Kernel.Skeleton
import proofs.«156847_j180388626588_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers the body is called on -/

/-- One staging buffer of the output window, through which the output block's contents are stated. -/
abbrev normOutView : View sig .tc .vmem S2x256x3136 .f32 := (Memref.whole cc2_stg5_0 : Memref sig .tc .vmem S2x256x3136 .f32).view

/-- The staging buffers the pipeline passes at point `t`, and that they are whole: the input block's, -/
abbrev normInAt (t : Fin cfg2.N) : Memref sig .tc .vmem S2x256x3136 .f32 := win2_0.stage (cfg2.slots t 0)
abbrev normInAt_whole (t : Fin cfg2.N) : (normInAt t).IsWhole := hstage2_0 ((cfg2.slots t 0).cast nbuf2_0)
/-- the per-channel mean's, -/
abbrev normMeanAt (t : Fin cfg2.N) : Memref sig .tc .vmem S1x256x1 .f32 := win2_1.stage (cfg2.slots t 1)
abbrev normMeanAt_whole (t : Fin cfg2.N) : (normMeanAt t).IsWhole := hstage2_1 ((cfg2.slots t 1).cast nbuf2_1)
/-- the per-channel scale's (the reciprocal of the standard deviation), -/
abbrev normScaleAt (t : Fin cfg2.N) : Memref sig .tc .vmem S1x256x1 .f32 := win2_2.stage (cfg2.slots t 2)
abbrev normScaleAt_whole (t : Fin cfg2.N) : (normScaleAt t).IsWhole := hstage2_2 ((cfg2.slots t 2).cast nbuf2_2)
/-- the per-channel gain's, -/
abbrev normGammaAt (t : Fin cfg2.N) : Memref sig .tc .vmem S1x256x1 .f32 := win2_3.stage (cfg2.slots t 3)
abbrev normGammaAt_whole (t : Fin cfg2.N) : (normGammaAt t).IsWhole := hstage2_3 ((cfg2.slots t 3).cast nbuf2_3)
/-- the per-channel offset's, -/
abbrev normBetaAt (t : Fin cfg2.N) : Memref sig .tc .vmem S1x256x1 .f32 := win2_4.stage (cfg2.slots t 4)
abbrev normBetaAt_whole (t : Fin cfg2.N) : (normBetaAt t).IsWhole := hstage2_4 ((cfg2.slots t 4).cast nbuf2_4)
/-- and the output block's. -/
abbrev normOutAt (t : Fin cfg2.N) : Memref sig .tc .vmem S2x256x3136 .f32 := win2_5.stage (cfg2.slots t 5)
abbrev normOutAt_whole (t : Fin cfg2.N) : (normOutAt t).IsWhole := hstage2_5 ((cfg2.slots t 5).cast nbuf2_5)

/-! ## The body -/

set_option maxHeartbeats 1000000 in
/-- THE ONE CASE. On whole buffers — the input block's at `x0`, the four per-channel vectors' at `x1` … `x4`, the
    output block's at anything — the body runs to the continuation holding the five inputs as they were and the
    output's buffer with the stores `LO` written. -/
noncomputable def normRun (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) :
    { LO : List (View.Piece (Elt F) S2x256x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LO)) -∗ K ⟨⟩))
          ⊢ wp frame (wpE (defs₀ (F := F)) Variants.none c none) E (cc2__norm_kernel i arg1 harg1 arg2 harg2 arg3 harg3 arg4 harg4 arg5 harg5 arg6 harg6) K } := by
  refine ⟨?_, fun E K => ?run⟩
  case run =>
    simp only [cc2__norm_kernel_eq_skeleton]; unfold cc2__norm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Gen

end
-- ==== Proof.Kernel.NormRegion.lean ====
/-
  The normalize launch as a REGION of the program: what each of its six windows' current staging buffers holds after
  each of the 32 grid points, the pipeline's proof data at given region-entry contents `V`, and the body obligation.
  The five input windows are left as found: the input block is fetched at every point; the four per-channel vectors
  have a constant block index, are fetched at the first point only, and still hold their one block at every later
  point. The output block is stored whole at every point, as a function of the five input blocks there. Nothing is
  carried from point to point, so the invariant is the untracked one throughout.
-/
import proofs.«156847_j180388626588_1_alg».proof.Proof.Kernel.NormBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def normBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point (it is fetched at every point, never
    cut, never idle), for any proof data whose array is `V`'s and whose body leaves the block in place. -/
theorem normBefore0_of {c : Dev nD} (dat : Dat τ (Elt F) Unit ℕ (UR sig nD τ) ℕ cfg2 c) (hA : dat.A 0 = V c (Pipeline.arrRef spec2 0))
    (hafter : ∀ t, dat.after 0 t = normBlk V c 0 t) (t : Fin cfg2.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

/-- The mean window's buffer holds its block at every point: fetched at the first point only, its block index
    never moves, so the one block it was filled with is every point's block. -/
theorem normBefore1_of {c : Dev nD} (dat : Dat τ (Elt F) Unit ℕ (UR sig nD τ) ℕ cfg2 c) (hA : dat.A 1 = V c (Pipeline.arrRef spec2 1))
    (hafter : ∀ t, dat.after 1 t = normBlk V c 1 t) (t : Fin cfg2.N) (d) : dat.before 1 t d = normBlk V c 1 t :=
  (dat.before_in_eq_fetched 1 rfl (fun _ => rfl) (fun _ _ _ => rfl) (fun t => by rw [hafter]; unfold Dat.blockOf normBlk; rw [hA]; try rfl) t d).trans
    (by unfold Dat.fetched Dat.blockOf normBlk; rw [hA]; try rfl)

/-- The same of the scale window, -/
theorem normBefore2_of {c : Dev nD} (dat : Dat τ (Elt F) Unit ℕ (UR sig nD τ) ℕ cfg2 c) (hA : dat.A 2 = V c (Pipeline.arrRef spec2 2))
    (hafter : ∀ t, dat.after 2 t = normBlk V c 2 t) (t : Fin cfg2.N) (d) : dat.before 2 t d = normBlk V c 2 t :=
  (dat.before_in_eq_fetched 2 rfl (fun _ => rfl) (fun _ _ _ => rfl) (fun t => by rw [hafter]; unfold Dat.blockOf normBlk; rw [hA]; try rfl) t d).trans
    (by unfold Dat.fetched Dat.blockOf normBlk; rw [hA]; try rfl)

/-- of the gain window, -/
theorem normBefore3_of {c : Dev nD} (dat : Dat τ (Elt F) Unit ℕ (UR sig nD τ) ℕ cfg2 c) (hA : dat.A 3 = V c (Pipeline.arrRef spec2 3))
    (hafter : ∀ t, dat.after 3 t = normBlk V c 3 t) (t : Fin cfg2.N) (d) : dat.before 3 t d = normBlk V c 3 t :=
  (dat.before_in_eq_fetched 3 rfl (fun _ => rfl) (fun _ _ _ => rfl) (fun t => by rw [hafter]; unfold Dat.blockOf normBlk; rw [hA]; try rfl) t d).trans
    (by unfold Dat.fetched Dat.blockOf normBlk; rw [hA]; try rfl)

/-- and of the offset window. -/
theorem normBefore4_of {c : Dev nD} (dat : Dat τ (Elt F) Unit ℕ (UR sig nD τ) ℕ cfg2 c) (hA : dat.A 4 = V c (Pipeline.arrRef spec2 4))
    (hafter : ∀ t, dat.after 4 t = normBlk V c 4 t) (t : Fin cfg2.N) (d) : dat.before 4 t d = normBlk V c 4 t :=
  (dat.before_in_eq_fetched 4 rfl (fun _ => rfl) (fun _ _ _ => rfl) (fun t => by rw [hafter]; unfold Dat.blockOf normBlk; rw [hA]; try rfl) t d).trans
    (by unfold Dat.fetched Dat.blockOf normBlk; rw [hA]; try rfl)

/-! ## What the body leaves in the output block -/

/-- The body's store into the output block's buffer covers the block. -/
theorem normOut_cover (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) (y : S2x256x3136.Idx) :
    ∃ pc ∈ (normRun c i arg1 harg1 arg2 harg2 arg3 harg3 arg4 harg4 arg5 harg5 arg6 harg6 x0 x1 x2 x3 x4).1, y ∈ pc.1.set :=
  View.cover_of_tiledL (normRun c i arg1 harg1 arg2 harg2 arg3 harg3 arg4 harg4 arg5 harg5 arg6 harg6 x0 x1 x2 x3 x4).1 S2x256x3136.size (by sl_kernel_rfl) y

/-- What the body leaves in the output block's buffer, from the five input blocks. -/
def normOut (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) : Vec F S2x256x3136 .f32 :=
  normOutView.read (Elt F) (normOutView.writes (Elt F) normOutView.junk (normRun c i arg1 harg1 arg2 harg2 arg3 harg3 arg4 harg4 arg5 harg5 arg6 harg6 x0 x1 x2 x3 x4).1)

/-! ## The pipeline's proof data -/

/-- The proof data of the normalize launch on core `c` at region-entry contents `V`: after the body at point `t` each
    input's buffer holds its block and the output's what `normOut` says of the five blocks; the invariant is the
    untracked one (the scoped rest and the generator register, unread); nothing owed; full shares. -/
def normDat (c : Dev nD) : Dat τ (Elt F) Unit ℕ (UR sig nD τ) ℕ cfg2 c where
  A w := V c (Pipeline.arrRef spec2 w)
  after w t := match w with
    | ⟨0, _⟩ => normBlk V c 0 t
    | ⟨1, _⟩ => normBlk V c 1 t
    | ⟨2, _⟩ => normBlk V c 2 t
    | ⟨3, _⟩ => normBlk V c 3 t
    | ⟨4, _⟩ => normBlk V c 4 t
    | ⟨5, _⟩ => normOut c (grid2.coords t) (normInAt t) (normInAt_whole t) (normMeanAt t) (normMeanAt_whole t) (normScaleAt t) (normScaleAt_whole t) (normGammaAt t) (normGammaAt_whole t) (normBetaAt t) (normBetaAt_whole t) (normOutAt t) (normOutAt_whole t) (normBlk V c 0 t) (normBlk V c 1 t) (normBlk V c 2 t) (normBlk V c 3 t) (normBlk V c 4 t)
  Φ _ := Pipeline.ΦA spec2 c
  q _ := fullShare
  owed _ := 0

theorem normDat_A (c : Dev nD) (w : Fin cfg2.W) : (normDat V c).A w = V c (Pipeline.arrRef spec2 w) := by
  dsimp only [normDat]

theorem normDat_after_0 (c : Dev nD) (t : Fin cfg2.N) : (normDat V c).after 0 t = normBlk V c 0 t := by dsimp only [normDat]
theorem normDat_after_1 (c : Dev nD) (t : Fin cfg2.N) : (normDat V c).after 1 t = normBlk V c 1 t := by dsimp only [normDat]
theorem normDat_after_2 (c : Dev nD) (t : Fin cfg2.N) : (normDat V c).after 2 t = normBlk V c 2 t := by dsimp only [normDat]
theorem normDat_after_3 (c : Dev nD) (t : Fin cfg2.N) : (normDat V c).after 3 t = normBlk V c 3 t := by dsimp only [normDat]
theorem normDat_after_4 (c : Dev nD) (t : Fin cfg2.N) : (normDat V c).after 4 t = normBlk V c 4 t := by dsimp only [normDat]
theorem normDat_after_5 (c : Dev nD) (t : Fin cfg2.N) :
    (normDat V c).after 5 t = normOut c (grid2.coords t) (normInAt t) (normInAt_whole t) (normMeanAt t) (normMeanAt_whole t) (normScaleAt t) (normScaleAt_whole t) (normGammaAt t) (normGammaAt_whole t) (normBetaAt t) (normBetaAt_whole t) (normOutAt t) (normOutAt_whole t) (normBlk V c 0 t) (normBlk V c 1 t) (normBlk V c 2 t) (normBlk V c 3 t) (normBlk V c 4 t) := by
  dsimp only [normDat]
/-- The same equation, named by the window's role: what the output window's buffer holds after the body. -/
theorem normDat_after_out (c : Dev nD) (t : Fin cfg2.N) :
    (normDat V c).after 5 t = normOut c (grid2.coords t) (normInAt t) (normInAt_whole t) (normMeanAt t) (normMeanAt_whole t) (normScaleAt t) (normScaleAt_whole t) (normGammaAt t) (normGammaAt_whole t) (normBetaAt t) (normBetaAt_whole t) (normOutAt t) (normOutAt_whole t) (normBlk V c 0 t) (normBlk V c 1 t) (normBlk V c 2 t) (normBlk V c 3 t) (normBlk V c 4 t) :=
  normDat_after_5 V c t

theorem normDat_before_0 (c : Dev nD) (t : Fin cfg2.N) (d) : (normDat V c).before 0 t d = normBlk V c 0 t :=
  normBefore0_of V (normDat V c) (normDat_A V c 0) (normDat_after_0 V c) t d
theorem normDat_before_1 (c : Dev nD) (t : Fin cfg2.N) (d) : (normDat V c).before 1 t d = normBlk V c 1 t :=
  normBefore1_of V (normDat V c) (normDat_A V c 1) (normDat_after_1 V c) t d
theorem normDat_before_2 (c : Dev nD) (t : Fin cfg2.N) (d) : (normDat V c).before 2 t d = normBlk V c 2 t :=
  normBefore2_of V (normDat V c) (normDat_A V c 2) (normDat_after_2 V c) t d
theorem normDat_before_3 (c : Dev nD) (t : Fin cfg2.N) (d) : (normDat V c).before 3 t d = normBlk V c 3 t :=
  normBefore3_of V (normDat V c) (normDat_A V c 3) (normDat_after_3 V c) t d
theorem normDat_before_4 (c : Dev nD) (t : Fin cfg2.N) (d) : (normDat V c).before 4 t d = normBlk V c 4 t :=
  normBefore4_of V (normDat V c) (normDat_A V c 4) (normDat_after_4 V c) t d

/-! ## The body obligation -/

/-- What the body is called with at point `t`, the windows one by one, -/
def normBodyPre (c : Dev nD) (t : Fin cfg2.N) : sProp 𝕄 :=
  iprop((normDat V c).Φ t.castSucc ∗ (normDat V c).owesAt () t.castSucc
    ∗ (∃ d, owns (c : Thread nD τ) (normInAt t) fullShare ((normDat V c).before 0 t d))
    ∗ (∃ d, owns (c : Thread nD τ) (normMeanAt t) fullShare ((normDat V c).before 1 t d))
    ∗ (∃ d, owns (c : Thread nD τ) (normScaleAt t) fullShare ((normDat V c).before 2 t d))
    ∗ (∃ d, owns (c : Thread nD τ) (normGammaAt t) fullShare ((normDat V c).before 3 t d))
    ∗ (∃ d, owns (c : Thread nD τ) (normBetaAt t) fullShare ((normDat V c).before 4 t d))
    ∗ (∃ d, owns (c : Thread nD τ) (normOutAt t) fullShare ((normDat V c).before 5 t d)))

/-- and what it returns: no window is idle at any point, so each buffer is left at its `after`. -/
def normBodyPost (c : Dev nD) (t : Fin cfg2.N) : sProp 𝕄 :=
  iprop((normDat V c).Φ t.succ ∗ (normDat V c).owesAt () t.succ
    ∗ owns (c : Thread nD τ) (normInAt t) fullShare ((normDat V c).after 0 t)
    ∗ owns (c : Thread nD τ) (normMeanAt t) fullShare ((normDat V c).after 1 t)
    ∗ owns (c : Thread nD τ) (normScaleAt t) fullShare ((normDat V c).after 2 t)
    ∗ owns (c : Thread nD τ) (normGammaAt t) fullShare ((normDat V c).after 3 t)
    ∗ owns (c : Thread nD τ) (normBetaAt t) fullShare ((normDat V c).after 4 t)
    ∗ owns (c : Thread nD τ) (normOutAt t) fullShare ((normDat V c).after 5 t))

set_option maxHeartbeats 4800000 in
/-- The body at any point: the five inputs' buffers hold their blocks, the output's is handed over at anything, so
    the one run applies; its store covers the output block, so the buffer reads what `normOut` says whatever it held;
    the invariant and what the core owes pass through unread. -/
theorem normBody_sound (c : Dev nD) (t : Fin cfg2.N) :
    normBodyPre V c t ⊢ wp frame (wpE (defs₀ (F := F)) Variants.none c none) Set.univ (bodyAt2 t) (fun _ => normBodyPost V c t) := by
  unfold normBodyPre normBodyPost bodyAt2
  simp only [normDat_before_0, normDat_before_1, normDat_before_2, normDat_before_3, normDat_before_4]
  rw [show (normDat V c).Φ t.succ = (normDat V c).Φ t.castSucc from rfl,
    show (normDat V c).owesAt () t.succ = (normDat V c).owesAt () t.castSucc from rfl,
    normDat_after_0, normDat_after_1, normDat_after_2, normDat_after_3, normDat_after_4, normDat_after_5]
  unfold normOut; (try dsimp only)
  iintro ⟨HΦ, Ho, ⟨%d0, H0⟩, ⟨%d1, H1⟩, ⟨%d2, H2⟩, ⟨%d3, H3⟩, ⟨%d4, H4⟩, ⟨%d5, H5⟩⟩
  iapply ((normRun c (grid2.coords t) _ _ _ _ _ _ _ _ _ _ _ _ (normBlk V c 0 t) (normBlk V c 1 t) (normBlk V c 2 t) (normBlk V c 3 t) (normBlk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (normOut_cover c _ _ _ _ _ _ _ _ _ _ _ _ _ _ _ _ _ _)

/-- The library's body obligation, at every point. -/
theorem normBody_obligation (c : Dev nD) : BodyObligation (normDat (F := F) V c) (defs₀ (F := F)) Variants.none () Set.univ := fun t => by
  rw [bigSep_W2, bigSep_W2]
  exact normBody_sound V c t

/-- What the launch hands the region is the invariant before the first point. -/
theorem normInv_in (c : Dev nD) : Pipeline.ΦA spec2 c ⊢ (normDat V c).Φ 0 :=
  Idealize.SL.BI.Entails.refl _

/-- After the last point the invariant is the same untracked one. -/
theorem normInv_out (c : Dev nD) : (normDat V c).Φ (Fin.last cfg2.N) ⊢ Pipeline.ΦA spec2 c :=
  Idealize.SL.BI.Entails.refl _

end Cert.Kernel.Gen

end
-- ==== Proof.Kernel.MainRun.lean ====
/-
  THE RUN of the whole program: @main is four stretches of host operations around three kernel launches
  (per-channel sum, per-channel sum of squared deviations, normalize). The buffer contents at each boundary are a
  fold from the launch memory: a host stretch applies its operations; a launch leaves each of its windows' arrays at
  what the pipeline's write-backs make of the proof data and every other buffer as entered. Every weakly fair
  execution terminates without a fault, and the final memory holds every unscoped buffer at the last boundary's
  contents: the argument arrays unchanged (no stretch and no launch writes one), and the result array readable
  off the fold.
-/
import proofs.«156847_j180388626588_1_alg».proof.Proof.Kernel.SumRegion
import proofs.«156847_j180388626588_1_alg».proof.Proof.Kernel.VarRegion
import proofs.«156847_j180388626588_1_alg».proof.Proof.Kernel.NormRegion
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (the reshape of the input to three axes): the sum launch's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At launch 0's exit: its windows' arrays at what the pipeline leaves (an input as entered, the output's write-backs
    folded), every other buffer as entered. -/
def W2 (c : Dev nD) : Valuation τ sig (Elt F) :=
  Pipeline.withArrays spec0 c (W1 m c) fun w => (sumDat (V1 m) c).arrAt w cfg0.N
theorem W2_arr (c : Dev nD) (w : Fin cfg0.W) :
    W2 m c (Proc.devRef .tc (Pipeline.arrRef spec0 w)) = (sumDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem arrAt_eq0 (c : Dev nD) (w : Fin cfg0.W) : (sumDat (V1 m) c).arrAt w cfg0.N = V2 m c (Pipeline.arrRef spec0 w) :=
  (W2_arr m c w).symm
theorem rest_eq0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the mean: the channel totals divided by the count): the variance launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At launch 1's exit: its windows' arrays at what the pipeline leaves (an input as entered, the output's write-backs
    folded), every other buffer as entered. -/
def W4 (c : Dev nD) : Valuation τ sig (Elt F) :=
  Pipeline.withArrays spec1 c (W3 m c) fun w => (varDat (V3 m) c).arrAt w cfg1.N
theorem W4_arr (c : Dev nD) (w : Fin cfg1.W) :
    W4 m c (Proc.devRef .tc (Pipeline.arrRef spec1 w)) = (varDat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem arrAt_eq1 (c : Dev nD) (w : Fin cfg1.W) : (varDat (V3 m) c).arrAt w cfg1.N = V4 m c (Pipeline.arrRef spec1 w) :=
  (W4_arr m c w).symm
theorem rest_eq1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (the variance, the scale 1/sqrt(var + eps), gamma and beta as columns): the normalize
    launch's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At launch 2's exit: its windows' arrays at what the pipeline leaves (an input as entered, the output's write-backs
    folded), every other buffer as entered. -/
def W6 (c : Dev nD) : Valuation τ sig (Elt F) :=
  Pipeline.withArrays spec2 c (W5 m c) fun w => (normDat (V5 m) c).arrAt w cfg2.N
theorem W6_arr (c : Dev nD) (w : Fin cfg2.W) :
    W6 m c (Proc.devRef .tc (Pipeline.arrRef spec2 w)) = (normDat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem arrAt_eq2 (c : Dev nD) (w : Fin cfg2.W) : (normDat (V5 m) c).arrAt w cfg2.N = V6 m c (Pipeline.arrRef spec2 w) :=
  (W6_arr m c w).symm
theorem rest_eq2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch (the reshape of the result back to four axes): the end. -/
abbrev W7 : Dev nD → Valuation τ sig (Elt F) := fun c => StableHlo.after hostOps3 (W6 m c)

/-! ## The arguments end as launched -/

/-- A stretch none of whose operations writes `b` leaves `b` as it found it. -/
theorem host_keeps {b : Ref sig .tc} (ops : List (HloOp τ sig (Elt F))) (W : Valuation τ sig (Elt F))
    (h : ops.Forall fun op => (Proc.devRef .tc b : DevRef τ sig) ∉ op.writes) :
    StableHlo.after ops W (Proc.devRef .tc b) = W (Proc.devRef .tc b) :=
  StableHlo.after_of_forall_not_mem (b := Proc.devRef .tc b) _ _ (List.forall_iff_forall_mem.mp h)

/-- `main_arg0` ends as launched: no host operation writes it and it is no window's array of any launch. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := host_keeps (b := main_arg0) hostOps3 _ (by
          simp only [hostOps3, List.Forall, StableHlo.nullary_writes, StableHlo.unary_writes, StableHlo.binary_writes, StableHlo.reshape_writes, Finset.mem_singleton]
          repeat' apply And.intro
          all_goals exact StableHlo.devRef_ne_of_ne (by decide))
    _ = W5 m c (Proc.devRef .tc main_arg0) := W6_of_ne m c main_arg0 (by decide)
    _ = W4 m c (Proc.devRef .tc main_arg0) := host_keeps (b := main_arg0) hostOps2 _ (by
          simp only [hostOps2, List.Forall, StableHlo.nullary_writes, StableHlo.unary_writes, StableHlo.binary_writes, StableHlo.reshape_writes, Finset.mem_singleton]
          repeat' apply And.intro
          all_goals exact StableHlo.devRef_ne_of_ne (by decide))
    _ = W3 m c (Proc.devRef .tc main_arg0) := W4_of_ne m c main_arg0 (by decide)
    _ = W2 m c (Proc.devRef .tc main_arg0) := host_keeps (b := main_arg0) hostOps1 _ (by
          simp only [hostOps1, List.Forall, StableHlo.nullary_writes, StableHlo.unary_writes, StableHlo.binary_writes, StableHlo.reshape_writes, Finset.mem_singleton]
          repeat' apply And.intro
          all_goals exact StableHlo.devRef_ne_of_ne (by decide))
    _ = W1 m c (Proc.devRef .tc main_arg0) := W2_of_ne m c main_arg0 (by decide)
    _ = W0 m c (Proc.devRef .tc main_arg0) := host_keeps (b := main_arg0) hostOps0 _ (by
          simp only [hostOps0, List.Forall, StableHlo.nullary_writes, StableHlo.unary_writes, StableHlo.binary_writes, StableHlo.reshape_writes, Finset.mem_singleton]
          repeat' apply And.intro
          all_goals exact StableHlo.devRef_ne_of_ne (by decide))
    _ = m ((c : Thread nD τ).loc main_arg0) := rfl

/-- `main_arg1` ends as launched: no host operation writes it and it is no window's array of any launch. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := host_keeps (b := main_arg1) hostOps3 _ (by
          simp only [hostOps3, List.Forall, StableHlo.nullary_writes, StableHlo.unary_writes, StableHlo.binary_writes, StableHlo.reshape_writes, Finset.mem_singleton]
          repeat' apply And.intro
          all_goals exact StableHlo.devRef_ne_of_ne (by decide))
    _ = W5 m c (Proc.devRef .tc main_arg1) := W6_of_ne m c main_arg1 (by decide)
    _ = W4 m c (Proc.devRef .tc main_arg1) := host_keeps (b := main_arg1) hostOps2 _ (by
          simp only [hostOps2, List.Forall, StableHlo.nullary_writes, StableHlo.unary_writes, StableHlo.binary_writes, StableHlo.reshape_writes, Finset.mem_singleton]
          repeat' apply And.intro
          all_goals exact StableHlo.devRef_ne_of_ne (by decide))
    _ = W3 m c (Proc.devRef .tc main_arg1) := W4_of_ne m c main_arg1 (by decide)
    _ = W2 m c (Proc.devRef .tc main_arg1) := host_keeps (b := main_arg1) hostOps1 _ (by
          simp only [hostOps1, List.Forall, StableHlo.nullary_writes, StableHlo.unary_writes, StableHlo.binary_writes, StableHlo.reshape_writes, Finset.mem_singleton]
          repeat' apply And.intro
          all_goals exact StableHlo.devRef_ne_of_ne (by decide))
    _ = W1 m c (Proc.devRef .tc main_arg1) := W2_of_ne m c main_arg1 (by decide)
    _ = W0 m c (Proc.devRef .tc main_arg1) := host_keeps (b := main_arg1) hostOps0 _ (by
          simp only [hostOps0, List.Forall, StableHlo.nullary_writes, StableHlo.unary_writes, StableHlo.binary_writes, StableHlo.reshape_writes, Finset.mem_singleton]
          repeat' apply And.intro
          all_goals exact StableHlo.devRef_ne_of_ne (by decide))
    _ = m ((c : Thread nD τ).loc main_arg1) := rfl

/-- `main_arg2` ends as launched: no host operation writes it and it is no window's array of any launch. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := host_keeps (b := main_arg2) hostOps3 _ (by
          simp only [hostOps3, List.Forall, StableHlo.nullary_writes, StableHlo.unary_writes, StableHlo.binary_writes, StableHlo.reshape_writes, Finset.mem_singleton]
          repeat' apply And.intro
          all_goals exact StableHlo.devRef_ne_of_ne (by decide))
    _ = W5 m c (Proc.devRef .tc main_arg2) := W6_of_ne m c main_arg2 (by decide)
    _ = W4 m c (Proc.devRef .tc main_arg2) := host_keeps (b := main_arg2) hostOps2 _ (by
          simp only [hostOps2, List.Forall, StableHlo.nullary_writes, StableHlo.unary_writes, StableHlo.binary_writes, StableHlo.reshape_writes, Finset.mem_singleton]
          repeat' apply And.intro
          all_goals exact StableHlo.devRef_ne_of_ne (by decide))
    _ = W3 m c (Proc.devRef .tc main_arg2) := W4_of_ne m c main_arg2 (by decide)
    _ = W2 m c (Proc.devRef .tc main_arg2) := host_keeps (b := main_arg2) hostOps1 _ (by
          simp only [hostOps1, List.Forall, StableHlo.nullary_writes, StableHlo.unary_writes, StableHlo.binary_writes, StableHlo.reshape_writes, Finset.mem_singleton]
          repeat' apply And.intro
          all_goals exact StableHlo.devRef_ne_of_ne (by decide))
    _ = W1 m c (Proc.devRef .tc main_arg2) := W2_of_ne m c main_arg2 (by decide)
    _ = W0 m c (Proc.devRef .tc main_arg2) := host_keeps (b := main_arg2) hostOps0 _ (by
          simp only [hostOps0, List.Forall, StableHlo.nullary_writes, StableHlo.unary_writes, StableHlo.binary_writes, StableHlo.reshape_writes, Finset.mem_singleton]
          repeat' apply And.intro
          all_goals exact StableHlo.devRef_ne_of_ne (by decide))
    _ = m ((c : Thread nD τ).loc main_arg2) := rfl

/-! ## The proof data of the three launches and the thread state -/

abbrev adm : (p : Fin 3) → (pcfgs (F := F) p).Adm := fun p => (cfgs p).toPCfg_adm
/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => sumDat (V1 m) c
  | ⟨1, _⟩ => fun c => varDat (V3 m) c
  | ⟨2, _⟩ => fun c => normDat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem noAlloc0 : (hostOps0 : List (HloOp τ sig (Elt F))).Forall fun op => op.fresh = ∅ := by
  simp only [List.Forall]; repeat' constructor
theorem noAlloc1 : (hostOps1 : List (HloOp τ sig (Elt F))).Forall fun op => op.fresh = ∅ := by
  simp only [List.Forall]; repeat' constructor
theorem noAlloc2 : (hostOps2 : List (HloOp τ sig (Elt F))).Forall fun op => op.fresh = ∅ := by
  simp only [List.Forall]; repeat' constructor
theorem noAlloc3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- LAUNCH 0 as a segment: entered from every unscoped buffer at `W1`, left at `W2`. Its windows' arrays are split out
    of the unscoped buffers and put back at what the pipeline leaves; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (sumBody_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (sumInv_in (V1 m) c)
    unfold Pipeline.ΦA
    iintro ⟨Hp, -, Hr⟩
    isplitl [Hr]; · iexact Hr
    iexact Hp
  hout c := by
    rw [Pipeline.ownSems0_none]
    refine BIBase.Entails.trans (sumInv_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrAt_eq0 m c) (rest_eq0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 as a segment: entered from every unscoped buffer at `W3`, left at `W4`. Its windows' arrays are split out
    of the unscoped buffers and put back at what the pipeline leaves; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (varBody_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (varInv_in (V3 m) c)
    unfold Pipeline.ΦA
    iintro ⟨Hp, -, Hr⟩
    isplitl [Hr]; · iexact Hr
    iexact Hp
  hout c := by
    rw [Pipeline.ownSems0_none]
    refine BIBase.Entails.trans (varInv_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrAt_eq1 m c) (rest_eq1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 as a segment: entered from every unscoped buffer at `W5`, left at `W6`. Its windows' arrays are split out
    of the unscoped buffers and put back at what the pipeline leaves; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (normBody_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (normInv_in (V5 m) c)
    unfold Pipeline.ΦA
    iintro ⟨Hp, -, Hr⟩
    isplitl [Hr]; · iexact Hr
    iexact Hp
  hout c := by
    rw [Pipeline.ownSems0_none]
    refine BIBase.Entails.trans (normInv_out (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (arrAt_eq2 m c) (rest_eq2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub noAlloc0 (W0 m)),
    .region (reg0 m),
    .host (hseg hostOps1 hostOps1_sub noAlloc1 (W2 m)),
    .region (reg1 m),
    .host (hseg hostOps2 hostOps2_sub noAlloc2 (W4 m)),
    .region (reg2 m),
    .host (hseg hostOps3 hostOps3_sub noAlloc3 (W6 m)) ]
theorem main_run (c : Dev nD) : main (F := F) c = Pipeline.Seg.run (segs m) := (main_chain c).trans (by chain_rfl)

set_option backward.isDefEq.respectTransparency.types false in
/-- THE RUN: from any memory `m` with zero counters, every weakly fair execution of @main terminates, nothing faulting,
    and every final memory holds every unscoped buffer of every core at the last boundary's contents `W7`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (show R c ⊢ iprop(∃ W, owes (c : Thread nD τ) (0 : CellTallies nD τ sig Unit) W) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      unfold StableHlo.held
      iintro ⟨Hh, HSI⟩
      imodintro
      iapply (pointsTo_read_all (Pipeline.ucRefs τ sig) (fun b => (((c : Thread nD τ)).1, b)) (W7 m c) s')
      isplitl [Hh] <;> iassumption)
    (hQ := fun s h => h)

/-- THE FRAME, at any `F`: the run, read at the three argument arrays. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.Kernel.Gen

end
-- ==== Proof.KernelIdeal.SumBody.lean ====
/-
  The per-channel sum kernel (the program's first launch) as a body the pipeline calls at each of its 16 grid
  points. The body keeps a running per-channel total in a scratch vector of shape [1, 256, 1]: at the first point
  it clears the scratch, at every point it adds the point's block total (the block [4, 256, 3136] summed over its
  last axis and then over its first), and at the last point it copies the scratch into the output block. So a point
  is in one of three control cases — first (clear, add), middle (add), last (add, copy out) — and this module runs
  the body once per case: from the input block, the output block's buffer and the scratch it is handed, to the
  stores it leaves in the output's buffer and in the scratch, listed last store first.
-/
import proofs.«156847_j180388626588_1_alg».proof.Proof.Gen.KernelIdeal.Launch
import proofs.«156847_j180388626588_1_alg».proof.Proof.Gen.KernelIdeal.Skeleton
import proofs.«156847_j180388626588_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The body's first branch, "this is the first point": the clear of the running total. -/
abbrev sumFirst (i : grid0.Coords) : Prop := (Scalar.cmpi .ne (Scalar.extui (Scalar.cmpi .eq (BitVec.ofNat 32 (i 0).val) 0#32)) 0#32) = 1#1
/-- It is taken at point 0 only. -/
theorem sumFirst_iff : ∀ t : Fin cfg0.N, sumFirst (grid0.coords t) ↔ t.val = 0 :=
  (by decide +kernel : ∀ t : Fin grid0.N, sumFirst (grid0.coords t) ↔ t.val = 0)

/-- The body's second branch, "this is the last point": the copy of the running total into the output block. -/
abbrev sumLast (i : grid0.Coords) : Prop := k0_cond2 i = 1#1
/-- It is taken at point 15 only. -/
theorem sumLast_iff : ∀ t : Fin cfg0.N, sumLast (grid0.coords t) ↔ t.val = 15 :=
  (by decide +kernel : ∀ t : Fin grid0.N, sumLast (grid0.coords t) ↔ t.val = 15)

/-! ## Where the output window is idle -/

/-- The input window is never idle. -/
theorem sumIn_live : ∀ t : Fin cfg0.N, cfg0.idle 0 (grid0.coords t) = false := by decide +kernel
/-- Off the last point the body stores nothing into the output block: the window is idle there, -/
theorem sumOut_idle : ∀ t : Fin cfg0.N, ¬sumLast (grid0.coords t) → cfg0.idle 1 (grid0.coords t) = true := by decide +kernel
/-- and the pipeline does not write its block back there. -/
theorem sumOut_noFlush : ∀ t : Fin cfg0.N, ¬sumLast (grid0.coords t) → (cfg0.win 1).flush t = false := by decide +kernel
/-- At the last point the output window is live. -/
theorem sumOut_live : ∀ t : Fin cfg0.N, sumLast (grid0.coords t) → cfg0.idle 1 (grid0.coords t) = false := by decide +kernel

/-! ## The buffers the body is called on -/

/-- One staging buffer of the output window, through which the output block's contents are stated. -/
abbrev sumOutView : View sig .tc .vmem S1x256x1 .f32 := (Memref.whole cc0_stg1_0 : Memref sig .tc .vmem S1x256x1 .f32).view
/-- The staging buffers the pipeline passes at point `t`, and that they are whole. -/
abbrev sumInAt (t : Fin cfg0.N) : Memref sig .tc .vmem S4x256x3136 .f32 := win0_0.stage (cfg0.slots t 0)
abbrev sumInAt_whole (t : Fin cfg0.N) : (sumInAt t).IsWhole := hstage0_0 ((cfg0.slots t 0).cast nbuf0_0)
abbrev sumOutAt (t : Fin cfg0.N) : Memref sig .tc .vmem S1x256x1 .f32 := win0_1.stage (cfg0.slots t 1)
abbrev sumOutAt_whole (t : Fin cfg0.N) : (sumOutAt t).IsWhole := hstage0_1 ((cfg0.slots t 1).cast nbuf0_1)
/-- The running total's scratch buffer, and its view. -/
abbrev sumAcc : Memref sig .tc .vmem S1x256x1 .f32 := Memref.whole cc0_scratch0
abbrev sumAccView : View sig .tc .vmem S1x256x1 .f32 := sumAcc.view

/-- The scoped buffers of the core that this launch neither stages through nor uses as its scratch (the other two
    launches' staging buffers and scratch), each at some contents: they ride through this launch unopened. -/
abbrev sumOthers (c : Dev nD) : sProp 𝕄 :=
  Pipeline.scopedRestBut (Ix := Unit) (Name := ℕ) (U := UR sig nD τ) (Lvl := ℕ) (Val := Elt F) spec0 c [cc0_scratch0]

/-- What the region's invariant holds while no contents are tracked: the scratch at some contents, the other scoped
    buffers, and the generator register at some state. -/
theorem sumIdleInv_eq (c : Dev nD) :
    (Pipeline.ΦA spec0 c : sProp 𝕄)
      = iprop(iprop((∃ d, owns (c : Thread nD τ) sumAcc fullShare d) ∗ sumOthers c) ∗ (∃ r, prngReg c r)) := by
  unfold Pipeline.ΦA
  rw [Pipeline.scopedRest_split_of_list spec0 c [cc0_scratch0] (by decide) (by decide)]
  simp only [sumAcc, owns_whole]; try rfl

/-! ## The body, case by case -/

set_option maxHeartbeats 1000000 in
/-- THE FIRST POINT (clear, add; no copy out). On whole buffers — the input block's at `x0`, the output block's at
    `xo` (handed back untouched), the scratch at anything — the body runs to the continuation holding the input as
    it was and the scratch with the stores `LS` written; `LO` (no store) is what it leaves in the output's buffer. -/
noncomputable def sumRunFirst (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i)
    (x0 : Vec F S4x256x3136 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT (add only). The scratch is handed over at what the point before left, `xs`. -/
noncomputable def sumRunMid (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i)
    (x0 : Vec F S4x256x3136 .f32) (xs : Vec F S1x256x1 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare xo ∗ owns (c : Thread nD τ) arg3 fullShare xs
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨[], ?_, fun xo E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT (add, copy out). The output block's buffer is taken at anything and left with the stores `LO`. -/
noncomputable def sumRunLast (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i)
    (x0 : Vec F S4x256x3136 .f32) (xs : Vec F S1x256x1 .f32) :
    Σ' (LO : List (View.Piece (Elt F) S1x256x1 .f32)), { LS : List (View.Piece (Elt F) S1x256x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Gen

end
-- ==== Proof.KernelIdeal.SumRegion.lean ====
/-
  The per-channel sum launch as a REGION of the program: what its scratch (the running per-channel total) and its
  output block hold after each of the 16 grid points, the invariant that carries the scratch's contents from one
  point to the next, the pipeline's proof data at given region-entry contents `V`, and the body obligation.
  After point 0 the scratch holds the first case's stores; after a later point, the middle (or last) case's stores
  over what the point before left; the output block's buffer is stored into at the last point only.
-/
import proofs.«156847_j180388626588_1_alg».proof.Proof.KernelIdeal.SumBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block at a point -/

/-- Window `w`'s block at point `t`, read off its array as the region finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point, never
    cut, never idle), for any proof data whose array is `V`'s and whose body leaves the block in place. -/
theorem sumBefore_in_of {c : Dev nD} (dat : Dat τ (Elt F) Unit ℕ (UR sig nD τ) ℕ cfg0 c) (hA : dat.A 0 = V c (Pipeline.arrRef spec0 0))
    (hafter : ∀ t, dat.after 0 t = sumBlk V c 0 t) (t : Fin cfg0.N) (d) : dat.before 0 t d = sumBlk V c 0 t :=
  (dat.before_in_eq_fetched 0 rfl (fun _ => rfl) (fun _ _ _ => rfl) (fun t => by rw [hafter]; unfold Dat.blockOf sumBlk; rw [hA]; try rfl) t d).trans
    (by unfold Dat.fetched Dat.blockOf sumBlk; rw [hA]; try rfl)

/-! ## What each case leaves -/

/-- The first case's stores into the scratch cover it. -/
theorem sumFirst_cover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) (y : S1x256x1.Idx) :
    ∃ pc ∈ (sumRunFirst c i arg1 harg1 arg2 harg2 arg3 harg3 hc0 hc1 x0).2.1, y ∈ pc.1.set :=
  View.cover_of_tiledL (sumRunFirst c i arg1 harg1 arg2 harg2 arg3 harg3 hc0 hc1 x0).2.1 S1x256x1.size (by sl_kernel_rfl) y
/-- What the first case leaves in the scratch. -/
def sumFirst_acc (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) : Vec F S1x256x1 .f32 :=
  sumAccView.read (Elt F) (sumAccView.writes (Elt F) sumAccView.junk (sumRunFirst c i arg1 harg1 arg2 harg2 arg3 harg3 hc0 hc1 x0).2.1)
/-- The first case stores nothing into the output block: a placeholder nothing consults. -/
def sumFirst_out (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) : Vec F S1x256x1 .f32 :=
  sumOutView.read (Elt F) (sumOutView.writes (Elt F) sumOutView.junk (sumRunFirst c i arg1 harg1 arg2 harg2 arg3 harg3 hc0 hc1 x0).1)

/-- A middle case's stores into the scratch cover it. -/
theorem sumMid_cover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) (y : S1x256x1.Idx) :
    ∃ pc ∈ (sumRunMid c i arg1 harg1 arg2 harg2 arg3 harg3 hc0 hc1 x0 xs).2.1, y ∈ pc.1.set :=
  View.cover_of_tiledL (sumRunMid c i arg1 harg1 arg2 harg2 arg3 harg3 hc0 hc1 x0 xs).2.1 S1x256x1.size (by sl_kernel_rfl) y
/-- What a middle case leaves in the scratch, over what the point before left (`xs`). -/
def sumMid_acc (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) : Vec F S1x256x1 .f32 :=
  sumAccView.read (Elt F) (sumAccView.writes (Elt F) sumAccView.junk (sumRunMid c i arg1 harg1 arg2 harg2 arg3 harg3 hc0 hc1 x0 xs).2.1)
/-- A middle case stores nothing into the output block: a placeholder nothing consults. -/
def sumMid_out (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) : Vec F S1x256x1 .f32 :=
  sumOutView.read (Elt F) (sumOutView.writes (Elt F) sumOutView.junk (sumRunMid c i arg1 harg1 arg2 harg2 arg3 harg3 hc0 hc1 x0 xs).1)

/-- The last case's stores into the scratch cover it, -/
theorem sumLast_cover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) (y : S1x256x1.Idx) :
    ∃ pc ∈ (sumRunLast c i arg1 harg1 arg2 harg2 arg3 harg3 hc0 hc1 x0 xs).2.1, y ∈ pc.1.set :=
  View.cover_of_tiledL (sumRunLast c i arg1 harg1 arg2 harg2 arg3 harg3 hc0 hc1 x0 xs).2.1 S1x256x1.size (by sl_kernel_rfl) y
/-- and its store into the output block covers the block. -/
theorem sumLast_outCover (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) (y : S1x256x1.Idx) :
    ∃ pc ∈ (sumRunLast c i arg1 harg1 arg2 harg2 arg3 harg3 hc0 hc1 x0 xs).1, y ∈ pc.1.set :=
  View.cover_of_tiledL (sumRunLast c i arg1 harg1 arg2 harg2 arg3 harg3 hc0 hc1 x0 xs).1 S1x256x1.size (by sl_kernel_rfl) y
/-- What the last case leaves in the scratch, -/
def sumLast_acc (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) : Vec F S1x256x1 .f32 :=
  sumAccView.read (Elt F) (sumAccView.writes (Elt F) sumAccView.junk (sumRunLast c i arg1 harg1 arg2 harg2 arg3 harg3 hc0 hc1 x0 xs).2.1)
/-- and in the output block's buffer. -/
def sumLast_out (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) : Vec F S1x256x1 .f32 :=
  sumOutView.read (Elt F) (sumOutView.writes (Elt F) sumOutView.junk (sumRunLast c i arg1 harg1 arg2 harg2 arg3 harg3 hc0 hc1 x0 xs).1)

/-! ## Point by point -/

/-- THE ACCUMULATION. What the output block's buffer (first component) and the scratch (second component) hold after the
    body at position `n`: point 0 is the first case; a later point is the last case at position 15 and a middle case
    otherwise, run over the scratch the point before left. -/
def sumAt (c : Dev nD) : (n : ℕ) → n < cfg0.N → Vec F S1x256x1 .f32 × Vec F S1x256x1 .f32
  | 0, hn =>
    (sumFirst_out c (grid0.coords ⟨0, hn⟩) (sumInAt ⟨0, hn⟩) (sumInAt_whole ⟨0, hn⟩) (sumOutAt ⟨0, hn⟩) (sumOutAt_whole ⟨0, hn⟩) sumAcc (Memref.isWhole_whole _) ((sumFirst_iff ⟨0, hn⟩).mpr rfl) (fun h => absurd ((sumLast_iff ⟨0, hn⟩).mp h) (show ¬ (0 : ℕ) = 15 by decide)) (sumBlk V c 0 ⟨0, hn⟩),
     sumFirst_acc c (grid0.coords ⟨0, hn⟩) (sumInAt ⟨0, hn⟩) (sumInAt_whole ⟨0, hn⟩) (sumOutAt ⟨0, hn⟩) (sumOutAt_whole ⟨0, hn⟩) sumAcc (Memref.isWhole_whole _) ((sumFirst_iff ⟨0, hn⟩).mpr rfl) (fun h => absurd ((sumLast_iff ⟨0, hn⟩).mp h) (show ¬ (0 : ℕ) = 15 by decide)) (sumBlk V c 0 ⟨0, hn⟩))
  | n + 1, hn =>
    if h1 : n + 1 = 15 then
      (sumLast_out c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) ((sumLast_iff ⟨n + 1, hn⟩).mpr h1) (sumBlk V c 0 ⟨n + 1, hn⟩) (sumAt c n (Nat.lt_of_succ_lt hn)).2,
       sumLast_acc c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) ((sumLast_iff ⟨n + 1, hn⟩).mpr h1) (sumBlk V c 0 ⟨n + 1, hn⟩) (sumAt c n (Nat.lt_of_succ_lt hn)).2)
    else
      (sumMid_out c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) (fun h => h1 ((sumLast_iff ⟨n + 1, hn⟩).mp h)) (sumBlk V c 0 ⟨n + 1, hn⟩) (sumAt c n (Nat.lt_of_succ_lt hn)).2,
       sumMid_acc c (grid0.coords ⟨n + 1, hn⟩) (sumInAt ⟨n + 1, hn⟩) (sumInAt_whole ⟨n + 1, hn⟩) (sumOutAt ⟨n + 1, hn⟩) (sumOutAt_whole ⟨n + 1, hn⟩) sumAcc (Memref.isWhole_whole _) (fun h => absurd ((sumFirst_iff ⟨n + 1, hn⟩).mp h) (Nat.succ_ne_zero n)) (fun h => h1 ((sumLast_iff ⟨n + 1, hn⟩).mp h)) (sumBlk V c 0 ⟨n + 1, hn⟩) (sumAt c n (Nat.lt_of_succ_lt hn)).2)

/-- At the first point: the first case's contents. -/
theorem sumAt_first (c : Dev nD) (t : Fin cfg0.N) (h0 : t.val = 0) (h1 : ¬t.val = 15) :
    sumAt V c t.val t.isLt = (sumFirst_out c (grid0.coords t) (sumInAt t) (sumInAt_whole t) (sumOutAt t) (sumOutAt_whole t) sumAcc (Memref.isWhole_whole _) ((sumFirst_iff t).mpr h0) (fun h => h1 ((sumLast_iff t).mp h)) (sumBlk V c 0 t), sumFirst_acc c (grid0.coords t) (sumInAt t) (sumInAt_whole t) (sumOutAt t) (sumOutAt_whole t) sumAcc (Memref.isWhole_whole _) ((sumFirst_iff t).mpr h0) (fun h => h1 ((sumLast_iff t).mp h)) (sumBlk V c 0 t)) := by
  obtain ⟨n, hn⟩ := t
  cases n with
  | zero => exact rfl
  | succ n => exact absurd h0 (Nat.succ_ne_zero n)

/-- At a middle point: the middle case's contents, over what the point before left. -/
theorem sumAt_mid (c : Dev nD) (t : Fin cfg0.N) (h0 : ¬t.val = 0) (h1 : ¬t.val = 15) :
    sumAt V c t.val t.isLt = (sumMid_out c (grid0.coords t) (sumInAt t) (sumInAt_whole t) (sumOutAt t) (sumOutAt_whole t) sumAcc (Memref.isWhole_whole _) (fun h => h0 ((sumFirst_iff t).mp h)) (fun h => h1 ((sumLast_iff t).mp h)) (sumBlk V c 0 t) (sumAt V c (t.val - 1) (Nat.lt_of_le_of_lt (Nat.sub_le _ _) t.isLt)).2, sumMid_acc c (grid0.coords t) (sumInAt t) (sumInAt_whole t) (sumOutAt t) (sumOutAt_whole t) sumAcc (Memref.isWhole_whole _) (fun h => h0 ((sumFirst_iff t).mp h)) (fun h => h1 ((sumLast_iff t).mp h)) (sumBlk V c 0 t) (sumAt V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem sumAt_last (c : Dev nD) (t : Fin cfg0.N) (h0 : ¬t.val = 0) (h1 : t.val = 15) :
    sumAt V c t.val t.isLt = (sumLast_out c (grid0.coords t) (sumInAt t) (sumInAt_whole t) (sumOutAt t) (sumOutAt_whole t) sumAcc (Memref.isWhole_whole _) (fun h => h0 ((sumFirst_iff t).mp h)) ((sumLast_iff t).mpr h1) (sumBlk V c 0 t) (sumAt V c (t.val - 1) (Nat.lt_of_le_of_lt (Nat.sub_le _ _) t.isLt)).2, sumLast_acc c (grid0.coords t) (sumInAt t) (sumInAt_whole t) (sumOutAt t) (sumOutAt_whole t) sumAcc (Memref.isWhole_whole _) (fun h => h0 ((sumFirst_iff t).mp h)) ((sumLast_iff t).mpr h1) (sumBlk V c 0 t) (sumAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant that carries the running total -/

/-- Before position `n`: before the first point nothing is tracked (the scratch at anything); afterwards the scratch
    holds what the point before left in it; the other scoped buffers and the generator register ride along. -/
def sumInv (c : Dev nD) : (n : ℕ) → n ≤ cfg0.N → sProp 𝕄
  | 0, _ => Pipeline.ΦA spec0 c
  | n + 1, hn => iprop(iprop(owns (c : Thread nD τ) sumAcc fullShare ((sumAt V c n hn).2) ∗ sumOthers c) ∗ (∃ r, prngReg c r))

theorem sumInv_zero (c : Dev nD) (n : ℕ) (h : n ≤ cfg0.N) (hz : n = 0) : sumInv V c n h = Pipeline.ΦA spec0 c := by
  subst hz; rfl

theorem sumInv_succ (c : Dev nD) (n : ℕ) (hn : n < cfg0.N) :
    sumInv V c (n + 1) hn = iprop(iprop(owns (c : Thread nD τ) sumAcc fullShare ((sumAt V c n hn).2) ∗ sumOthers c) ∗ (∃ r, prngReg c r)) := rfl

theorem sumInv_pos (c : Dev nD) (n : ℕ) (h : n ≤ cfg0.N) (hz : n ≠ 0) :
    sumInv V c n h = iprop(iprop(owns (c : Thread nD τ) sumAcc fullShare ((sumAt V c (n - 1) (by omega)).2) ∗ sumOthers c) ∗ (∃ r, prngReg c r)) := by
  cases n with
  | zero => exact absurd rfl hz
  | succ n => rfl

/-! ## The pipeline's proof data -/

/-- The proof data of the sum launch on core `c` at region-entry contents `V`: after the body at point `t` the input's
    buffer holds its block and the output's what `sumAt` says; the invariant carries the scratch; nothing owed. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => (sumAt V c t.val t.isLt).1
  Φ t := sumInv V c t.val (Nat.le_of_lt_succ t.isLt)
  q _ := fullShare
  owed _ := 0

theorem sumDat_A (c : Dev nD) (w : Fin cfg0.W) : (sumDat V c).A w = V c (Pipeline.arrRef spec0 w) := by
  dsimp only [sumDat]

theorem sumDat_inv_castSucc (c : Dev nD) (t : Fin cfg0.N) :
    (sumDat V c).Φ t.castSucc = sumInv V c t.val (Nat.le_of_lt t.isLt) := by
  dsimp only [sumDat]; simp only [Fin.coe_castSucc]

theorem sumDat_after_in (c : Dev nD) (t : Fin cfg0.N) : (sumDat V c).after 0 t = sumBlk V c 0 t := by dsimp only [sumDat]
theorem sumDat_after_out (c : Dev nD) (t : Fin cfg0.N) : (sumDat V c).after 1 t = (sumAt V c t.val t.isLt).1 := by dsimp only [sumDat]

theorem sumDat_before_in (c : Dev nD) (t : Fin cfg0.N) (d) : (sumDat V c).before 0 t d = sumBlk V c 0 t :=
  sumBefore_in_of V (sumDat V c) (sumDat_A V c 0) (sumDat_after_in V c) t d

/-! ## The body obligation -/

def sumBodyPre (c : Dev nD) (t : Fin cfg0.N) : sProp 𝕄 :=
  iprop((sumDat V c).Φ t.castSucc ∗ (sumDat V c).owesAt () t.castSucc
    ∗ (∃ d, owns (c : Thread nD τ) (sumInAt t) fullShare ((sumDat V c).before 0 t d))
    ∗ (∃ d, owns (c : Thread nD τ) (sumOutAt t) fullShare ((sumDat V c).before 1 t d)))

def sumBodyPost (c : Dev nD) (t : Fin cfg0.N) : sProp 𝕄 :=
  iprop((sumDat V c).Φ t.succ ∗ (sumDat V c).owesAt () t.succ
    ∗ (sumDat V c).leavesExact 0 t
    ∗ (sumDat V c).leavesExact 1 t)

set_option maxHeartbeats 4800000 in
/-- The body at any point: the input's buffer holds its block; which case the point is in is decided by its position;
    the invariant hands the body the scratch at what the point before left (at anything at the first point) and takes
    it back at this point's contents; the output's buffer is handed back untouched off the last point. -/
theorem sumBody_sound (c : Dev nD) (t : Fin cfg0.N) :
    sumBodyPre V c t ⊢ wp frame (wpE (defs₀ (F := F)) Variants.none c none) Set.univ (bodyAt0 t) (fun _ => sumBodyPost V c t) := by
  unfold sumBodyPre sumBodyPost bodyAt0
  simp only [sumDat_before_in]
  rw [show (sumDat V c).owesAt () t.succ = (sumDat V c).owesAt () t.castSucc from rfl]
  rw [show (sumDat V c).Φ t.succ = sumInv V c (t.val + 1) t.isLt from rfl, sumInv_succ]
  have hN : t.val < 16 := lt_of_lt_of_eq t.isLt (show cfg0.N = 16 from N_0)
  rw [show (sumDat V c).leavesExact 0 t = owns (c : Thread nD τ) (sumInAt t) fullShare ((sumDat V c).after 0 t) from by
    unfold Dat.leavesExact; rw [sumIn_live t], sumDat_after_in]
  by_cases h0 : t.val = 0
  · have h1 : ¬t.val = 15 := by omega
    rw [Dat.leavesExact_idle (sumDat V c) 1 t (sumOut_idle t (fun h => h1 ((sumLast_iff t).mp h))) (sumOut_noFlush t (fun h => h1 ((sumLast_iff t).mp h)))]
    rw [sumAt_first V c t h0 h1]
    unfold sumFirst_acc; (try dsimp only)
    rw [sumDat_inv_castSucc V c t, sumInv_zero V c _ _ h0, sumIdleInv_eq]
    iintro ⟨⟨⟨HS0, Hrest⟩, Hg⟩, Ho, ⟨%d0, H0⟩, ⟨%d1, H1⟩⟩
    iapply ((sumRunFirst c (grid0.coords t) _ _ _ _ _ _ ((sumFirst_iff t).mpr h0) (fun h => h1 ((sumLast_iff t).mp h)) (sumBlk V c 0 t)).2.2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (sumFirst_cover c _ _ _ _ _ _ _ _ _ _)
        iexact Hrest
      iexact Hg
    isplitl [Ho]; · iexact Ho
    isplitl [H0]; · iexact H0
    iexists _; iexact H1
  · by_cases h1 : t.val = 15
    · rw [show (sumDat V c).leavesExact 1 t = owns (c : Thread nD τ) (sumOutAt t) fullShare ((sumDat V c).after 1 t) from by
        unfold Dat.leavesExact; rw [sumOut_live t ((sumLast_iff t).mpr h1)], sumDat_after_out]
      rw [sumAt_last V c t h0 h1]
      unfold sumLast_out sumLast_acc; (try dsimp only)
      rw [sumDat_inv_castSucc V c t, sumInv_pos V c _ _ h0]
      iintro ⟨⟨⟨HS0, Hrest⟩, Hg⟩, Ho, ⟨%d0, H0⟩, ⟨%d1, H1⟩⟩
      iapply ((sumRunLast c (grid0.coords t) _ _ _ _ _ _ (fun h => h0 ((sumFirst_iff t).mp h)) ((sumLast_iff t).mpr h1) (sumBlk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (sumLast_cover c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (sumLast_outCover c _ _ _ _ _ _ _ _ _ _ _)
    · rw [Dat.leavesExact_idle (sumDat V c) 1 t (sumOut_idle t (fun h => h1 ((sumLast_iff t).mp h))) (sumOut_noFlush t (fun h => h1 ((sumLast_iff t).mp h)))]
      rw [sumAt_mid V c t h0 h1]
      unfold sumMid_acc; (try dsimp only)
      rw [sumDat_inv_castSucc V c t, sumInv_pos V c _ _ h0]
      iintro ⟨⟨⟨HS0, Hrest⟩, Hg⟩, Ho, ⟨%d0, H0⟩, ⟨%d1, H1⟩⟩
      iapply ((sumRunMid c (grid0.coords t) _ _ _ _ _ _ (fun h => h0 ((sumFirst_iff t).mp h)) (fun h => h1 ((sumLast_iff t).mp h)) (sumBlk V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (sumMid_cover c _ _ _ _ _ _ _ _ _ _ _)
          iexact Hrest
        iexact Hg
      isplitl [Ho]; · iexact Ho
      isplitl [H0]; · iexact H0
      iexists _; iexact H1

/-- The library's body obligation, at every point. -/
theorem sumBody_obligation (c : Dev nD) : BodyObligation (sumDat (F := F) V c) (defs₀ (F := F)) Variants.none () Set.univ := fun t => by
  rw [bigSep_W0, bigSep_W0]
  exact sumBody_sound V c t

/-- What the launch hands the region is the invariant before the first point. -/
theorem sumInv_in (c : Dev nD) : Pipeline.ΦA spec0 c ⊢ (sumDat V c).Φ 0 := by
  rw [show (sumDat V c).Φ 0 = sumInv V c 0 (Nat.zero_le _) from rfl, sumInv_zero V c 0 _ rfl]
  try exact Idealize.SL.BI.Entails.refl _

/-- After the last point the invariant gives the untracked form back: the scratch's named contents are forgotten. -/
theorem sumInv_out (c : Dev nD) : (sumDat V c).Φ (Fin.last cfg0.N) ⊢ Pipeline.ΦA spec0 c := by
  rw [show (sumDat V c).Φ (Fin.last cfg0.N) = sumInv V c (Fin.last cfg0.N).val (Nat.le_of_lt_succ (Fin.last cfg0.N).isLt) from rfl,
    sumInv_pos V c _ _ (by rw [Fin.val_last]; have : cfg0.N = 16 := N_0; omega), sumIdleInv_eq]
  iintro ⟨⟨HS0, Hrest⟩, Hg⟩
  isplitl [HS0 Hrest]
  · isplitl [HS0]
    · iexists _; iexact HS0
    iexact Hrest
  iexact Hg

end Cert.KernelIdeal.Gen

end
-- ==== Proof.KernelIdeal.VarBody.lean ====
/-
  The per-channel squared-deviation kernel (the program's second launch) as a body the pipeline calls at each of
  its 16 grid points. The body keeps a running per-channel total in a scratch vector of shape [1, 256, 1]: at the
  first point it clears the scratch; at every point it subtracts the per-channel mean (a block [1, 256, 1], the same
  at every point) from the point's block [4, 256, 3136], squares, sums over the last axis and then over the first,
  and adds the result to the scratch; at the last point it copies the scratch into the output block. So a point is
  in one of three control cases — first (clear, add), middle (add), last (add, copy out) — and this module runs the
  body once per case: from the input block, the mean block, the output block's buffer and the scratch it is handed,
  to the stores it leaves in the output's buffer and in the scratch, listed last store first. The input block and
  the mean block are read only: the body hands both back as it found them.
-/
import proofs.«156847_j180388626588_1_alg».proof.Proof.Gen.KernelIdeal.Launch
import proofs.«156847_j180388626588_1_alg».proof.Proof.Gen.KernelIdeal.Skeleton
import proofs.«156847_j180388626588_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The body's first branch, "this is the first point": the clear of the running total. -/
abbrev varFirst (i : grid1.Coords) : Prop := (Scalar.cmpi .ne (Scalar.extui (Scalar.cmpi .eq (BitVec.ofNat 32 (i 0).val) 0#32)) 0#32) = 1#1
/-- It is taken at point 0 only. -/
theorem varFirst_iff : ∀ t : Fin cfg1.N, varFirst (grid1.coords t) ↔ t.val = 0 :=
  (by decide +kernel : ∀ t : Fin grid1.N, varFirst (grid1.coords t) ↔ t.val = 0)

/-- The body's second branch, "this is the last point": the copy of the running total into the output block. -/
abbrev varLast (i : grid1.Coords) : Prop := k1_cond2 i = 1#1
/-- It is taken at point 15 only. -/
theorem varLast_iff : ∀ t : Fin cfg1.N, varLast (grid1.coords t) ↔ t.val = 15 :=
  (by decide +kernel : ∀ t : Fin grid1.N, varLast (grid1.coords t) ↔ t.val = 15)

/-! ## Where the windows are idle -/

/-- The input window is never idle. -/
theorem varIn_live : ∀ t : Fin cfg1.N, cfg1.idle 0 (grid1.coords t) = false := by decide +kernel
/-- The mean's window is never idle. -/
theorem varMean_live : ∀ t : Fin cfg1.N, cfg1.idle 1 (grid1.coords t) = false := by decide +kernel
/-- Off the last point the body stores nothing into the output block: the window is idle there, -/
theorem varOut_idle : ∀ t : Fin cfg1.N, ¬varLast (grid1.coords t) → cfg1.idle 2 (grid1.coords t) = true := by decide +kernel
/-- and the pipeline does not write its block back there. -/
theorem varOut_noFlush : ∀ t : Fin cfg1.N, ¬varLast (grid1.coords t) → (cfg1.win 2).flush t = false := by decide +kernel
/-- At the last point the output window is live. -/
theorem varOut_live : ∀ t : Fin cfg1.N, varLast (grid1.coords t) → cfg1.idle 2 (grid1.coords t) = false := by decide +kernel

/-! ## The buffers the body is called on -/

/-- The staging buffer of the output window, through which the output block's contents are stated. -/
abbrev varOutView : View sig .tc .vmem S1x256x1 .f32 := (Memref.whole cc1_stg2_0 : Memref sig .tc .vmem S1x256x1 .f32).view
/-- The staging buffers the pipeline passes at point `t`, and that they are whole. -/
abbrev varInAt (t : Fin cfg1.N) : Memref sig .tc .vmem S4x256x3136 .f32 := win1_0.stage (cfg1.slots t 0)
abbrev varInAt_whole (t : Fin cfg1.N) : (varInAt t).IsWhole := hstage1_0 ((cfg1.slots t 0).cast nbuf1_0)
abbrev varMeanAt (t : Fin cfg1.N) : Memref sig .tc .vmem S1x256x1 .f32 := win1_1.stage (cfg1.slots t 1)
abbrev varMeanAt_whole (t : Fin cfg1.N) : (varMeanAt t).IsWhole := hstage1_1 ((cfg1.slots t 1).cast nbuf1_1)
abbrev varOutAt (t : Fin cfg1.N) : Memref sig .tc .vmem S1x256x1 .f32 := win1_2.stage (cfg1.slots t 2)
abbrev varOutAt_whole (t : Fin cfg1.N) : (varOutAt t).IsWhole := hstage1_2 ((cfg1.slots t 2).cast nbuf1_2)
/-- The running total's scratch buffer, and its view. -/
abbrev varAcc : Memref sig .tc .vmem S1x256x1 .f32 := Memref.whole cc1_scratch0
abbrev varAccView : View sig .tc .vmem S1x256x1 .f32 := varAcc.view

/-- The scoped buffers of the core that this launch neither stages through nor uses as its scratch (the other two
    launches' staging buffers and the first launch's scratch), each at some contents: they ride through this launch
    unopened. -/
abbrev varOthers (c : Dev nD) : sProp 𝕄 :=
  Pipeline.scopedRestBut (Ix := Unit) (Name := ℕ) (U := UR sig nD τ) (Lvl := ℕ) (Val := Elt F) spec1 c [cc1_scratch0]

/-- What the region's invariant holds while no contents are tracked: the scratch at some contents, the other scoped
    buffers, and the generator register at some state. -/
theorem varIdleInv_eq (c : Dev nD) :
    (Pipeline.ΦA spec1 c : sProp 𝕄)
      = iprop(iprop((∃ d, owns (c : Thread nD τ) varAcc fullShare d) ∗ varOthers c) ∗ (∃ r, prngReg c r)) := by
  unfold Pipeline.ΦA
  rw [Pipeline.scopedRest_split_of_list spec1 c [cc1_scratch0] (by decide) (by decide)]
  simp only [varAcc, owns_whole]; try rfl

/-! ## The body, case by case -/

set_option maxHeartbeats 1000000 in
/-- THE FIRST POINT (clear, add; no copy out). On whole buffers — the input block's at `x0`, the mean's at `x1`, the
    output block's at `xo` (all three handed back untouched), the scratch at anything — the body runs to the
    continuation holding the scratch with the stores `LS` written; `LO` (no store) is what it leaves in the output's
    buffer. -/
noncomputable def varRunFirst (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i)
    (x0 : Vec F S4x256x3136 .f32) (x1 : Vec F S1x256x1 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__var_kernel i arg1 harg1 arg2 harg2 arg3 harg3 arg4 harg4) K } := by
  refine ⟨[], ?_, fun xo E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (add only). The scratch is handed over at what the point before left, `xs`. -/
noncomputable def varRunMid (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i)
    (x0 : Vec F S4x256x3136 .f32) (x1 : Vec F S1x256x1 .f32) (xs : Vec F S1x256x1 .f32) :
    Σ' (LO : List (View.Piece (Elt F) S1x256x1 .f32)), { LS : List (View.Piece (Elt F) S1x256x1 .f32) //
      ∀ (xo : Vec F S1x256x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__var_kernel i arg1 harg1 arg2 harg2 arg3 harg3 arg4 harg4) K } := by
  refine ⟨[], ?_, fun xo E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (add, copy out). The output block's buffer is taken at anything and left with the stores `LO`. -/
noncomputable def varRunLast (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i)
    (x0 : Vec F S4x256x3136 .f32) (x1 : Vec F S1x256x1 .f32) (xs : Vec F S1x256x1 .f32) :
    Σ' (LO : List (View.Piece (Elt F) S1x256x1 .f32)), { LS : List (View.Piece (Elt F) S1x256x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc1__var_kernel i arg1 harg1 arg2 harg2 arg3 harg3 arg4 harg4) K } := by
  refine ⟨?_, ?_, fun E K => ?run⟩
  case run =>
    simp only [cc1__var_kernel_eq_skeleton]; unfold cc1__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Gen

end
-- ==== Proof.KernelIdeal.VarRegion.lean ====
/-
  The per-channel squared-deviation launch as a REGION of the program: what its scratch (the running per-channel
  total) and its output block hold after each of the 16 grid points, the invariant that carries the scratch's contents
  from one point to the next, the pipeline's proof data at given region-entry contents `V`, and the body obligation.
  After point 0 the scratch holds the first case's stores; after a later point, the middle (or last) case's stores
  over what the point before left; the output block's buffer is stored into at the last point only. The mean's block
  is the same at every point: its window is fetched once and its buffer holds that block throughout.
-/
import proofs.«156847_j180388626588_1_alg».proof.Proof.KernelIdeal.VarBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks at a point -/

/-- Window `w`'s block at point `t`, read off its array as the region finds it. -/
def varBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point, never
    cut, never idle), for any proof data whose array is `V`'s and whose body leaves the block in place. -/
theorem varBefore_in_of {c : Dev nD} (dat : Dat τ (Elt F) Unit ℕ (UR sig nD τ) ℕ cfg1 c) (hA : dat.A 0 = V c (Pipeline.arrRef spec1 0))
    (hafter : ∀ t, dat.after 0 t = varBlk V c 0 t) (t : Fin cfg1.N) (d) : dat.before 0 t d = varBlk V c 0 t :=
  (dat.before_in_eq_fetched 0 rfl (fun _ => rfl) (fun _ _ _ => rfl) (fun t => by rw [hafter]; unfold Dat.blockOf varBlk; rw [hA]; try rfl) t d).trans
    (by unfold Dat.fetched Dat.blockOf varBlk; rw [hA]; try rfl)

/-- The mean window's staging buffer holds its block at every point: it is fetched at the first point only, but its
    block index never moves and the body leaves the block in place, so the buffer still holds it afterwards. -/
theorem varBefore_mean_of {c : Dev nD} (dat : Dat τ (Elt F) Unit ℕ (UR sig nD τ) ℕ cfg1 c) (hA : dat.A 1 = V c (Pipeline.arrRef spec1 1))
    (hafter : ∀ t, dat.after 1 t = varBlk V c 1 t) (t : Fin cfg1.N) (d) : dat.before 1 t d = varBlk V c 1 t :=
  (dat.before_in_eq_fetched 1 rfl (fun _ => rfl) (fun _ _ _ => rfl) (fun t => by rw [hafter]; unfold Dat.blockOf varBlk; rw [hA]; try rfl) t d).trans
    (by unfold Dat.fetched Dat.blockOf varBlk; rw [hA]; try rfl)

/-! ## What each case leaves -/

/-- The first case's stores into the scratch cover it. -/
theorem varFirst_cover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) (y : S1x256x1.Idx) :
    ∃ pc ∈ (varRunFirst c i arg1 harg1 arg2 harg2 arg3 harg3 arg4 harg4 hc0 hc1 x0 x1).2.1, y ∈ pc.1.set :=
  View.cover_of_tiledL (varRunFirst c i arg1 harg1 arg2 harg2 arg3 harg3 arg4 harg4 hc0 hc1 x0 x1).2.1 S1x256x1.size (by sl_kernel_rfl) y
/-- What the first case leaves in the scratch. -/
def varFirst_acc (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) : Vec F S1x256x1 .f32 :=
  varAccView.read (Elt F) (varAccView.writes (Elt F) varAccView.junk (varRunFirst c i arg1 harg1 arg2 harg2 arg3 harg3 arg4 harg4 hc0 hc1 x0 x1).2.1)
/-- The first case stores nothing into the output block: a placeholder nothing consults. -/
def varFirst_out (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) : Vec F S1x256x1 .f32 :=
  varOutView.read (Elt F) (varOutView.writes (Elt F) varOutView.junk (varRunFirst c i arg1 harg1 arg2 harg2 arg3 harg3 arg4 harg4 hc0 hc1 x0 x1).1)

/-- A middle case's stores into the scratch cover it. -/
theorem varMid_cover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) (y : S1x256x1.Idx) :
    ∃ pc ∈ (varRunMid c i arg1 harg1 arg2 harg2 arg3 harg3 arg4 harg4 hc0 hc1 x0 x1 xs).2.1, y ∈ pc.1.set :=
  View.cover_of_tiledL (varRunMid c i arg1 harg1 arg2 harg2 arg3 harg3 arg4 harg4 hc0 hc1 x0 x1 xs).2.1 S1x256x1.size (by sl_kernel_rfl) y
/-- What a middle case leaves in the scratch, over what the point before left (`xs`). -/
def varMid_acc (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) : Vec F S1x256x1 .f32 :=
  varAccView.read (Elt F) (varAccView.writes (Elt F) varAccView.junk (varRunMid c i arg1 harg1 arg2 harg2 arg3 harg3 arg4 harg4 hc0 hc1 x0 x1 xs).2.1)
/-- A middle case stores nothing into the output block: a placeholder nothing consults. -/
def varMid_out (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) : Vec F S1x256x1 .f32 :=
  varOutView.read (Elt F) (varOutView.writes (Elt F) varOutView.junk (varRunMid c i arg1 harg1 arg2 harg2 arg3 harg3 arg4 harg4 hc0 hc1 x0 x1 xs).1)

/-- The last case's stores into the scratch cover it, -/
theorem varLast_cover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) (y : S1x256x1.Idx) :
    ∃ pc ∈ (varRunLast c i arg1 harg1 arg2 harg2 arg3 harg3 arg4 harg4 hc0 hc1 x0 x1 xs).2.1, y ∈ pc.1.set :=
  View.cover_of_tiledL (varRunLast c i arg1 harg1 arg2 harg2 arg3 harg3 arg4 harg4 hc0 hc1 x0 x1 xs).2.1 S1x256x1.size (by sl_kernel_rfl) y
/-- and its store into the output block covers the block. -/
theorem varLast_outCover (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) (y : S1x256x1.Idx) :
    ∃ pc ∈ (varRunLast c i arg1 harg1 arg2 harg2 arg3 harg3 arg4 harg4 hc0 hc1 x0 x1 xs).1, y ∈ pc.1.set :=
  View.cover_of_tiledL (varRunLast c i arg1 harg1 arg2 harg2 arg3 harg3 arg4 harg4 hc0 hc1 x0 x1 xs).1 S1x256x1.size (by sl_kernel_rfl) y
/-- What the last case leaves in the scratch, -/
def varLast_acc (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) : Vec F S1x256x1 .f32 :=
  varAccView.read (Elt F) (varAccView.writes (Elt F) varAccView.junk (varRunLast c i arg1 harg1 arg2 harg2 arg3 harg3 arg4 harg4 hc0 hc1 x0 x1 xs).2.1)
/-- and in the output block's buffer. -/
def varLast_out (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) : Vec F S1x256x1 .f32 :=
  varOutView.read (Elt F) (varOutView.writes (Elt F) varOutView.junk (varRunLast c i arg1 harg1 arg2 harg2 arg3 harg3 arg4 harg4 hc0 hc1 x0 x1 xs).1)

/-! ## Point by point -/

/-- THE ACCUMULATION. What the output block's buffer (first component) and the scratch (second component) hold after the
    body at position `n`: point 0 is the first case; a later point is the last case at position 15 and a middle case
    otherwise, run over the scratch the point before left and over the mean's block. -/
def varAt (c : Dev nD) : (n : ℕ) → n < cfg1.N → Vec F S1x256x1 .f32 × Vec F S1x256x1 .f32
  | 0, hn =>
    (varFirst_out c (grid1.coords ⟨0, hn⟩) (varInAt ⟨0, hn⟩) (varInAt_whole ⟨0, hn⟩) (varMeanAt ⟨0, hn⟩) (varMeanAt_whole ⟨0, hn⟩) (varOutAt ⟨0, hn⟩) (varOutAt_whole ⟨0, hn⟩) varAcc (Memref.isWhole_whole _) ((varFirst_iff ⟨0, hn⟩).mpr rfl) (fun h => absurd ((varLast_iff ⟨0, hn⟩).mp h) (show ¬ (0 : ℕ) = 15 by decide)) (varBlk V c 0 ⟨0, hn⟩) (varBlk V c 1 ⟨0, hn⟩),
     varFirst_acc c (grid1.coords ⟨0, hn⟩) (varInAt ⟨0, hn⟩) (varInAt_whole ⟨0, hn⟩) (varMeanAt ⟨0, hn⟩) (varMeanAt_whole ⟨0, hn⟩) (varOutAt ⟨0, hn⟩) (varOutAt_whole ⟨0, hn⟩) varAcc (Memref.isWhole_whole _) ((varFirst_iff ⟨0, hn⟩).mpr rfl) (fun h => absurd ((varLast_iff ⟨0, hn⟩).mp h) (show ¬ (0 : ℕ) = 15 by decide)) (varBlk V c 0 ⟨0, hn⟩) (varBlk V c 1 ⟨0, hn⟩))
  | n + 1, hn =>
    if h1 : n + 1 = 15 then
      (varLast_out c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) ((varLast_iff ⟨n + 1, hn⟩).mpr h1) (varBlk V c 0 ⟨n + 1, hn⟩) (varBlk V c 1 ⟨n + 1, hn⟩) (varAt c n (Nat.lt_of_succ_lt hn)).2,
       varLast_acc c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) ((varLast_iff ⟨n + 1, hn⟩).mpr h1) (varBlk V c 0 ⟨n + 1, hn⟩) (varBlk V c 1 ⟨n + 1, hn⟩) (varAt c n (Nat.lt_of_succ_lt hn)).2)
    else
      (varMid_out c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) (fun h => h1 ((varLast_iff ⟨n + 1, hn⟩).mp h)) (varBlk V c 0 ⟨n + 1, hn⟩) (varBlk V c 1 ⟨n + 1, hn⟩) (varAt c n (Nat.lt_of_succ_lt hn)).2,
       varMid_acc c (grid1.coords ⟨n + 1, hn⟩) (varInAt ⟨n + 1, hn⟩) (varInAt_whole ⟨n + 1, hn⟩) (varMeanAt ⟨n + 1, hn⟩) (varMeanAt_whole ⟨n + 1, hn⟩) (varOutAt ⟨n + 1, hn⟩) (varOutAt_whole ⟨n + 1, hn⟩) varAcc (Memref.isWhole_whole _) (fun h => absurd ((varFirst_iff ⟨n + 1, hn⟩).mp h) (Nat.succ_ne_zero n)) (fun h => h1 ((varLast_iff ⟨n + 1, hn⟩).mp h)) (varBlk V c 0 ⟨n + 1, hn⟩) (varBlk V c 1 ⟨n + 1, hn⟩) (varAt c n (Nat.lt_of_succ_lt hn)).2)

/-- At the first point: the first case's contents. -/
theorem varAt_first (c : Dev nD) (t : Fin cfg1.N) (h0 : t.val = 0) (h1 : ¬t.val = 15) :
    varAt V c t.val t.isLt = (varFirst_out c (grid1.coords t) (varInAt t) (varInAt_whole t) (varMeanAt t) (varMeanAt_whole t) (varOutAt t) (varOutAt_whole t) varAcc (Memref.isWhole_whole _) ((varFirst_iff t).mpr h0) (fun h => h1 ((varLast_iff t).mp h)) (varBlk V c 0 t) (varBlk V c 1 t), varFirst_acc c (grid1.coords t) (varInAt t) (varInAt_whole t) (varMeanAt t) (varMeanAt_whole t) (varOutAt t) (varOutAt_whole t) varAcc (Memref.isWhole_whole _) ((varFirst_iff t).mpr h0) (fun h => h1 ((varLast_iff t).mp h)) (varBlk V c 0 t) (varBlk V c 1 t)) := by
  obtain ⟨n, hn⟩ := t
  cases n with
  | zero => exact rfl
  | succ n => exact absurd h0 (Nat.succ_ne_zero n)

/-- At a middle point: the middle case's contents, over what the point before left. -/
theorem varAt_mid (c : Dev nD) (t : Fin cfg1.N) (h0 : ¬t.val = 0) (h1 : ¬t.val = 15) :
    varAt V c t.val t.isLt = (varMid_out c (grid1.coords t) (varInAt t) (varInAt_whole t) (varMeanAt t) (varMeanAt_whole t) (varOutAt t) (varOutAt_whole t) varAcc (Memref.isWhole_whole _) (fun h => h0 ((varFirst_iff t).mp h)) (fun h => h1 ((varLast_iff t).mp h)) (varBlk V c 0 t) (varBlk V c 1 t) (varAt V c (t.val - 1) (Nat.lt_of_le_of_lt (Nat.sub_le _ _) t.isLt)).2, varMid_acc c (grid1.coords t) (varInAt t) (varInAt_whole t) (varMeanAt t) (varMeanAt_whole t) (varOutAt t) (varOutAt_whole t) varAcc (Memref.isWhole_whole _) (fun h => h0 ((varFirst_iff t).mp h)) (fun h => h1 ((varLast_iff t).mp h)) (varBlk V c 0 t) (varBlk V c 1 t) (varAt V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem varAt_last (c : Dev nD) (t : Fin cfg1.N) (h0 : ¬t.val = 0) (h1 : t.val = 15) :
    varAt V c t.val t.isLt = (varLast_out c (grid1.coords t) (varInAt t) (varInAt_whole t) (varMeanAt t) (varMeanAt_whole t) (varOutAt t) (varOutAt_whole t) varAcc (Memref.isWhole_whole _) (fun h => h0 ((varFirst_iff t).mp h)) ((varLast_iff t).mpr h1) (varBlk V c 0 t) (varBlk V c 1 t) (varAt V c (t.val - 1) (Nat.lt_of_le_of_lt (Nat.sub_le _ _) t.isLt)).2, varLast_acc c (grid1.coords t) (varInAt t) (varInAt_whole t) (varMeanAt t) (varMeanAt_whole t) (varOutAt t) (varOutAt_whole t) varAcc (Memref.isWhole_whole _) (fun h => h0 ((varFirst_iff t).mp h)) ((varLast_iff t).mpr h1) (varBlk V c 0 t) (varBlk V c 1 t) (varAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant that carries the running total -/

/-- Before position `n`: before the first point nothing is tracked (the scratch at anything); afterwards the scratch
    holds what the point before left in it; the other scoped buffers and the generator register ride along. -/
def varInv (c : Dev nD) : (n : ℕ) → n ≤ cfg1.N → sProp 𝕄
  | 0, _ => Pipeline.ΦA spec1 c
  | n + 1, hn => iprop(iprop(owns (c : Thread nD τ) varAcc fullShare ((varAt V c n hn).2) ∗ varOthers c) ∗ (∃ r, prngReg c r))

theorem varInv_zero (c : Dev nD) (n : ℕ) (h : n ≤ cfg1.N) (hz : n = 0) : varInv V c n h = Pipeline.ΦA spec1 c := by
  subst hz; rfl

theorem varInv_succ (c : Dev nD) (n : ℕ) (hn : n < cfg1.N) :
    varInv V c (n + 1) hn = iprop(iprop(owns (c : Thread nD τ) varAcc fullShare ((varAt V c n hn).2) ∗ varOthers c) ∗ (∃ r, prngReg c r)) := rfl

theorem varInv_pos (c : Dev nD) (n : ℕ) (h : n ≤ cfg1.N) (hz : n ≠ 0) :
    varInv V c n h = iprop(iprop(owns (c : Thread nD τ) varAcc fullShare ((varAt V c (n - 1) (by omega)).2) ∗ varOthers c) ∗ (∃ r, prngReg c r)) := by
  cases n with
  | zero => exact absurd rfl hz
  | succ n => rfl

/-! ## The pipeline's proof data -/

/-- The proof data of the squared-deviation launch on core `c` at region-entry contents `V`: after the body at point `t`
    the input's buffer and the mean's buffer hold their blocks and the output's what `varAt` says; the invariant
    carries the scratch; nothing owed. -/
def varDat (c : Dev nD) : Dat τ (Elt F) Unit ℕ (UR sig nD τ) ℕ cfg1 c where
  A w := V c (Pipeline.arrRef spec1 w)
  after w t := match w with
    | ⟨0, _⟩ => varBlk V c 0 t
    | ⟨1, _⟩ => varBlk V c 1 t
    | ⟨2, _⟩ => (varAt V c t.val t.isLt).1
  Φ t := varInv V c t.val (Nat.le_of_lt_succ t.isLt)
  q _ := fullShare
  owed _ := 0

theorem varDat_A (c : Dev nD) (w : Fin cfg1.W) : (varDat V c).A w = V c (Pipeline.arrRef spec1 w) := by
  dsimp only [varDat]

theorem varDat_inv_castSucc (c : Dev nD) (t : Fin cfg1.N) :
    (varDat V c).Φ t.castSucc = varInv V c t.val (Nat.le_of_lt t.isLt) := by
  dsimp only [varDat]; simp only [Fin.coe_castSucc]

theorem varDat_after_in (c : Dev nD) (t : Fin cfg1.N) : (varDat V c).after 0 t = varBlk V c 0 t := by dsimp only [varDat]
theorem varDat_after_mean (c : Dev nD) (t : Fin cfg1.N) : (varDat V c).after 1 t = varBlk V c 1 t := by dsimp only [varDat]
theorem varDat_after_out (c : Dev nD) (t : Fin cfg1.N) : (varDat V c).after 2 t = (varAt V c t.val t.isLt).1 := by dsimp only [varDat]

theorem varDat_before_in (c : Dev nD) (t : Fin cfg1.N) (d) : (varDat V c).before 0 t d = varBlk V c 0 t :=
  varBefore_in_of V (varDat V c) (varDat_A V c 0) (varDat_after_in V c) t d
theorem varDat_before_mean (c : Dev nD) (t : Fin cfg1.N) (d) : (varDat V c).before 1 t d = varBlk V c 1 t :=
  varBefore_mean_of V (varDat V c) (varDat_A V c 1) (varDat_after_mean V c) t d

/-! ## The body obligation -/

def varBodyPre (c : Dev nD) (t : Fin cfg1.N) : sProp 𝕄 :=
  iprop((varDat V c).Φ t.castSucc ∗ (varDat V c).owesAt () t.castSucc
    ∗ (∃ d, owns (c : Thread nD τ) (varInAt t) fullShare ((varDat V c).before 0 t d))
    ∗ (∃ d, owns (c : Thread nD τ) (varMeanAt t) fullShare ((varDat V c).before 1 t d))
    ∗ (∃ d, owns (c : Thread nD τ) (varOutAt t) fullShare ((varDat V c).before 2 t d)))

def varBodyPost (c : Dev nD) (t : Fin cfg1.N) : sProp 𝕄 :=
  iprop((varDat V c).Φ t.succ ∗ (varDat V c).owesAt () t.succ
    ∗ (varDat V c).leavesExact 0 t
    ∗ (varDat V c).leavesExact 1 t
    ∗ (varDat V c).leavesExact 2 t)

set_option maxHeartbeats 4800000 in
/-- The body at any point: the input's and the mean's buffers hold their blocks; which case the point is in is decided
    by its position; the invariant hands the body the scratch at what the point before left (at anything at the first
    point) and takes it back at this point's contents; the output's buffer is handed back untouched off the last
    point. -/
theorem varBody_sound (c : Dev nD) (t : Fin cfg1.N) :
    varBodyPre V c t ⊢ wp frame (wpE (defs₀ (F := F)) Variants.none c none) Set.univ (bodyAt1 t) (fun _ => varBodyPost V c t) := by
  unfold varBodyPre varBodyPost bodyAt1
  simp only [varDat_before_in, varDat_before_mean]
  rw [show (varDat V c).owesAt () t.succ = (varDat V c).owesAt () t.castSucc from rfl]
  rw [show (varDat V c).Φ t.succ = varInv V c (t.val + 1) t.isLt from rfl, varInv_succ]
  have hN : t.val < 16 := lt_of_lt_of_eq t.isLt (show cfg1.N = 16 from N_1)
  rw [show (varDat V c).leavesExact 0 t = owns (c : Thread nD τ) (varInAt t) fullShare ((varDat V c).after 0 t) from by
    unfold Dat.leavesExact; rw [varIn_live t], varDat_after_in]
  rw [show (varDat V c).leavesExact 1 t = owns (c : Thread nD τ) (varMeanAt t) fullShare ((varDat V c).after 1 t) from by
    unfold Dat.leavesExact; rw [varMean_live t], varDat_after_mean]
  by_cases h0 : t.val = 0
  · have h1 : ¬t.val = 15 := by omega
    rw [Dat.leavesExact_idle (varDat V c) 2 t (varOut_idle t (fun h => h1 ((varLast_iff t).mp h))) (varOut_noFlush t (fun h => h1 ((varLast_iff t).mp h)))]
    rw [varAt_first V c t h0 h1]
    unfold varFirst_acc; (try dsimp only)
    rw [varDat_inv_castSucc V c t, varInv_zero V c _ _ h0, varIdleInv_eq]
    iintro ⟨⟨⟨HS0, Hrest⟩, Hg⟩, Ho, ⟨%d0, H0⟩, ⟨%d1, H1⟩, ⟨%d2, H2⟩⟩
    iapply ((varRunFirst c (grid1.coords t) _ _ _ _ _ _ _ _ ((varFirst_iff t).mpr h0) (fun h => h1 ((varLast_iff t).mp h)) (varBlk V c 0 t) (varBlk V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (varFirst_cover c _ _ _ _ _ _ _ _ _ _ _ _ _)
        iexact Hrest
      iexact Hg
    isplitl [Ho]; · iexact Ho
    isplitl [H0]; · iexact H0
    isplitl [H1]; · iexact H1
    iexists _; iexact H2
  · by_cases h1 : t.val = 15
    · rw [show (varDat V c).leavesExact 2 t = owns (c : Thread nD τ) (varOutAt t) fullShare ((varDat V c).after 2 t) from by
        unfold Dat.leavesExact; rw [varOut_live t ((varLast_iff t).mpr h1)], varDat_after_out]
      rw [varAt_last V c t h0 h1]
      unfold varLast_out varLast_acc; (try dsimp only)
      rw [varDat_inv_castSucc V c t, varInv_pos V c _ _ h0]
      iintro ⟨⟨⟨HS0, Hrest⟩, Hg⟩, Ho, ⟨%d0, H0⟩, ⟨%d1, H1⟩, ⟨%d2, H2⟩⟩
      iapply ((varRunLast c (grid1.coords t) _ _ _ _ _ _ _ _ (fun h => h0 ((varFirst_iff t).mp h)) ((varLast_iff t).mpr h1) (varBlk V c 0 t) (varBlk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (varLast_cover c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (varLast_outCover c _ _ _ _ _ _ _ _ _ _ _ _ _ _)
    · rw [Dat.leavesExact_idle (varDat V c) 2 t (varOut_idle t (fun h => h1 ((varLast_iff t).mp h))) (varOut_noFlush t (fun h => h1 ((varLast_iff t).mp h)))]
      rw [varAt_mid V c t h0 h1]
      unfold varMid_acc; (try dsimp only)
      rw [varDat_inv_castSucc V c t, varInv_pos V c _ _ h0]
      iintro ⟨⟨⟨HS0, Hrest⟩, Hg⟩, Ho, ⟨%d0, H0⟩, ⟨%d1, H1⟩, ⟨%d2, H2⟩⟩
      iapply ((varRunMid c (grid1.coords t) _ _ _ _ _ _ _ _ (fun h => h0 ((varFirst_iff t).mp h)) (fun h => h1 ((varLast_iff t).mp h)) (varBlk V c 0 t) (varBlk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (varMid_cover c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem varBody_obligation (c : Dev nD) : BodyObligation (varDat (F := F) V c) (defs₀ (F := F)) Variants.none () Set.univ := fun t => by
  rw [bigSep_W1, bigSep_W1]
  exact varBody_sound V c t

/-- What the launch hands the region is the invariant before the first point. -/
theorem varInv_in (c : Dev nD) : Pipeline.ΦA spec1 c ⊢ (varDat V c).Φ 0 := by
  rw [show (varDat V c).Φ 0 = varInv V c 0 (Nat.zero_le _) from rfl, varInv_zero V c 0 _ rfl]
  try exact Idealize.SL.BI.Entails.refl _

/-- After the last point the invariant gives the untracked form back: the scratch's named contents are forgotten. -/
theorem varInv_out (c : Dev nD) : (varDat V c).Φ (Fin.last cfg1.N) ⊢ Pipeline.ΦA spec1 c := by
  rw [show (varDat V c).Φ (Fin.last cfg1.N) = varInv V c (Fin.last cfg1.N).val (Nat.le_of_lt_succ (Fin.last cfg1.N).isLt) from rfl,
    varInv_pos V c _ _ (by rw [Fin.val_last]; have : cfg1.N = 16 := N_1; omega), varIdleInv_eq]
  iintro ⟨⟨HS0, Hrest⟩, Hg⟩
  isplitl [HS0 Hrest]
  · isplitl [HS0]
    · iexists _; iexact HS0
    iexact Hrest
  iexact Hg

end Cert.KernelIdeal.Gen

end
-- ==== Proof.KernelIdeal.NormBody.lean ====
/-
  The normalize kernel (the program's third launch) as a body the pipeline calls at each of its 32 grid points.
  At a point the body reads the input block [2, 256, 3136] and four per-channel vectors of shape [1, 256, 1]
  (mean, scale, gamma, beta), forms ((x - mean) * scale) * gamma + beta with each vector spread along the first
  and last axes, and stores the result over the whole output block. It keeps nothing from point to point and
  takes no branch: every point is the same single control case. This module runs the body once: from the five
  input buffers and the output block's buffer at anything, to the one store it leaves in the output's buffer.
-/
import proofs.«156847_j180388626588_1_alg».proof.Proof.Gen.KernelIdeal.Launch
import proofs.«156847_j180388626588_1_alg».proof.Proof.Gen.KernelIdeal.Skeleton
import proofs.«156847_j180388626588_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers the body is called on -/

/-- One staging buffer of the output window, through which the output block's contents are stated. -/
abbrev normOutView : View sig .tc .vmem S2x256x3136 .f32 := (Memref.whole cc2_stg5_0 : Memref sig .tc .vmem S2x256x3136 .f32).view

/-- The staging buffers the pipeline passes at point `t`, and that they are whole: the input block's, -/
abbrev normInAt (t : Fin cfg2.N) : Memref sig .tc .vmem S2x256x3136 .f32 := win2_0.stage (cfg2.slots t 0)
abbrev normInAt_whole (t : Fin cfg2.N) : (normInAt t).IsWhole := hstage2_0 ((cfg2.slots t 0).cast nbuf2_0)
/-- the per-channel mean's, -/
abbrev normMeanAt (t : Fin cfg2.N) : Memref sig .tc .vmem S1x256x1 .f32 := win2_1.stage (cfg2.slots t 1)
abbrev normMeanAt_whole (t : Fin cfg2.N) : (normMeanAt t).IsWhole := hstage2_1 ((cfg2.slots t 1).cast nbuf2_1)
/-- the per-channel scale's (the reciprocal of the standard deviation), -/
abbrev normScaleAt (t : Fin cfg2.N) : Memref sig .tc .vmem S1x256x1 .f32 := win2_2.stage (cfg2.slots t 2)
abbrev normScaleAt_whole (t : Fin cfg2.N) : (normScaleAt t).IsWhole := hstage2_2 ((cfg2.slots t 2).cast nbuf2_2)
/-- the per-channel gain's, -/
abbrev normGammaAt (t : Fin cfg2.N) : Memref sig .tc .vmem S1x256x1 .f32 := win2_3.stage (cfg2.slots t 3)
abbrev normGammaAt_whole (t : Fin cfg2.N) : (normGammaAt t).IsWhole := hstage2_3 ((cfg2.slots t 3).cast nbuf2_3)
/-- the per-channel offset's, -/
abbrev normBetaAt (t : Fin cfg2.N) : Memref sig .tc .vmem S1x256x1 .f32 := win2_4.stage (cfg2.slots t 4)
abbrev normBetaAt_whole (t : Fin cfg2.N) : (normBetaAt t).IsWhole := hstage2_4 ((cfg2.slots t 4).cast nbuf2_4)
/-- and the output block's. -/
abbrev normOutAt (t : Fin cfg2.N) : Memref sig .tc .vmem S2x256x3136 .f32 := win2_5.stage (cfg2.slots t 5)
abbrev normOutAt_whole (t : Fin cfg2.N) : (normOutAt t).IsWhole := hstage2_5 ((cfg2.slots t 5).cast nbuf2_5)

/-! ## The body -/

set_option maxHeartbeats 1000000 in
/-- THE ONE CASE. On whole buffers — the input block's at `x0`, the four per-channel vectors' at `x1` … `x4`, the
    output block's at anything — the body runs to the continuation holding the five inputs as they were and the
    output's buffer with the stores `LO` written. -/
noncomputable def normRun (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) :
    { LO : List (View.Piece (Elt F) S2x256x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LO)) -∗ K ⟨⟩))
          ⊢ wp frame (wpE (defs₀ (F := F)) Variants.none c none) E (cc2__norm_kernel i arg1 harg1 arg2 harg2 arg3 harg3 arg4 harg4 arg5 harg5 arg6 harg6) K } := by
  refine ⟨?_, fun E K => ?run⟩
  case run =>
    simp only [cc2__norm_kernel_eq_skeleton]; unfold cc2__norm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Gen

end
-- ==== Proof.KernelIdeal.NormRegion.lean ====
/-
  The normalize launch as a REGION of the program: what each of its six windows' current staging buffers holds after
  each of the 32 grid points, the pipeline's proof data at given region-entry contents `V`, and the body obligation.
  The five input windows are left as found: the input block is fetched at every point; the four per-channel vectors
  have a constant block index, are fetched at the first point only, and still hold their one block at every later
  point. The output block is stored whole at every point, as a function of the five input blocks there. Nothing is
  carried from point to point, so the invariant is the untracked one throughout.
-/
import proofs.«156847_j180388626588_1_alg».proof.Proof.KernelIdeal.NormBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def normBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point (it is fetched at every point, never
    cut, never idle), for any proof data whose array is `V`'s and whose body leaves the block in place. -/
theorem normBefore0_of {c : Dev nD} (dat : Dat τ (Elt F) Unit ℕ (UR sig nD τ) ℕ cfg2 c) (hA : dat.A 0 = V c (Pipeline.arrRef spec2 0))
    (hafter : ∀ t, dat.after 0 t = normBlk V c 0 t) (t : Fin cfg2.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

/-- The mean window's buffer holds its block at every point: fetched at the first point only, its block index
    never moves, so the one block it was filled with is every point's block. -/
theorem normBefore1_of {c : Dev nD} (dat : Dat τ (Elt F) Unit ℕ (UR sig nD τ) ℕ cfg2 c) (hA : dat.A 1 = V c (Pipeline.arrRef spec2 1))
    (hafter : ∀ t, dat.after 1 t = normBlk V c 1 t) (t : Fin cfg2.N) (d) : dat.before 1 t d = normBlk V c 1 t :=
  (dat.before_in_eq_fetched 1 rfl (fun _ => rfl) (fun _ _ _ => rfl) (fun t => by rw [hafter]; unfold Dat.blockOf normBlk; rw [hA]; try rfl) t d).trans
    (by unfold Dat.fetched Dat.blockOf normBlk; rw [hA]; try rfl)

/-- The same of the scale window, -/
theorem normBefore2_of {c : Dev nD} (dat : Dat τ (Elt F) Unit ℕ (UR sig nD τ) ℕ cfg2 c) (hA : dat.A 2 = V c (Pipeline.arrRef spec2 2))
    (hafter : ∀ t, dat.after 2 t = normBlk V c 2 t) (t : Fin cfg2.N) (d) : dat.before 2 t d = normBlk V c 2 t :=
  (dat.before_in_eq_fetched 2 rfl (fun _ => rfl) (fun _ _ _ => rfl) (fun t => by rw [hafter]; unfold Dat.blockOf normBlk; rw [hA]; try rfl) t d).trans
    (by unfold Dat.fetched Dat.blockOf normBlk; rw [hA]; try rfl)

/-- of the gain window, -/
theorem normBefore3_of {c : Dev nD} (dat : Dat τ (Elt F) Unit ℕ (UR sig nD τ) ℕ cfg2 c) (hA : dat.A 3 = V c (Pipeline.arrRef spec2 3))
    (hafter : ∀ t, dat.after 3 t = normBlk V c 3 t) (t : Fin cfg2.N) (d) : dat.before 3 t d = normBlk V c 3 t :=
  (dat.before_in_eq_fetched 3 rfl (fun _ => rfl) (fun _ _ _ => rfl) (fun t => by rw [hafter]; unfold Dat.blockOf normBlk; rw [hA]; try rfl) t d).trans
    (by unfold Dat.fetched Dat.blockOf normBlk; rw [hA]; try rfl)

/-- and of the offset window. -/
theorem normBefore4_of {c : Dev nD} (dat : Dat τ (Elt F) Unit ℕ (UR sig nD τ) ℕ cfg2 c) (hA : dat.A 4 = V c (Pipeline.arrRef spec2 4))
    (hafter : ∀ t, dat.after 4 t = normBlk V c 4 t) (t : Fin cfg2.N) (d) : dat.before 4 t d = normBlk V c 4 t :=
  (dat.before_in_eq_fetched 4 rfl (fun _ => rfl) (fun _ _ _ => rfl) (fun t => by rw [hafter]; unfold Dat.blockOf normBlk; rw [hA]; try rfl) t d).trans
    (by unfold Dat.fetched Dat.blockOf normBlk; rw [hA]; try rfl)

/-! ## What the body leaves in the output block -/

/-- The body's store into the output block's buffer covers the block. -/
theorem normOut_cover (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) (y : S2x256x3136.Idx) :
    ∃ pc ∈ (normRun c i arg1 harg1 arg2 harg2 arg3 harg3 arg4 harg4 arg5 harg5 arg6 harg6 x0 x1 x2 x3 x4).1, y ∈ pc.1.set :=
  View.cover_of_tiledL (normRun c i arg1 harg1 arg2 harg2 arg3 harg3 arg4 harg4 arg5 harg5 arg6 harg6 x0 x1 x2 x3 x4).1 S2x256x3136.size (by sl_kernel_rfl) y

/-- What the body leaves in the output block's buffer, from the five input blocks. -/
def normOut (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) : Vec F S2x256x3136 .f32 :=
  normOutView.read (Elt F) (normOutView.writes (Elt F) normOutView.junk (normRun c i arg1 harg1 arg2 harg2 arg3 harg3 arg4 harg4 arg5 harg5 arg6 harg6 x0 x1 x2 x3 x4).1)

/-! ## The pipeline's proof data -/

/-- The proof data of the normalize launch on core `c` at region-entry contents `V`: after the body at point `t` each
    input's buffer holds its block and the output's what `normOut` says of the five blocks; the invariant is the
    untracked one (the scoped rest and the generator register, unread); nothing owed; full shares. -/
def normDat (c : Dev nD) : Dat τ (Elt F) Unit ℕ (UR sig nD τ) ℕ cfg2 c where
  A w := V c (Pipeline.arrRef spec2 w)
  after w t := match w with
    | ⟨0, _⟩ => normBlk V c 0 t
    | ⟨1, _⟩ => normBlk V c 1 t
    | ⟨2, _⟩ => normBlk V c 2 t
    | ⟨3, _⟩ => normBlk V c 3 t
    | ⟨4, _⟩ => normBlk V c 4 t
    | ⟨5, _⟩ => normOut c (grid2.coords t) (normInAt t) (normInAt_whole t) (normMeanAt t) (normMeanAt_whole t) (normScaleAt t) (normScaleAt_whole t) (normGammaAt t) (normGammaAt_whole t) (normBetaAt t) (normBetaAt_whole t) (normOutAt t) (normOutAt_whole t) (normBlk V c 0 t) (normBlk V c 1 t) (normBlk V c 2 t) (normBlk V c 3 t) (normBlk V c 4 t)
  Φ _ := Pipeline.ΦA spec2 c
  q _ := fullShare
  owed _ := 0

theorem normDat_A (c : Dev nD) (w : Fin cfg2.W) : (normDat V c).A w = V c (Pipeline.arrRef spec2 w) := by
  dsimp only [normDat]

theorem normDat_after_0 (c : Dev nD) (t : Fin cfg2.N) : (normDat V c).after 0 t = normBlk V c 0 t := by dsimp only [normDat]
theorem normDat_after_1 (c : Dev nD) (t : Fin cfg2.N) : (normDat V c).after 1 t = normBlk V c 1 t := by dsimp only [normDat]
theorem normDat_after_2 (c : Dev nD) (t : Fin cfg2.N) : (normDat V c).after 2 t = normBlk V c 2 t := by dsimp only [normDat]
theorem normDat_after_3 (c : Dev nD) (t : Fin cfg2.N) : (normDat V c).after 3 t = normBlk V c 3 t := by dsimp only [normDat]
theorem normDat_after_4 (c : Dev nD) (t : Fin cfg2.N) : (normDat V c).after 4 t = normBlk V c 4 t := by dsimp only [normDat]
theorem normDat_after_5 (c : Dev nD) (t : Fin cfg2.N) :
    (normDat V c).after 5 t = normOut c (grid2.coords t) (normInAt t) (normInAt_whole t) (normMeanAt t) (normMeanAt_whole t) (normScaleAt t) (normScaleAt_whole t) (normGammaAt t) (normGammaAt_whole t) (normBetaAt t) (normBetaAt_whole t) (normOutAt t) (normOutAt_whole t) (normBlk V c 0 t) (normBlk V c 1 t) (normBlk V c 2 t) (normBlk V c 3 t) (normBlk V c 4 t) := by
  dsimp only [normDat]
/-- The same equation, named by the window's role: what the output window's buffer holds after the body. -/
theorem normDat_after_out (c : Dev nD) (t : Fin cfg2.N) :
    (normDat V c).after 5 t = normOut c (grid2.coords t) (normInAt t) (normInAt_whole t) (normMeanAt t) (normMeanAt_whole t) (normScaleAt t) (normScaleAt_whole t) (normGammaAt t) (normGammaAt_whole t) (normBetaAt t) (normBetaAt_whole t) (normOutAt t) (normOutAt_whole t) (normBlk V c 0 t) (normBlk V c 1 t) (normBlk V c 2 t) (normBlk V c 3 t) (normBlk V c 4 t) :=
  normDat_after_5 V c t

theorem normDat_before_0 (c : Dev nD) (t : Fin cfg2.N) (d) : (normDat V c).before 0 t d = normBlk V c 0 t :=
  normBefore0_of V (normDat V c) (normDat_A V c 0) (normDat_after_0 V c) t d
theorem normDat_before_1 (c : Dev nD) (t : Fin cfg2.N) (d) : (normDat V c).before 1 t d = normBlk V c 1 t :=
  normBefore1_of V (normDat V c) (normDat_A V c 1) (normDat_after_1 V c) t d
theorem normDat_before_2 (c : Dev nD) (t : Fin cfg2.N) (d) : (normDat V c).before 2 t d = normBlk V c 2 t :=
  normBefore2_of V (normDat V c) (normDat_A V c 2) (normDat_after_2 V c) t d
theorem normDat_before_3 (c : Dev nD) (t : Fin cfg2.N) (d) : (normDat V c).before 3 t d = normBlk V c 3 t :=
  normBefore3_of V (normDat V c) (normDat_A V c 3) (normDat_after_3 V c) t d
theorem normDat_before_4 (c : Dev nD) (t : Fin cfg2.N) (d) : (normDat V c).before 4 t d = normBlk V c 4 t :=
  normBefore4_of V (normDat V c) (normDat_A V c 4) (normDat_after_4 V c) t d

/-! ## The body obligation -/

/-- What the body is called with at point `t`, the windows one by one, -/
def normBodyPre (c : Dev nD) (t : Fin cfg2.N) : sProp 𝕄 :=
  iprop((normDat V c).Φ t.castSucc ∗ (normDat V c).owesAt () t.castSucc
    ∗ (∃ d, owns (c : Thread nD τ) (normInAt t) fullShare ((normDat V c).before 0 t d))
    ∗ (∃ d, owns (c : Thread nD τ) (normMeanAt t) fullShare ((normDat V c).before 1 t d))
    ∗ (∃ d, owns (c : Thread nD τ) (normScaleAt t) fullShare ((normDat V c).before 2 t d))
    ∗ (∃ d, owns (c : Thread nD τ) (normGammaAt t) fullShare ((normDat V c).before 3 t d))
    ∗ (∃ d, owns (c : Thread nD τ) (normBetaAt t) fullShare ((normDat V c).before 4 t d))
    ∗ (∃ d, owns (c : Thread nD τ) (normOutAt t) fullShare ((normDat V c).before 5 t d)))

/-- and what it returns: no window is idle at any point, so each buffer is left at its `after`. -/
def normBodyPost (c : Dev nD) (t : Fin cfg2.N) : sProp 𝕄 :=
  iprop((normDat V c).Φ t.succ ∗ (normDat V c).owesAt () t.succ
    ∗ owns (c : Thread nD τ) (normInAt t) fullShare ((normDat V c).after 0 t)
    ∗ owns (c : Thread nD τ) (normMeanAt t) fullShare ((normDat V c).after 1 t)
    ∗ owns (c : Thread nD τ) (normScaleAt t) fullShare ((normDat V c).after 2 t)
    ∗ owns (c : Thread nD τ) (normGammaAt t) fullShare ((normDat V c).after 3 t)
    ∗ owns (c : Thread nD τ) (normBetaAt t) fullShare ((normDat V c).after 4 t)
    ∗ owns (c : Thread nD τ) (normOutAt t) fullShare ((normDat V c).after 5 t))

set_option maxHeartbeats 4800000 in
/-- The body at any point: the five inputs' buffers hold their blocks, the output's is handed over at anything, so
    the one run applies; its store covers the output block, so the buffer reads what `normOut` says whatever it held;
    the invariant and what the core owes pass through unread. -/
theorem normBody_sound (c : Dev nD) (t : Fin cfg2.N) :
    normBodyPre V c t ⊢ wp frame (wpE (defs₀ (F := F)) Variants.none c none) Set.univ (bodyAt2 t) (fun _ => normBodyPost V c t) := by
  unfold normBodyPre normBodyPost bodyAt2
  simp only [normDat_before_0, normDat_before_1, normDat_before_2, normDat_before_3, normDat_before_4]
  rw [show (normDat V c).Φ t.succ = (normDat V c).Φ t.castSucc from rfl,
    show (normDat V c).owesAt () t.succ = (normDat V c).owesAt () t.castSucc from rfl,
    normDat_after_0, normDat_after_1, normDat_after_2, normDat_after_3, normDat_after_4, normDat_after_5]
  unfold normOut; (try dsimp only)
  iintro ⟨HΦ, Ho, ⟨%d0, H0⟩, ⟨%d1, H1⟩, ⟨%d2, H2⟩, ⟨%d3, H3⟩, ⟨%d4, H4⟩, ⟨%d5, H5⟩⟩
  iapply ((normRun c (grid2.coords t) _ _ _ _ _ _ _ _ _ _ _ _ (normBlk V c 0 t) (normBlk V c 1 t) (normBlk V c 2 t) (normBlk V c 3 t) (normBlk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (normOut_cover c _ _ _ _ _ _ _ _ _ _ _ _ _ _ _ _ _ _)

/-- The library's body obligation, at every point. -/
theorem normBody_obligation (c : Dev nD) : BodyObligation (normDat (F := F) V c) (defs₀ (F := F)) Variants.none () Set.univ := fun t => by
  rw [bigSep_W2, bigSep_W2]
  exact normBody_sound V c t

/-- What the launch hands the region is the invariant before the first point. -/
theorem normInv_in (c : Dev nD) : Pipeline.ΦA spec2 c ⊢ (normDat V c).Φ 0 :=
  Idealize.SL.BI.Entails.refl _

/-- After the last point the invariant is the same untracked one. -/
theorem normInv_out (c : Dev nD) : (normDat V c).Φ (Fin.last cfg2.N) ⊢ Pipeline.ΦA spec2 c :=
  Idealize.SL.BI.Entails.refl _

end Cert.KernelIdeal.Gen

end
-- ==== Proof.KernelIdeal.MainRun.lean ====
/-
  THE RUN of the whole program: @main is four stretches of host operations around three kernel launches
  (per-channel sum, per-channel sum of squared deviations, normalize). The buffer contents at each boundary are a
  fold from the launch memory: a host stretch applies its operations; a launch leaves each of its windows' arrays at
  what the pipeline's write-backs make of the proof data and every other buffer as entered. Every weakly fair
  execution terminates without a fault, and the final memory holds every unscoped buffer at the last boundary's
  contents: the argument arrays unchanged (no stretch and no launch writes one), and the result array readable
  off the fold.
-/
import proofs.«156847_j180388626588_1_alg».proof.Proof.KernelIdeal.SumRegion
import proofs.«156847_j180388626588_1_alg».proof.Proof.KernelIdeal.VarRegion
import proofs.«156847_j180388626588_1_alg».proof.Proof.KernelIdeal.NormRegion
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (the reshape of the input to three axes): the sum launch's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At launch 0's exit: its windows' arrays at what the pipeline leaves (an input as entered, the output's write-backs
    folded), every other buffer as entered. -/
def W2 (c : Dev nD) : Valuation τ sig (Elt F) :=
  Pipeline.withArrays spec0 c (W1 m c) fun w => (sumDat (V1 m) c).arrAt w cfg0.N
theorem W2_arr (c : Dev nD) (w : Fin cfg0.W) :
    W2 m c (Proc.devRef .tc (Pipeline.arrRef spec0 w)) = (sumDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem arrAt_eq0 (c : Dev nD) (w : Fin cfg0.W) : (sumDat (V1 m) c).arrAt w cfg0.N = V2 m c (Pipeline.arrRef spec0 w) :=
  (W2_arr m c w).symm
theorem rest_eq0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the mean: the channel totals divided by the count): the variance launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At launch 1's exit: its windows' arrays at what the pipeline leaves (an input as entered, the output's write-backs
    folded), every other buffer as entered. -/
def W4 (c : Dev nD) : Valuation τ sig (Elt F) :=
  Pipeline.withArrays spec1 c (W3 m c) fun w => (varDat (V3 m) c).arrAt w cfg1.N
theorem W4_arr (c : Dev nD) (w : Fin cfg1.W) :
    W4 m c (Proc.devRef .tc (Pipeline.arrRef spec1 w)) = (varDat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem arrAt_eq1 (c : Dev nD) (w : Fin cfg1.W) : (varDat (V3 m) c).arrAt w cfg1.N = V4 m c (Pipeline.arrRef spec1 w) :=
  (W4_arr m c w).symm
theorem rest_eq1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (the variance, the scale 1/sqrt(var + eps), gamma and beta as columns): the normalize
    launch's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At launch 2's exit: its windows' arrays at what the pipeline leaves (an input as entered, the output's write-backs
    folded), every other buffer as entered. -/
def W6 (c : Dev nD) : Valuation τ sig (Elt F) :=
  Pipeline.withArrays spec2 c (W5 m c) fun w => (normDat (V5 m) c).arrAt w cfg2.N
theorem W6_arr (c : Dev nD) (w : Fin cfg2.W) :
    W6 m c (Proc.devRef .tc (Pipeline.arrRef spec2 w)) = (normDat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem arrAt_eq2 (c : Dev nD) (w : Fin cfg2.W) : (normDat (V5 m) c).arrAt w cfg2.N = V6 m c (Pipeline.arrRef spec2 w) :=
  (W6_arr m c w).symm
theorem rest_eq2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch (the reshape of the result back to four axes): the end. -/
abbrev W7 : Dev nD → Valuation τ sig (Elt F) := fun c => StableHlo.after hostOps3 (W6 m c)

/-! ## The arguments end as launched -/

/-- A stretch none of whose operations writes `b` leaves `b` as it found it. -/
theorem host_keeps {b : Ref sig .tc} (ops : List (HloOp τ sig (Elt F))) (W : Valuation τ sig (Elt F))
    (h : ops.Forall fun op => (Proc.devRef .tc b : DevRef τ sig) ∉ op.writes) :
    StableHlo.after ops W (Proc.devRef .tc b) = W (Proc.devRef .tc b) :=
  StableHlo.after_of_forall_not_mem (b := Proc.devRef .tc b) _ _ (List.forall_iff_forall_mem.mp h)

/-- `main_arg0` ends as launched: no host operation writes it and it is no window's array of any launch. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := host_keeps (b := main_arg0) hostOps3 _ (by
          simp only [hostOps3, List.Forall, StableHlo.nullary_writes, StableHlo.unary_writes, StableHlo.binary_writes, StableHlo.reshape_writes, Finset.mem_singleton]
          repeat' apply And.intro
          all_goals exact StableHlo.devRef_ne_of_ne (by decide))
    _ = W5 m c (Proc.devRef .tc main_arg0) := W6_of_ne m c main_arg0 (by decide)
    _ = W4 m c (Proc.devRef .tc main_arg0) := host_keeps (b := main_arg0) hostOps2 _ (by
          simp only [hostOps2, List.Forall, StableHlo.nullary_writes, StableHlo.unary_writes, StableHlo.binary_writes, StableHlo.reshape_writes, Finset.mem_singleton]
          repeat' apply And.intro
          all_goals exact StableHlo.devRef_ne_of_ne (by decide))
    _ = W3 m c (Proc.devRef .tc main_arg0) := W4_of_ne m c main_arg0 (by decide)
    _ = W2 m c (Proc.devRef .tc main_arg0) := host_keeps (b := main_arg0) hostOps1 _ (by
          simp only [hostOps1, List.Forall, StableHlo.nullary_writes, StableHlo.unary_writes, StableHlo.binary_writes, StableHlo.reshape_writes, Finset.mem_singleton]
          repeat' apply And.intro
          all_goals exact StableHlo.devRef_ne_of_ne (by decide))
    _ = W1 m c (Proc.devRef .tc main_arg0) := W2_of_ne m c main_arg0 (by decide)
    _ = W0 m c (Proc.devRef .tc main_arg0) := host_keeps (b := main_arg0) hostOps0 _ (by
          simp only [hostOps0, List.Forall, StableHlo.nullary_writes, StableHlo.unary_writes, StableHlo.binary_writes, StableHlo.reshape_writes, Finset.mem_singleton]
          repeat' apply And.intro
          all_goals exact StableHlo.devRef_ne_of_ne (by decide))
    _ = m ((c : Thread nD τ).loc main_arg0) := rfl

/-- `main_arg1` ends as launched: no host operation writes it and it is no window's array of any launch. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := host_keeps (b := main_arg1) hostOps3 _ (by
          simp only [hostOps3, List.Forall, StableHlo.nullary_writes, StableHlo.unary_writes, StableHlo.binary_writes, StableHlo.reshape_writes, Finset.mem_singleton]
          repeat' apply And.intro
          all_goals exact StableHlo.devRef_ne_of_ne (by decide))
    _ = W5 m c (Proc.devRef .tc main_arg1) := W6_of_ne m c main_arg1 (by decide)
    _ = W4 m c (Proc.devRef .tc main_arg1) := host_keeps (b := main_arg1) hostOps2 _ (by
          simp only [hostOps2, List.Forall, StableHlo.nullary_writes, StableHlo.unary_writes, StableHlo.binary_writes, StableHlo.reshape_writes, Finset.mem_singleton]
          repeat' apply And.intro
          all_goals exact StableHlo.devRef_ne_of_ne (by decide))
    _ = W3 m c (Proc.devRef .tc main_arg1) := W4_of_ne m c main_arg1 (by decide)
    _ = W2 m c (Proc.devRef .tc main_arg1) := host_keeps (b := main_arg1) hostOps1 _ (by
          simp only [hostOps1, List.Forall, StableHlo.nullary_writes, StableHlo.unary_writes, StableHlo.binary_writes, StableHlo.reshape_writes, Finset.mem_singleton]
          repeat' apply And.intro
          all_goals exact StableHlo.devRef_ne_of_ne (by decide))
    _ = W1 m c (Proc.devRef .tc main_arg1) := W2_of_ne m c main_arg1 (by decide)
    _ = W0 m c (Proc.devRef .tc main_arg1) := host_keeps (b := main_arg1) hostOps0 _ (by
          simp only [hostOps0, List.Forall, StableHlo.nullary_writes, StableHlo.unary_writes, StableHlo.binary_writes, StableHlo.reshape_writes, Finset.mem_singleton]
          repeat' apply And.intro
          all_goals exact StableHlo.devRef_ne_of_ne (by decide))
    _ = m ((c : Thread nD τ).loc main_arg1) := rfl

/-- `main_arg2` ends as launched: no host operation writes it and it is no window's array of any launch. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := host_keeps (b := main_arg2) hostOps3 _ (by
          simp only [hostOps3, List.Forall, StableHlo.nullary_writes, StableHlo.unary_writes, StableHlo.binary_writes, StableHlo.reshape_writes, Finset.mem_singleton]
          repeat' apply And.intro
          all_goals exact StableHlo.devRef_ne_of_ne (by decide))
    _ = W5 m c (Proc.devRef .tc main_arg2) := W6_of_ne m c main_arg2 (by decide)
    _ = W4 m c (Proc.devRef .tc main_arg2) := host_keeps (b := main_arg2) hostOps2 _ (by
          simp only [hostOps2, List.Forall, StableHlo.nullary_writes, StableHlo.unary_writes, StableHlo.binary_writes, StableHlo.reshape_writes, Finset.mem_singleton]
          repeat' apply And.intro
          all_goals exact StableHlo.devRef_ne_of_ne (by decide))
    _ = W3 m c (Proc.devRef .tc main_arg2) := W4_of_ne m c main_arg2 (by decide)
    _ = W2 m c (Proc.devRef .tc main_arg2) := host_keeps (b := main_arg2) hostOps1 _ (by
          simp only [hostOps1, List.Forall, StableHlo.nullary_writes, StableHlo.unary_writes, StableHlo.binary_writes, StableHlo.reshape_writes, Finset.mem_singleton]
          repeat' apply And.intro
          all_goals exact StableHlo.devRef_ne_of_ne (by decide))
    _ = W1 m c (Proc.devRef .tc main_arg2) := W2_of_ne m c main_arg2 (by decide)
    _ = W0 m c (Proc.devRef .tc main_arg2) := host_keeps (b := main_arg2) hostOps0 _ (by
          simp only [hostOps0, List.Forall, StableHlo.nullary_writes, StableHlo.unary_writes, StableHlo.binary_writes, StableHlo.reshape_writes, Finset.mem_singleton]
          repeat' apply And.intro
          all_goals exact StableHlo.devRef_ne_of_ne (by decide))
    _ = m ((c : Thread nD τ).loc main_arg2) := rfl

/-! ## The proof data of the three launches and the thread state -/

abbrev adm : (p : Fin 3) → (pcfgs (F := F) p).Adm := fun p => (cfgs p).toPCfg_adm
/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => sumDat (V1 m) c
  | ⟨1, _⟩ => fun c => varDat (V3 m) c
  | ⟨2, _⟩ => fun c => normDat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem noAlloc0 : (hostOps0 : List (HloOp τ sig (Elt F))).Forall fun op => op.fresh = ∅ := by
  simp only [List.Forall]; repeat' constructor
theorem noAlloc1 : (hostOps1 : List (HloOp τ sig (Elt F))).Forall fun op => op.fresh = ∅ := by
  simp only [List.Forall]; repeat' constructor
theorem noAlloc2 : (hostOps2 : List (HloOp τ sig (Elt F))).Forall fun op => op.fresh = ∅ := by
  simp only [List.Forall]; repeat' constructor
theorem noAlloc3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- LAUNCH 0 as a segment: entered from every unscoped buffer at `W1`, left at `W2`. Its windows' arrays are split out
    of the unscoped buffers and put back at what the pipeline leaves; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (sumBody_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (sumInv_in (V1 m) c)
    unfold Pipeline.ΦA
    iintro ⟨Hp, -, Hr⟩
    isplitl [Hr]; · iexact Hr
    iexact Hp
  hout c := by
    rw [Pipeline.ownSems0_none]
    refine BIBase.Entails.trans (sumInv_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrAt_eq0 m c) (rest_eq0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 as a segment: entered from every unscoped buffer at `W3`, left at `W4`. Its windows' arrays are split out
    of the unscoped buffers and put back at what the pipeline leaves; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (varBody_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (varInv_in (V3 m) c)
    unfold Pipeline.ΦA
    iintro ⟨Hp, -, Hr⟩
    isplitl [Hr]; · iexact Hr
    iexact Hp
  hout c := by
    rw [Pipeline.ownSems0_none]
    refine BIBase.Entails.trans (varInv_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrAt_eq1 m c) (rest_eq1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 as a segment: entered from every unscoped buffer at `W5`, left at `W6`. Its windows' arrays are split out
    of the unscoped buffers and put back at what the pipeline leaves; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (normBody_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (normInv_in (V5 m) c)
    unfold Pipeline.ΦA
    iintro ⟨Hp, -, Hr⟩
    isplitl [Hr]; · iexact Hr
    iexact Hp
  hout c := by
    rw [Pipeline.ownSems0_none]
    refine BIBase.Entails.trans (normInv_out (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (arrAt_eq2 m c) (rest_eq2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub noAlloc0 (W0 m)),
    .region (reg0 m),
    .host (hseg hostOps1 hostOps1_sub noAlloc1 (W2 m)),
    .region (reg1 m),
    .host (hseg hostOps2 hostOps2_sub noAlloc2 (W4 m)),
    .region (reg2 m),
    .host (hseg hostOps3 hostOps3_sub noAlloc3 (W6 m)) ]
theorem main_run (c : Dev nD) : main (F := F) c = Pipeline.Seg.run (segs m) := (main_chain c).trans (by chain_rfl)

set_option backward.isDefEq.respectTransparency.types false in
/-- THE RUN: from any memory `m` with zero counters, every weakly fair execution of @main terminates, nothing faulting,
    and every final memory holds every unscoped buffer of every core at the last boundary's contents `W7`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (show R c ⊢ iprop(∃ W, owes (c : Thread nD τ) (0 : CellTallies nD τ sig Unit) W) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      unfold StableHlo.held
      iintro ⟨Hh, HSI⟩
      imodintro
      iapply (pointsTo_read_all (Pipeline.ucRefs τ sig) (fun b => (((c : Thread nD τ)).1, b)) (W7 m c) s')
      isplitl [Hh] <;> iassumption)
    (hQ := fun s h => h)

/-- THE FRAME, at any `F`: the run, read at the three argument arrays. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.KernelIdeal.Gen

end
-- ==== Proof.LibSumIdx.lean ====
/-
  Sums over index sets of rank 3 and rank 4, by coordinates: such an index set is the product of its coordinate
  ranges, so a sum over it (in any commutative monoid) is the iterated sum over the coordinates, outermost
  coordinate first. The rank-2 case is the library's sum_idx2; these follow it.
-/
import Idealize.ShloMosaic.Lib.ValueIdx

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over one coordinate range of extent one is its one term. -/
theorem sum_fin_one {M : Type*} [AddCommMonoid M] (f : Fin 1 → M) : ∑ a : Fin 1, f a = f 0 := by
  simp

end Cert.LibSumIdx
-- ==== Proof.Spec.lean ====
/-
  THE SPECIFICATION. Batch normalisation of a [64, 256, 56, 56] array per channel (axis 1), over the extended reals:
  the channel mean is the channel total divided by the count 200704 = 64·56·56, the channel variance the total of the
  squared deviations from that mean divided by the same count, the scale 1 / sqrt(variance + eps), and the result
  ((x − mean)·scale)·gamma + beta. The float literals (the count, eps, one) stay as the bit patterns both programs
  print; they are never evaluated.
  Beside the four-axis specification stand the functions the three kernel launches compute on the array reshaped to
  [64, 256, 3136] (the two spatial axes flattened row-major): a channel total, a channel total of squared deviations
  from a given column of means, and the pointwise normalisation from given columns of parameters. Two re-indexing
  laws, in any commutative monoid, join the two forms: sixteen blocks of four batches are the sixty-four batches, and
  a flat spatial index of 3136 is a pair of coordinates of 56.
-/
import Idealize.ShloMosaic.PureOps.Ideal
import Idealize.ShloMosaic.Lib.ValueIdx
import proofs.«156847_j180388626588_1_alg».proof.Proof.LibSumIdx

open scoped BigOperators

noncomputable section

namespace Cert.BatchNorm

open Idealize.ShloMosaic Idealize.ShloMosaic.ValueIdx

/-- The input's shape, its reshape to three axes, a per-channel column, a per-channel vector. -/
abbrev In4 : Shape := ⟨4, ![64, 256, 56, 56]⟩
abbrev In3 : Shape := ⟨3, ![64, 256, 3136]⟩
abbrev Col : Shape := ⟨3, ![1, 256, 1]⟩
abbrev Chan : Shape := ⟨1, ![256]⟩

/-- The count 200704.0, eps (the float nearest 1e-5) and 1.0, as the programs print them. -/
def count : EReal := Ideal.ofBits .f32 0x48440000#32
def eps : EReal := Ideal.ofBits .f32 0x3727C5AC#32
def one : EReal := Ideal.ofBits .f32 0x3F800000#32

/-! ## Over four axes -/

/-- The total of `f` over channel `c`: over every batch and both spatial coordinates. -/
def chanSum (f : In4.Idx → EReal) (c : Fin 256) : EReal :=
  ∑ b : Fin 64, ∑ h : Fin 56, ∑ w : Fin 56, f (ix4 b c h w)

def meanOf (X : In4.Idx → EReal) (c : Fin 256) : EReal := Ideal.div (chanSum X c) count

def varOf (X : In4.Idx → EReal) (c : Fin 256) : EReal :=
  Ideal.div (chanSum (fun i => (X i - meanOf X c) * (X i - meanOf X c)) c) count

def scaleOf (X : In4.Idx → EReal) (c : Fin 256) : EReal := Ideal.div one (Ideal.sqrt (varOf X c + eps))

/-- The result at batch `b`, channel `c`, position `(h, w)`. -/
def outAt (X : In4.Idx → EReal) (γ β : Chan.Idx → EReal) (b : Fin 64) (c : Fin 256) (h w : Fin 56) : EReal :=
  ((X (ix4 b c h w) - meanOf X c) * scaleOf X c) * γ (ix1 c) + β (ix1 c)

/-- THE RESULT, as one function of the three argument arrays. -/
def G (X : In4.Idx → EReal) (γ β : Chan.Idx → EReal) : In4.Idx → EReal :=
  fun i => outAt X γ β (i 0) (i 1) (i 2) (i 3)

theorem G_ix4 (X : In4.Idx → EReal) (γ β : Chan.Idx → EReal) (b : Fin 64) (c : Fin 256) (h w : Fin 56) :
    G X γ β (ix4 b c h w) = outAt X γ β b c h w := rfl

/-! ## Over three axes: what the launches compute -/

/-- The total of `g` over channel `c`: over every batch and the flat spatial index. -/
def tot3 (g : In3.Idx → EReal) (c : Fin 256) : EReal := ∑ b : Fin 64, ∑ s : Fin 3136, g (ix3 b c s)

/-- The total over channel `c` of the squared deviations of `g` from the column `μ`. -/
def dev3 (g : In3.Idx → EReal) (μ : Col.Idx → EReal) (c : Fin 256) : EReal :=
  ∑ b : Fin 64, ∑ s : Fin 3136, (g (ix3 b c s) - μ (ix3 0 c 0)) * (g (ix3 b c s) - μ (ix3 0 c 0))

/-- The normalisation at one entry from columns of parameters. -/
def normAt (g : In3.Idx → EReal) (μ sc γ β : Col.Idx → EReal) (b : Fin 64) (c : Fin 256) (s : Fin 3136) : EReal :=
  ((g (ix3 b c s) - μ (ix3 0 c 0)) * sc (ix3 0 c 0)) * γ (ix3 0 c 0) + β (ix3 0 c 0)

def norm3 (g : In3.Idx → EReal) (μ sc γ β : Col.Idx → EReal) : In3.Idx → EReal :=
  fun i => normAt g μ sc γ β (i 0) (i 1) (i 2)

theorem norm3_ix3 (g : In3.Idx → EReal) (μ sc γ β : Col.Idx → EReal) (b : Fin 64) (c : Fin 256) (s : Fin 3136) :
    norm3 g μ sc γ β (ix3 b c s) = normAt g μ sc γ β b c s := rfl

/-! ## Re-indexing -/

/-- A block `t` below 16 and a position `a` below 4 in it name the batch `4·t + a`; a batch `b` lies in block
`b / 4` at position `b % 4`. The two maps are inverse by `b = 4·(b / 4) + b % 4`. -/
private def blockEquiv : Fin 16 × Fin 4 ≃ Fin 64 where
  toFun p := ⟨4 * p.1.val + p.2.val, by omega⟩
  invFun b := (⟨b.val / 4, by omega⟩, ⟨b.val % 4, Nat.mod_lt _ (by decide)⟩)
  left_inv p := by
    apply Prod.ext <;> apply Fin.ext <;> simp only [] <;> omega
  right_inv b := by
    apply Fin.ext; simp only []; omega

/-- Sixteen blocks of four batches are the sixty-four batches. -/
theorem sum_blocks {M : Type*} [AddCommMonoid M] (f : Fin 64 → M) :
    ∑ t : Fin 16, ∑ a : Fin 4, f ⟨4 * t.val + a.val, by omega⟩ = ∑ b : Fin 64, f b :=
  -- the double sum is a sum over the pairs, and the pairs are the batches
  (Fintype.sum_prod_type' (fun (t : Fin 16) (a : Fin 4) => f ⟨4 * t.val + a.val, by omega⟩)).symm.trans
    (Fintype.sum_equiv blockEquiv _ _ fun _ => rfl)

/-- A flat index `s` below 3136 has the row `s / 56` and the column `s % 56`; a row `h` and a column `w` below 56
name the flat index `56·h + w`. The two maps are inverse by `s = 56·(s / 56) + s % 56`. -/
private def laneEquiv : Fin 3136 ≃ Fin 56 × Fin 56 where
  toFun s := (⟨s.val / 56, by omega⟩, ⟨s.val % 56, Nat.mod_lt _ (by decide)⟩)
  invFun p := ⟨56 * p.1.val + p.2.val, by omega⟩
  left_inv s := by
    apply Fin.ext; simp only []; omega
  right_inv p := by
    apply Prod.ext <;> apply Fin.ext <;> simp only [] <;> omega

/-- A flat spatial index below 3136 = 56·56 is a pair of coordinates below 56, row-major. -/
theorem sum_lanes {M : Type*} [AddCommMonoid M] (f : Fin 56 → Fin 56 → M) :
    ∑ s : Fin 3136, f ⟨s.val / 56, by omega⟩ ⟨s.val % 56, Nat.mod_lt _ (by decide)⟩ = ∑ h : Fin 56, ∑ w : Fin 56, f h w :=
  -- the flat indices are the pairs, and a sum over the pairs is the double sum
  (Fintype.sum_equiv laneEquiv _ (fun p : Fin 56 × Fin 56 => f p.1 p.2) fun _ => rfl).trans
    (Fintype.sum_prod_type' f)

/-- So the three-axis channel total of a reshaped array is the four-axis channel total. -/
theorem tot3_reshape (f : In4.Idx → EReal) (c : Fin 256) :
    tot3 (fun i => f (ix4 (i 0) (i 1) ⟨(i 2).val / 56, by have h : (i 2).val < 3136 := (i 2).isLt; omega⟩ ⟨(i 2).val % 56, Nat.mod_lt _ (by decide)⟩)) c = chanSum f c := by
  -- batch by batch: the index `ix3 b c s` has the coordinates `b`, `c`, `s`, so the inner sum is the one of `sum_lanes`
  unfold tot3 chanSum
  refine Finset.sum_congr rfl fun b _ => ?_
  exact sum_lanes (fun h w => f (ix4 b c h w))

end Cert.BatchNorm

end
-- ==== Proof.KernelIdeal.SumValue.lean ====
/-
  The VALUE of the per-channel sum launch: after its 16 grid points the output array holds, at each channel, the
  total of the region-entry input array over every batch and every flat spatial index.
  Each case's stores are read back as the payload that was stored (one covering store through the whole scratch);
  the payload at an index, over the extended reals, is the scratch there plus the block's total over its first and
  last axes; the block at point t is batches 4t .. 4t+3 of the array; so by induction on the point the scratch after
  point n holds the totals of the blocks up to n, the one write-back at the last point copies it to the output array,
  and sixteen blocks of four batches are the sixty-four batches.
-/
import proofs.«156847_j180388626588_1_alg».proof.Proof.KernelIdeal.SumRegion
import proofs.«156847_j180388626588_1_alg».proof.Proof.Spec
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)

section Pieces
variable {F : FTy → Type} [FloatOps F]

/-- The zero offsets of a rank-3 rectangle, as the constant function. -/
theorem hz3 : (![0, 0, 0] : Fin 3 → Nat) = fun _ => 0 := funext fun a => by fin_cases a <;> rfl

/-- A middle case leaves in the scratch the payload of its one covering store: the block's total added to what the
    scratch held. -/
theorem sumMid_acc_eq (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : ¬sumLast i) (x0 : Vec F S4x256x3136 .f32) (xs : Vec F S1x256x1 .f32) :
    sumMid_acc c i arg1 harg1 arg2 harg2 arg3 harg3 hc0 hc1 x0 xs = k0_pay2 x0 xs := by
  unfold sumMid_acc
  rw [View.read_writes_eq_canon _ _ _ (sumMid_cover c i arg1 harg1 arg2 harg2 arg3 harg3 hc0 hc1 x0 xs)]
  unfold sumRunMid
  dsimp only
  rw [View.canon_unit_zero (S := S1x256x1) hz3]
  simp only [View.readAt_eq_ld, harg1.read_unread, harg3.read_unread, View.ld_unit_zero (S := S4x256x3136) hz3, View.ld_unit_zero (S := S1x256x1) hz3]

/-- The last case leaves the same in the scratch, -/
theorem sumLast_acc_eq (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) :
    sumLast_acc c i arg1 harg1 arg2 harg2 arg3 harg3 hc0 hc1 x0 xs = k0_pay2 x0 xs := by
  unfold sumLast_acc
  rw [View.read_writes_eq_canon _ _ _ (sumLast_cover c i arg1 harg1 arg2 harg2 arg3 harg3 hc0 hc1 x0 xs)]
  unfold sumRunLast
  dsimp only
  sl_unfold_words
  rw [View.canon_unit_zero (S := S1x256x1) hz3]
  simp only [View.readAt_eq_ld, harg1.read_unread, harg3.read_unread, View.ld_unit_zero (S := S4x256x3136) hz3, View.ld_unit_zero (S := S1x256x1) hz3]

/-- and copies the freshly stored scratch, read back, to the output block. -/
theorem sumLast_out_eq (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : ¬sumFirst i) (hc1 : sumLast i) (x0 : Vec F S4x256x3136 .f32) (xs : Vec F S1x256x1 .f32) :
    sumLast_out c i arg1 harg1 arg2 harg2 arg3 harg3 hc0 hc1 x0 xs = k0_pay2 x0 xs := by
  unfold sumLast_out
  rw [View.read_writes_eq_canon _ _ _ (sumLast_outCover c i arg1 harg1 arg2 harg2 arg3 harg3 hc0 hc1 x0 xs)]
  unfold sumRunLast
  dsimp only
  sl_unfold_words
  rw [View.canon_unit_zero (S := S1x256x1) hz3, View.readCov_unit_zero (S := S1x256x1) _ hz3]
  simp only [View.readAt_eq_ld, harg1.read_unread, harg3.read_unread, View.ld_unit_zero (S := S4x256x3136) hz3, View.ld_unit_zero (S := S1x256x1) hz3]

/-- The first case clears the scratch, reads the cleared scratch back, and leaves the block's total added to it. -/
theorem sumFirst_acc_eq (c : Dev nD) (i : grid0.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (hc0 : sumFirst i) (hc1 : ¬sumLast i) (x0 : Vec F S4x256x3136 .f32) :
    sumFirst_acc c i arg1 harg1 arg2 harg2 arg3 harg3 hc0 hc1 x0 = k0_pay2 x0 k0_pay1 := by
  unfold sumFirst_acc
  rw [View.read_writes_eq_canon _ _ _ (sumFirst_cover c i arg1 harg1 arg2 harg2 arg3 harg3 hc0 hc1 x0)]
  unfold sumRunFirst
  dsimp only
  sl_unfold_words
  rw [View.canon_cons_unit_zero (S := S1x256x1) hz3, View.readCov_unit_zero (S := S1x256x1) _ hz3]
  simp only [View.readAt_eq_ld, harg1.read_unread, harg3.read_unread, View.ld_unit_zero (S := S4x256x3136) hz3, View.ld_unit_zero (S := S1x256x1) hz3]

end Pieces

section Payload

/-- Over the extended reals the cleared scratch is zero everywhere. -/
theorem k0_pay1_apply (j : S1x256x1.Idx) : k0_pay1 (F := Ideal) j = 0 := by
  unfold k0_pay1
  rw [shapeCast_self]
  exact Ideal.ofBits_zero_f32

/-- The sum over the last axis of a [4, 256, 3136] block, at (a, ch): the sum over the flat spatial index. -/
theorem reduceLast_apply (x : FVec Ideal S4x256x3136 .f32) (h : S4x256x3136.Reduces [2] S4x256) (hφ : FKind.Formats .f32)
    (hacc : (0x00000000#32 : BitVec 32) = FKind.add.neutral .f32 hφ) (a : Fin 4) (ch : Fin 256) :
    multiReduction .add [2] S4x256 x 0x00000000#32 h hφ hacc (ix2 a ch) = ∑ s : Fin 3136, x (ix3 a ch s) := by
  refine (Ideal.multiReduction_add_single x _ h hφ hacc (ix2 a ch)).trans ?_
  refine Finset.sum_congr rfl fun s _ => congrArg x ?_
  funext d; apply Fin.ext
  fin_cases d <;> rfl

/-- The sum over the first axis of a [4, 256, 1] column block, at (ch, 0): the sum over the four batches. -/
theorem reduceFirst_apply (y : FVec Ideal S4x256x1 .f32) (h : S4x256x1.Reduces [0] S256x1) (hφ : FKind.Formats .f32)
    (hacc : (0x00000000#32 : BitVec 32) = FKind.add.neutral .f32 hφ) (ch : Fin 256) (u : Fin 1) :
    multiReduction .add [0] S256x1 y 0x00000000#32 h hφ hacc (ix2 ch u) = ∑ a : Fin 4, y (ix3 a ch u) := by
  refine (Ideal.multiReduction_add_single y _ h hφ hacc (ix2 ch u)).trans ?_
  refine Finset.sum_congr rfl fun a _ => congrArg y ?_
  funext d; apply Fin.ext
  fin_cases d <;> rfl

/-- A [4, 256] array cast to [4, 256, 1] reads, at (a, ch, u), the operand at (a, ch). -/
theorem cast_4x256_apply {α : Type} (v : S4x256.Idx → α) (h : S4x256.ShapeCasts S4x256x1) (a : Fin 4) (ch : Fin 256) (u : Fin 1) :
    shapeCast S4x256x1 v h (ix3 a ch u) = v (ix2 a ch) :=
  shapeCast_apply v h _ _ (by
    have hu : u.val = 0 := by omega
    rw [Shape.rowMajor_val_three, Shape.rowMajor_val_two]
    show a.val * 256 + ch.val = (a.val * 256 + ch.val) * 1 + u.val
    omega)

/-- A [256, 1] column cast to [1, 256, 1] reads, at (z, ch, u), the operand at (ch, u). -/
theorem cast_256x1_apply {α : Type} (v : S256x1.Idx → α) (h : S256x1.ShapeCasts S1x256x1) (z : Fin 1) (ch : Fin 256) (u : Fin 1) :
    shapeCast S1x256x1 v h (ix3 z ch u) = v (ix2 ch u) :=
  shapeCast_apply v h _ _ (by
    have hz : z.val = 0 := by omega
    rw [Shape.rowMajor_val_three, Shape.rowMajor_val_two]
    show ch.val * 1 + u.val = (z.val * 256 + ch.val) * 1 + u.val
    omega)

/-- THE PAYLOAD AT A CHANNEL: what a point stores into the scratch is, at channel ch, what the scratch held there plus
    the total of the point's block over its four batches and its flat spatial index. -/
theorem k0_pay2_apply (x0 : Vec Ideal S4x256x3136 .f32) (xs : Vec Ideal S1x256x1 .f32) (ch : Fin 256) :
    k0_pay2 (F := Ideal) x0 xs (ix3 0 ch 0) = xs (ix3 0 ch 0) + ∑ a : Fin 4, ∑ s : Fin 3136, x0 (ix3 a ch s) := by
  unfold k0_pay2
  dsimp only
  rw [shapeCast_self, shapeCast_self, addf_apply]
  congr 1
  rw [cast_256x1_apply]
  refine (reduceFirst_apply _ _ _ _ ch 0).trans ?_
  refine Finset.sum_congr rfl fun a _ => ?_
  rw [cast_4x256_apply]
  exact reduceLast_apply _ _ _ _ a ch

end Payload

section Block
variable (V : (c : Dev nD) → (b : Ref sig .tc) → Buf (Elt Ideal) ((c : Thread nD τ).loc b))

/-- The input window's block index at point t is (t, 0, 0). -/
theorem sumIn_index : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- FROM BLOCKS TO THE ARRAY. The input block at point t is batches 4t .. 4t+3 of the array: its entry (a, ch, s) is
    the array's entry (4t + a, ch, s) — the block's coordinate is its index times its size plus the coordinate
    inside it. -/
theorem sumBlk_apply (c : Dev nD) (t : Fin cfg0.N) (a : Fin 4) (ch : Fin 256) (s : Fin 3136) :
    (sumBlk V c 0 t : S4x256x3136.Idx → EReal) (ix3 a ch s)
      = (V c main_v0 : S64x256x3136.Idx → EReal) (ix3 ⟨4 * t.val + a.val, by have := t.isLt; have : cfg0.N = 16 := N_0; have := a.isLt; omega⟩ ch s) := by
  have hi := sumIn_index t
  unfold sumBlk
  rw [View.read_apply]
  show V c main_v0 _ = V c main_v0 _
  congr 1
  funext d
  apply Fin.ext
  match d with
  | ⟨0, _⟩ => show win0_0.index t 0 * 4 + 1 * a.val = 4 * t.val + a.val; rw [hi.1]; omega
  | ⟨1, _⟩ => show win0_0.index t 1 * 256 + 1 * ch.val = ch.val; rw [hi.2.1]; omega
  | ⟨2, _⟩ => show win0_0.index t 2 * 3136 + 1 * s.val = s.val; rw [hi.2.2]; omega

end Block

section Accumulation
variable (V : (c : Dev nD) → (b : Ref sig .tc) → Buf (Elt Ideal) ((c : Thread nD τ).loc b))

/-- The total of the block at position k, at channel ch (zero past the grid). -/
def sumPt (c : Dev nD) (ch : Fin 256) (k : ℕ) : EReal :=
  if h : k < cfg0.N then ∑ a : Fin 4, ∑ s : Fin 3136, (sumBlk V c 0 ⟨k, h⟩ : S4x256x3136.Idx → EReal) (ix3 a ch s) else 0

/-- After the first point the scratch holds the point's payload over the cleared scratch. -/
theorem sumAt_zero_acc (c : Dev nD) (h0 : 0 < cfg0.N) :
    (sumAt V c 0 h0).2 = k0_pay2 (sumBlk V c 0 ⟨0, h0⟩) (k0_pay1 (F := Ideal)) := by
  rw [sumAt]
  dsimp only
  exact sumFirst_acc_eq (F := Ideal) c _ _ _ _ _ _ _ _ _ _

/-- After a later point the scratch holds the point's payload over what the point before left, whichever of the two
    later cases the point is in. -/
theorem sumAt_succ_acc (c : Dev nD) (n : ℕ) (hn : n + 1 < cfg0.N) :
    (sumAt V c (n + 1) hn).2 = k0_pay2 (sumBlk V c 0 ⟨n + 1, hn⟩) (sumAt V c n (Nat.lt_of_succ_lt hn)).2 := by
  rw [sumAt]
  split
  · dsimp only
    exact sumLast_acc_eq (F := Ideal) c _ _ _ _ _ _ _ _ _ _ _
  · dsimp only
    exact sumMid_acc_eq (F := Ideal) c _ _ _ _ _ _ _ _ _ _ _

/-- At the last point the output block's buffer receives the same payload. -/
theorem sumAt_succ_out (c : Dev nD) (n : ℕ) (hn : n + 1 < cfg0.N) (h1 : n + 1 = 15) :
    (sumAt V c (n + 1) hn).1 = k0_pay2 (sumBlk V c 0 ⟨n + 1, hn⟩) (sumAt V c n (Nat.lt_of_succ_lt hn)).2 := by
  rw [sumAt, dif_pos h1]
  dsimp only
  exact sumLast_out_eq (F := Ideal) c _ _ _ _ _ _ _ _ _ _ _

/-- THE RUNNING TOTAL. After position n the scratch holds, at channel ch, the totals of the blocks at positions 0 .. n:
    by induction on the position (the first point adds its block's total to the cleared scratch, zero). -/
theorem sumAt_acc_apply (c : Dev nD) (ch : Fin 256) : ∀ (n : ℕ) (hn : n < cfg0.N),
    ((sumAt V c n hn).2 : S1x256x1.Idx → EReal) (ix3 0 ch 0) = ∑ k ∈ Finset.range (n + 1), sumPt V c ch k
  | 0, hn => by
    rw [Finset.sum_range_one, sumAt_zero_acc, k0_pay2_apply, k0_pay1_apply, zero_add]
    unfold sumPt
    rw [dif_pos hn]
  | n + 1, hn => by
    rw [Finset.sum_range_succ, ← sumAt_acc_apply c ch n (Nat.lt_of_succ_lt hn), sumAt_succ_acc, k0_pay2_apply]
    unfold sumPt
    rw [dif_pos hn]

end Accumulation

section Final
variable (V : (c : Dev nD) → (b : Ref sig .tc) → Buf (Elt Ideal) ((c : Thread nD τ).loc b))

theorem sum_lt15 : 15 < cfg0.N := by rw [show cfg0.N = 16 from N_0]; decide

/-- The result: what the last point leaves in the output block's buffer, as contents of the output array (its one
    block IS the array). -/
abbrev sumResult (c : Dev nD) : Buf (Elt Ideal) ((c : Thread nD τ).loc main_v1) := (sumAt V c 15 sum_lt15).1

/-- The one write-back, at point 15, writes it: block (0, 0, 0) of the [1, 256, 1] array read through zero offsets is
    the array. -/
theorem sumFlushed_eq (c : Dev nD) (t : Fin cfg0.N) (hf : (cfg0.win 1).flush t = true) :
    (sumDat V c).flushed 1 t = ((cfg0.win 1).blk t).view.read (Elt Ideal) (sumResult V c) := by
  have hN : cfg0.N = 16 := N_0
  have h15 : t.val = 15 := by have := (flush0_1 t).mp hf; have := t.isLt; omega
  obtain rfl : t = ⟨15, sum_lt15⟩ := Fin.ext h15
  show (cfg0.win 1).cut (grid0.coords ⟨15, sum_lt15⟩) ((sumDat V c).after 1 ⟨15, sum_lt15⟩) = _
  rw [sumDat_after_out]
  have hz' : (fun a => win0_1.index ⟨15, sum_lt15⟩ a * main_v1.ty.shape.size a) = fun _ => 0 := funext fun a => by fin_cases a <;> decide +kernel
  exact (Memref.read_access_unit_zero (Elt Ideal) main_v1 hz' (fun a => by rw [congrFun hz' a]; simp) (sumResult V c)).symm

/-- So the output array ends holding what the last point left (the last point's block covers it). -/
theorem sum_final (c : Dev nD) : (sumDat V c).arrAt 1 cfg0.N = sumResult V c :=
  (sumDat V c).arrAt_eq_of_cover 1 (sumResult V c) (sumFlushed_eq V c) fun i =>
    ⟨⟨15, sum_lt15⟩, (flush0_1 ⟨15, sum_lt15⟩).mpr (by decide), by
      show i ∈ ((View.whole main_v1).slice (win0_1.rect ⟨15, sum_lt15⟩)).set
      rw [View.set_slice_whole, Rect.mem_set_unit]
      intro a
      have h0 : (i 0 : Nat) < 1 := (i 0).isLt
      have h1 : (i 1 : Nat) < 256 := (i 1).isLt
      have h2 : (i 2 : Nat) < 1 := (i 2).isLt
      match a with
      | ⟨0, _⟩ => show win0_1.index ⟨15, sum_lt15⟩ 0 * win0_1.size 0 ≤ (i 0 : Nat) ∧ (i 0 : Nat) < win0_1.index ⟨15, sum_lt15⟩ 0 * win0_1.size 0 + win0_1.xsize (grid0.coords ⟨15, sum_lt15⟩) 0
                  rw [show win0_1.index ⟨15, sum_lt15⟩ 0 * win0_1.size 0 = 0 from by decide +kernel, show win0_1.xsize (grid0.coords ⟨15, sum_lt15⟩) 0 = 1 from by decide +kernel]; omega
      | ⟨1, _⟩ => show win0_1.index ⟨15, sum_lt15⟩ 1 * win0_1.size 1 ≤ (i 1 : Nat) ∧ (i 1 : Nat) < win0_1.index ⟨15, sum_lt15⟩ 1 * win0_1.size 1 + win0_1.xsize (grid0.coords ⟨15, sum_lt15⟩) 1
                  rw [show win0_1.index ⟨15, sum_lt15⟩ 1 * win0_1.size 1 = 0 from by decide +kernel, show win0_1.xsize (grid0.coords ⟨15, sum_lt15⟩) 1 = 256 from by decide +kernel]; omega
      | ⟨2, _⟩ => show win0_1.index ⟨15, sum_lt15⟩ 2 * win0_1.size 2 ≤ (i 2 : Nat) ∧ (i 2 : Nat) < win0_1.index ⟨15, sum_lt15⟩ 2 * win0_1.size 2 + win0_1.xsize (grid0.coords ⟨15, sum_lt15⟩) 2
                  rw [show win0_1.index ⟨15, sum_lt15⟩ 2 * win0_1.size 2 = 0 from by decide +kernel, show win0_1.xsize (grid0.coords ⟨15, sum_lt15⟩) 2 = 1 from by decide +kernel]; omega⟩

/-- Sixteen blocks of four batches are the sixty-four batches: the block totals add up to the channel total. -/
theorem tot3_blocks (g : S64x256x3136.Idx → EReal) (ch : Fin 256) :
    ∑ t : Fin 16, ∑ a : Fin 4, ∑ s : Fin 3136, g (ix3 ⟨4 * t.val + a.val, by omega⟩ ch s) = Cert.BatchNorm.tot3 g ch :=
  Cert.BatchNorm.sum_blocks (fun b => ∑ s : Fin 3136, g (ix3 b ch s))

/-- THE VALUE OF THE LAUNCH. After the 16 points the output array holds, at channel ch, the total of the region-entry
    input array over every batch and every flat spatial index: the scratch after the last point is the sum of the
    sixteen block totals, each block is four batches of the array, and sixteen blocks of four are the sixty-four. -/
theorem sum_arrAt (c : Dev nD) (ch : Fin 256) :
    ((sumDat (F := Ideal) V c).arrAt 1 cfg0.N : S1x256x1.Idx → EReal) (ix3 0 ch 0)
      = Cert.BatchNorm.tot3 (V c main_v0 : S64x256x3136.Idx → EReal) ch := by
  rw [sum_final]
  show ((sumAt V c (14 + 1) sum_lt15).1 : S1x256x1.Idx → EReal) (ix3 0 ch 0) = _
  rw [sumAt_succ_out V c 14 sum_lt15 rfl, ← sumAt_succ_acc V c 14 sum_lt15, sumAt_acc_apply, Finset.sum_range]
  refine Eq.trans ?_ (tot3_blocks (V c main_v0) ch)
  refine Finset.sum_congr rfl fun t _ => ?_
  have ht : t.val < cfg0.N := by rw [show cfg0.N = 16 from N_0]; exact t.isLt
  unfold sumPt
  rw [dif_pos ht]
  exact Finset.sum_congr rfl fun a _ => Finset.sum_congr rfl fun s _ => sumBlk_apply V c ⟨t.val, ht⟩ a ch s

end Final

end Cert.KernelIdeal.Gen

end
-- ==== Proof.KernelIdeal.VarValue.lean ====
/-
  THE VALUE of the per-channel squared-deviation launch (the program's second launch), over the extended reals: after
  its sixteen grid points the output array holds, at each channel, the total over all sixty-four batches and all 3136
  positions of the squared deviation of the region-entry input array from the region-entry mean array's entry for the
  channel.

  The road. Each control case's stores into the scratch and into the output block are the body's arithmetic: the update
  `k1_pay2` of the point's input block, the mean block and the scratch as the case finds it (the cleared scratch
  `k1_pay1` at the first point). Read at channel ch the update adds, to the scratch's entry, the total over the block's
  four batches and every position of the squared deviation: the mean column repeated over the block reads its entry for
  the channel, the sum over the last axis and then over the first are sums over those coordinates, and the casts between
  [256, 1], [4, 256, 1] and their forms with a unit axis added keep the row-major position. The input block at point t is
  batches 4t … 4t + 3 of the input array and the mean block is the whole mean array. So by induction on the position the
  scratch's entry after point n is the total of the shares of blocks 0 … n; the last point copies it into the output
  block, whose one write-back covers the output array; and sixteen blocks of four batches are the sixty-four batches.
-/
import proofs.«156847_j180388626588_1_alg».proof.Proof.KernelIdeal.VarRegion
import proofs.«156847_j180388626588_1_alg».proof.Proof.Spec
import Idealize.ShloMosaic.Lib.ValueIdx
import Idealize.ShloMosaic.Lib.Pipeline.Value
import Idealize.ShloMosaic.PureOps.Ideal.Laws
import Idealize.ShloMosaic.Lib.Tactic

set_option maxRecDepth 16384

open scoped BigOperators

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)

/-! ## What each case leaves, as the body's arithmetic -/

section Pieces
variable {F : FTy → Type} [FloatOps F]

/-- The zero offsets of a rank-3 load or store. -/
theorem varHz3 : (![0, 0, 0] : Fin 3 → Nat) = fun _ => 0 := funext fun a => by fin_cases a <;> rfl

/-- THE FIRST CASE leaves in the scratch the update computed over the cleared scratch: the clear's store is read back
    by the update's load, and the update's store, the later one, covers the scratch. -/
theorem varFirst_acc_eq (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : varFirst i) (hc1 : ¬varLast i) (x0 : Vec F S4x256x3136 .f32) (x1 : Vec F S1x256x1 .f32) :
    varFirst_acc c i arg1 harg1 arg2 harg2 arg3 harg3 arg4 harg4 hc0 hc1 x0 x1 = k1_pay2 x0 x1 (k1_pay1 (F := F)) := by
  unfold varFirst_acc
  rw [View.read_writes_eq_canon _ _ _ (varFirst_cover c i arg1 harg1 arg2 harg2 arg3 harg3 arg4 harg4 hc0 hc1 x0 x1)]
  unfold varRunFirst
  dsimp only
  sl_unfold_words
  rw [View.canon_cons_unit_zero (S := S1x256x1) varHz3, View.readCov_unit_zero (S := S1x256x1) _ varHz3]
  simp only [View.readAt_eq_ld, harg1.read_unread, harg2.read_unread, View.ld_unit_zero (S := S4x256x3136) varHz3, View.ld_unit_zero (S := S1x256x1) varHz3]

/-- A MIDDLE CASE leaves in the scratch the update computed over what it was handed: one covering store. -/
theorem varMid_acc_eq (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : ¬varLast i) (x0 : Vec F S4x256x3136 .f32) (x1 : Vec F S1x256x1 .f32) (xs : Vec F S1x256x1 .f32) :
    varMid_acc c i arg1 harg1 arg2 harg2 arg3 harg3 arg4 harg4 hc0 hc1 x0 x1 xs = k1_pay2 x0 x1 xs := by
  unfold varMid_acc
  rw [View.read_writes_eq_canon _ _ _ (varMid_cover c i arg1 harg1 arg2 harg2 arg3 harg3 arg4 harg4 hc0 hc1 x0 x1 xs)]
  unfold varRunMid
  dsimp only
  rw [View.canon_unit_zero varHz3]
  simp only [View.readAt_eq_ld, harg1.read_unread, harg2.read_unread, harg4.read_unread, View.ld_unit_zero (S := S4x256x3136) varHz3, View.ld_unit_zero (S := S1x256x1) varHz3]

/-- THE LAST CASE leaves the same in the scratch, -/
theorem varLast_acc_eq (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) :
    varLast_acc c i arg1 harg1 arg2 harg2 arg3 harg3 arg4 harg4 hc0 hc1 x0 x1 xs = k1_pay2 x0 x1 xs := by
  unfold varLast_acc
  rw [View.read_writes_eq_canon _ _ _ (varLast_cover c i arg1 harg1 arg2 harg2 arg3 harg3 arg4 harg4 hc0 hc1 x0 x1 xs)]
  unfold varRunLast
  dsimp only
  sl_unfold_words
  rw [View.canon_unit_zero varHz3]
  simp only [View.readAt_eq_ld, harg1.read_unread, harg2.read_unread, harg4.read_unread, View.ld_unit_zero (S := S4x256x3136) varHz3, View.ld_unit_zero (S := S1x256x1) varHz3]

/-- and copies it into the output block: the copy's load reads the update's store back. -/
theorem varLast_out_eq (c : Dev nD) (i : grid1.Coords) (arg1 : Memref sig .tc .vmem S4x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (hc0 : ¬varFirst i) (hc1 : varLast i) (x0 : Vec F S4x256x3136 .f32) (x1 : Vec F S1x256x1 .f32) (xs : Vec F S1x256x1 .f32) :
    varLast_out c i arg1 harg1 arg2 harg2 arg3 harg3 arg4 harg4 hc0 hc1 x0 x1 xs = k1_pay2 x0 x1 xs := by
  unfold varLast_out
  rw [View.read_writes_eq_canon _ _ _ (varLast_outCover c i arg1 harg1 arg2 harg2 arg3 harg3 arg4 harg4 hc0 hc1 x0 x1 xs)]
  unfold varRunLast
  dsimp only
  sl_unfold_words
  rw [View.canon_unit_zero varHz3, View.readCov_unit_zero (S := S1x256x1) _ varHz3]
  simp only [View.readAt_eq_ld, harg1.read_unread, harg2.read_unread, harg4.read_unread, View.ld_unit_zero (S := S4x256x3136) varHz3, View.ld_unit_zero (S := S1x256x1) varHz3]

end Pieces

/-! ## The body's arithmetic at an index, over the extended reals -/

section Layout
variable {α : Type}

/-- A [256, 1] column cast to [1, 256, 1] reads, at (0, ch, 0), the column's entry (ch, 0): the same row-major position. -/
theorem varCast_col_apply (x : S256x1.Idx → α) (h : S256x1.ShapeCasts S1x256x1) (ch : Fin 256) :
    shapeCast S1x256x1 x h (ix3 (0 : Fin 1) ch (0 : Fin 1)) = x (ix2 ch (0 : Fin 1)) :=
  shapeCast_apply x h _ _ (by
    rw [Shape.rowMajor_val_two, Shape.rowMajor_val_three]
    show ch.val * 1 + 0 = (0 * 256 + ch.val) * 1 + 0
    omega)

/-- A [4, 256] array cast to [4, 256, 1] reads, at (a, ch, 0), the entry (a, ch). -/
theorem varCast_rows_apply (x : S4x256.Idx → α) (h : S4x256.ShapeCasts S4x256x1) (a : Fin 4) (ch : Fin 256) :
    shapeCast S4x256x1 x h (ix3 a ch (0 : Fin 1)) = x (ix2 a ch) :=
  shapeCast_apply x h _ _ (by
    rw [Shape.rowMajor_val_two, Shape.rowMajor_val_three]
    show a.val * 256 + ch.val = (a.val * 256 + ch.val) * 1 + 0
    omega)

/-- A [1, 256, 1] column repeated over [4, 256, 3136] reads, at (a, ch, s), the column's entry for channel ch. -/
theorem varBcast_col_apply (x : S1x256x1.Idx → α) (h : S1x256x1.Broadcasts S4x256x3136) (a : Fin 4) (ch : Fin 256) (s : Fin 3136) :
    broadcastTo S4x256x3136 x h (ix3 a ch s) = x (ix3 (0 : Fin 1) ch (0 : Fin 1)) := by
  refine broadcastTo_apply x h (ix3 a ch s) (ix3 (0 : Fin 1) ch (0 : Fin 1)) fun ax => ?_
  match ax with
  | ⟨0, _⟩ => rfl
  | ⟨1, _⟩ => rfl
  | ⟨2, _⟩ => rfl

/-- The index a sum over the last axis of [4, 256, 3136] reads at result index (a, ch) and coordinate s: (a, ch, s). -/
theorem varLift_lane (h : S4x256x3136.Reduces [2] S4x256) (a : Fin 4) (ch : Fin 256) (s : Fin (S4x256x3136.size 2)) :
    h.lift (ix2 a ch) s = ix3 a ch (⟨s.val, s.isLt⟩ : Fin 3136) := by
  funext c; apply Fin.ext
  fin_cases c <;> rfl

/-- The index a sum over the first axis of [4, 256, 1] reads at result index (ch, 0) and coordinate a: (a, ch, 0). -/
theorem varLift_batch (h : S4x256x1.Reduces [0] S256x1) (ch : Fin 256) (a : Fin (S4x256x1.size 0)) :
    h.lift (ix2 ch (0 : Fin 1)) a = ix3 (⟨a.val, a.isLt⟩ : Fin 4) ch (0 : Fin 1) := by
  funext c; apply Fin.ext
  fin_cases c <;> rfl

end Layout

section PayloadIdeal

/-- The clear stores zero everywhere. -/
theorem k1_pay1_apply (j : S1x256x1.Idx) : (k1_pay1 (F := Ideal) : S1x256x1.Idx → EReal) j = 0 := by
  unfold k1_pay1
  refine (congrFun (shapeCast_self _ _) j).trans ?_
  exact Ideal.ofBits_zero_f32

/-- A sum over the last axis of a [4, 256, 3136] array of extended reals, from the zero word, read at (a, ch). -/
theorem varSum_lane_apply (src : S4x256x3136.Idx → EReal) (h : S4x256x3136.Reduces [2] S4x256) (hφ : FKind.Formats FTy.f32)
    (hacc : (0x00000000#32 : BitVec 32) = 0x00000000#32) (a : Fin 4) (ch : Fin 256) :
    (multiReduction (F := Ideal) .add [2] S4x256 src 0x00000000#32 h hφ hacc : S4x256.Idx → EReal) (ix2 a ch)
      = ∑ s : Fin 3136, src (ix3 a ch s) := by
  refine (Ideal.multiReduction_add_single src 0x00000000#32 h hφ hacc (ix2 a ch)).trans ?_
  refine Finset.sum_congr rfl fun s _ => ?_
  exact congrArg src (varLift_lane h a ch s)

/-- A sum over the first axis of a [4, 256, 1] array of extended reals, from the zero word, read at (ch, 0). -/
theorem varSum_batch_apply (src : S4x256x1.Idx → EReal) (h : S4x256x1.Reduces [0] S256x1) (hφ : FKind.Formats FTy.f32)
    (hacc : (0x00000000#32 : BitVec 32) = 0x00000000#32) (ch : Fin 256) :
    (multiReduction (F := Ideal) .add [0] S256x1 src 0x00000000#32 h hφ hacc : S256x1.Idx → EReal) (ix2 ch (0 : Fin 1))
      = ∑ a : Fin 4, src (ix3 a ch (0 : Fin 1)) := by
  refine (Ideal.multiReduction_add_single src 0x00000000#32 h hφ hacc (ix2 ch (0 : Fin 1))).trans ?_
  refine Finset.sum_congr rfl fun a _ => ?_
  exact congrArg src (varLift_batch h ch a)

/-- THE UPDATE at channel ch: the scratch's entry plus the total, over the block's four batches and its 3136 positions,
    of the squared deviation of the block's entry from the mean column's entry for the channel. -/
theorem k1_pay2_apply (x0 : S4x256x3136.Idx → EReal) (x1 xs : S1x256x1.Idx → EReal) (ch : Fin 256) :
    (k1_pay2 (F := Ideal) x0 x1 xs : S1x256x1.Idx → EReal) (ix3 (0 : Fin 1) ch (0 : Fin 1))
      = xs (ix3 (0 : Fin 1) ch (0 : Fin 1))
        + ∑ a : Fin 4, ∑ s : Fin 3136, (x0 (ix3 a ch s) - x1 (ix3 (0 : Fin 1) ch (0 : Fin 1))) * (x0 (ix3 a ch s) - x1 (ix3 (0 : Fin 1) ch (0 : Fin 1))) := by
  unfold k1_pay2
  dsimp only
  refine (congrFun (shapeCast_self _ _) _).trans ?_
  refine (addf_apply _ _ _).trans ?_
  refine congrArg (xs (ix3 (0 : Fin 1) ch (0 : Fin 1)) + ·) ?_
  refine (varCast_col_apply _ _ ch).trans ?_
  refine (varSum_batch_apply _ _ _ _ ch).trans ?_
  refine Finset.sum_congr rfl fun a _ => ?_
  refine (varCast_rows_apply _ _ a ch).trans ?_
  refine (varSum_lane_apply _ _ _ _ a ch).trans ?_
  refine Finset.sum_congr rfl fun s _ => ?_
  refine (mulf_apply _ _ _).trans ?_
  refine congrArg₂ (· * ·) ?_ ?_ <;>
  · refine (subf_apply _ _ _).trans ?_
    rw [shapeCast_self, shapeCast_self]
    exact congrArg (x0 (ix3 a ch s) - ·) (varBcast_col_apply x1 _ a ch s)

end PayloadIdeal

/-! ## The blocks, read off the arrays -/

section Blocks
variable (V : (c : Dev nD) → (b : Ref sig .tc) → Buf (Elt Ideal) ((c : Thread nD τ).loc b))

/-- The input window's block index at point t is (t, 0, 0); -/
theorem varIn_index : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)
/-- the mean window's is (0, 0, 0) at every point. -/
theorem varMean_index : ∀ (t : Fin cfg1.N) (a : Fin 3), win1_1.index t a = 0 :=
  (by decide +kernel : ∀ (t : Fin grid1.N) (a : Fin 3), win1_1.index t a = 0)

/-- The input block at point t holds batches 4t … 4t + 3 of the input array: entry (a, ch, s) of the block is entry
    (4t + a, ch, s) of the array. -/
theorem varBlk_in_apply (c : Dev nD) (t : Fin cfg1.N) (a : Fin 4) (ch : Fin 256) (s : Fin 3136) :
    (varBlk V c 0 t : S4x256x3136.Idx → EReal) (ix3 a ch s)
      = (V c main_v0 : S64x256x3136.Idx → EReal) (ix3 (⟨4 * t.val + a.val, by have := t.isLt; have : cfg1.N = 16 := N_1; omega⟩ : Fin 64) ch s) := by
  obtain ⟨h0, h1, h2⟩ := varIn_index t
  unfold varBlk
  rw [View.read_apply]
  show V c main_v0 _ = V c main_v0 _
  congr 1
  funext ax; apply Fin.ext
  match ax with
  | ⟨0, _⟩ => show win1_0.index t 0 * 4 + 1 * a.val = 4 * t.val + a.val; rw [h0]; omega
  | ⟨1, _⟩ => show win1_0.index t 1 * 256 + 1 * ch.val = ch.val; rw [h1]; omega
  | ⟨2, _⟩ => show win1_0.index t 2 * 3136 + 1 * s.val = s.val; rw [h2]; omega

/-- The mean's block is the whole mean array, at every point. -/
theorem varBlk_mean_eq (c : Dev nD) (t : Fin cfg1.N) :
    (varBlk V c 1 t : S1x256x1.Idx → EReal) = (V c main_v5 : S1x256x1.Idx → EReal) := by
  have hz' : (fun a => win1_1.index t a * main_v5.ty.shape.size a) = fun _ => 0 := funext fun a => by rw [varMean_index t a]; simp
  exact Memref.read_access_unit_zero (Elt Ideal) main_v5 hz' (fun a => by rw [congrFun hz' a]; simp) (V c main_v5)

end Blocks

/-! ## The running total, point by point -/

section Accumulation
variable (V : (c : Dev nD) → (b : Ref sig .tc) → Buf (Elt Ideal) ((c : Thread nD τ).loc b))

/-- The region-entry input array and mean array, as functions into the extended reals. -/
abbrev varX (c : Dev nD) : S64x256x3136.Idx → EReal := V c main_v0
abbrev varMu (c : Dev nD) : S1x256x1.Idx → EReal := V c main_v5

/-- Block t's share of channel ch's total: over its four batches 4t … 4t + 3 and every position, the squared deviation
    of the input array's entry from the mean array's entry for the channel (zero for a t off the grid). -/
def varDevBlock (c : Dev nD) (ch : Fin 256) (t : ℕ) : EReal :=
  if h : t < 16 then
    ∑ a : Fin 4, ∑ s : Fin 3136,
      (varX V c (ix3 (⟨4 * t + a.val, by have := a.isLt; omega⟩ : Fin 64) ch s) - varMu V c (ix3 (0 : Fin 1) ch (0 : Fin 1)))
        * (varX V c (ix3 (⟨4 * t + a.val, by have := a.isLt; omega⟩ : Fin 64) ch s) - varMu V c (ix3 (0 : Fin 1) ch (0 : Fin 1)))
  else 0

/-- The update at point t adds block t's share to the scratch's entry for the channel. -/
theorem varStep_apply (c : Dev nD) (ch : Fin 256) (t : Fin cfg1.N) (xs : S1x256x1.Idx → EReal) :
    (k1_pay2 (F := Ideal) (varBlk V c 0 t) (varBlk V c 1 t) xs : S1x256x1.Idx → EReal) (ix3 (0 : Fin 1) ch (0 : Fin 1))
      = xs (ix3 (0 : Fin 1) ch (0 : Fin 1)) + varDevBlock V c ch t.val := by
  have ht : t.val < 16 := lt_of_lt_of_eq t.isLt (show cfg1.N = 16 from N_1)
  refine (k1_pay2_apply (varBlk V c 0 t) (varBlk V c 1 t) xs ch).trans ?_
  refine congrArg (xs (ix3 (0 : Fin 1) ch (0 : Fin 1)) + ·) ?_
  unfold varDevBlock
  rw [dif_pos ht]
  refine Finset.sum_congr rfl fun a _ => Finset.sum_congr rfl fun s _ => ?_
  rw [varBlk_in_apply V c t a ch s, varBlk_mean_eq V c t]

/-- THE INVARIANT: after position n the scratch's entry for channel ch is the total of the shares of blocks 0 … n. -/
theorem varAt_acc (c : Dev nD) (ch : Fin 256) : ∀ (n : ℕ) (hn : n < cfg1.N),
    ((varAt V c n hn).2 : S1x256x1.Idx → EReal) (ix3 (0 : Fin 1) ch (0 : Fin 1)) = ∑ t ∈ Finset.range (n + 1), varDevBlock V c ch t
  | 0, hn => by
    have e := varAt_first V c ⟨0, hn⟩ rfl (show ¬ (0 : ℕ) = 15 by decide)
    rw [show varAt V c 0 hn = _ from e]; dsimp only
    rw [varFirst_acc_eq]
    refine (varStep_apply V c ch ⟨0, hn⟩ _).trans ?_
    rw [k1_pay1_apply, zero_add, Finset.sum_range_succ, Finset.sum_range_zero, zero_add]
  | n + 1, hn => by
    have ih := varAt_acc c ch n (Nat.lt_of_succ_lt hn)
    rw [Finset.sum_range_succ _ (n + 1)]
    by_cases h1 : n + 1 = 15
    · have e := varAt_last V c ⟨n + 1, hn⟩ (Nat.succ_ne_zero n) h1
      rw [show varAt V c (n + 1) hn = _ from e]; dsimp only
      rw [varLast_acc_eq]
      refine (varStep_apply V c ch ⟨n + 1, hn⟩ _).trans ?_
      exact congrArg (· + varDevBlock V c ch (n + 1)) ih
    · have e := varAt_mid V c ⟨n + 1, hn⟩ (Nat.succ_ne_zero n) h1
      rw [show varAt V c (n + 1) hn = _ from e]; dsimp only
      rw [varMid_acc_eq]
      refine (varStep_apply V c ch ⟨n + 1, hn⟩ _).trans ?_
      exact congrArg (· + varDevBlock V c ch (n + 1)) ih

/-- The sixteen shares are the channel's whole total: sixteen blocks of four batches are the sixty-four batches. -/
theorem varSum_devBlock (c : Dev nD) (ch : Fin 256) :
    ∑ t ∈ Finset.range 16, varDevBlock V c ch t
      = Cert.BatchNorm.dev3 (varX V c) (varMu V c) ch := by
  rw [← Fin.sum_univ_eq_sum_range (fun t => varDevBlock V c ch t) 16]
  unfold Cert.BatchNorm.dev3
  rw [← Cert.BatchNorm.sum_blocks (fun b : Fin 64 => ∑ s : Fin 3136,
    (varX V c (ix3 b ch s) - varMu V c (ix3 (0 : Fin 1) ch (0 : Fin 1)))
      * (varX V c (ix3 b ch s) - varMu V c (ix3 (0 : Fin 1) ch (0 : Fin 1))))]
  refine Finset.sum_congr rfl fun t _ => ?_
  unfold varDevBlock
  rw [dif_pos t.isLt]

end Accumulation

/-! ## The output array after the launch -/

section Final
variable (V : (c : Dev nD) → (b : Ref sig .tc) → Buf (Elt Ideal) ((c : Thread nD τ).loc b))

theorem var_lt15 : 15 < cfg1.N := by rw [show cfg1.N = 16 from N_1]; decide

/-- What the output array ends holding: what the last point's copy left in the output block's buffer (the block is the
    whole array). -/
abbrev varResult (c : Dev nD) : Buf (Elt Ideal) ((c : Thread nD τ).loc main_v6) := (varAt V c 15 var_lt15).1

/-- The one write-back, at point 15, writes it: block (0, 0, 0) of the [1, 256, 1] array read through zero offsets is
    the array. -/
theorem varFlushed_eq (c : Dev nD) (t : Fin cfg1.N) (hf : (cfg1.win 2).flush t = true) :
    (varDat V c).flushed 2 t = ((cfg1.win 2).blk t).view.read (Elt Ideal) (varResult V c) := by
  have hN : cfg1.N = 16 := N_1
  have h15 : t.val = 15 := by have := (flush1_2 t).mp hf; have := t.isLt; omega
  obtain rfl : t = t1_15 := Fin.ext h15
  show (cfg1.win 2).cut (grid1.coords t1_15) ((varDat V c).after 2 t1_15) = _
  rw [varDat_after_out]
  have hz' : (fun a => win1_2.index t1_15 a * main_v6.ty.shape.size a) = fun _ => 0 := funext fun a => by fin_cases a <;> decide
  exact (Memref.read_access_unit_zero (Elt Ideal) main_v6 hz' (fun a => by rw [congrFun hz' a]; simp) (varResult V c)).symm

/-- So the output array ends holding it: point 15's block covers the array. -/
theorem var_final (c : Dev nD) : (varDat V c).arrAt 2 cfg1.N = varResult V c :=
  (varDat V c).arrAt_eq_of_cover 2 (varResult V c) (varFlushed_eq V c) fun i =>
    ⟨t1_15, (flush1_2 t1_15).mpr rfl, by
      show i ∈ ((View.whole main_v6).slice (win1_2.rect t1_15)).set
      rw [View.set_slice_whole, Rect.mem_set_unit]
      intro a
      have h0 : (i 0 : Nat) < 1 := (i 0).isLt
      have h1 : (i 1 : Nat) < 256 := (i 1).isLt
      have h2 : (i 2 : Nat) < 1 := (i 2).isLt
      match a with
      | ⟨0, _⟩ => show win1_2.index t1_15 0 * win1_2.size 0 ≤ (i 0 : Nat) ∧ (i 0 : Nat) < win1_2.index t1_15 0 * win1_2.size 0 + win1_2.xsize (grid1.coords t1_15) 0
                  rw [show win1_2.index t1_15 0 * win1_2.size 0 = 0 from by decide +kernel, show win1_2.xsize (grid1.coords t1_15) 0 = 1 from by decide +kernel]; omega
      | ⟨1, _⟩ => show win1_2.index t1_15 1 * win1_2.size 1 ≤ (i 1 : Nat) ∧ (i 1 : Nat) < win1_2.index t1_15 1 * win1_2.size 1 + win1_2.xsize (grid1.coords t1_15) 1
                  rw [show win1_2.index t1_15 1 * win1_2.size 1 = 0 from by decide +kernel, show win1_2.xsize (grid1.coords t1_15) 1 = 256 from by decide +kernel]; omega
      | ⟨2, _⟩ => show win1_2.index t1_15 2 * win1_2.size 2 ≤ (i 2 : Nat) ∧ (i 2 : Nat) < win1_2.index t1_15 2 * win1_2.size 2 + win1_2.xsize (grid1.coords t1_15) 2
                  rw [show win1_2.index t1_15 2 * win1_2.size 2 = 0 from by decide +kernel, show win1_2.xsize (grid1.coords t1_15) 2 = 1 from by decide +kernel]; omega⟩

/-- THE VALUE OF THE LAUNCH: after the sixteen points the output array holds, at channel ch, the total over every batch
    and position of the squared deviation of the region-entry input array from the region-entry mean array. -/
theorem var_arrAt (c : Dev nD) (ch : Fin 256) :
    ((varDat (F := Ideal) V c).arrAt 2 cfg1.N : S1x256x1.Idx → EReal) (ix3 (0 : Fin 1) ch (0 : Fin 1))
      = Cert.BatchNorm.dev3 (V c main_v0 : S64x256x3136.Idx → EReal) (V c main_v5 : S1x256x1.Idx → EReal) ch := by
  rw [var_final]
  have e := varAt_last V c ⟨15, var_lt15⟩ (show ¬ (15 : ℕ) = 0 by decide) rfl
  show ((varAt V c 15 var_lt15).1 : S1x256x1.Idx → EReal) (ix3 (0 : Fin 1) ch (0 : Fin 1)) = _
  rw [show varAt V c 15 var_lt15 = _ from e]; dsimp only
  rw [varLast_out_eq]
  refine (varStep_apply V c ch ⟨15, var_lt15⟩ _).trans ?_
  refine (congrArg (· + varDevBlock V c ch 15) (varAt_acc V c ch 14 (Nat.lt_of_succ_lt var_lt15))).trans ?_
  rw [← Finset.sum_range_succ (fun t => varDevBlock V c ch t) 15]
  exact varSum_devBlock V c ch

end Final

end Cert.KernelIdeal.Gen

end
-- ==== Proof.KernelIdeal.NormValue.lean ====
/-
  THE VALUE of the normalize launch. After its 32 grid points the output array (64 batches, 256 channels, 3136
  positions; point t writes back batches 2t and 2t + 1, whole, at every point) holds the pointwise normalisation
  ((x − mean)·scale)·gamma + beta of the array the region finds, the four per-channel parameters read off their
  columns at the entry's channel. The steps: the body's one store covers the output block, so what it leaves there is
  the store's payload of the five loaded blocks; at an index the payload is that arithmetic, each column spread along
  the batch and position axes; block t of the input array is batches 2t, 2t + 1 of it, and each parameter window's
  one block is its whole array; so point t writes back block t of the normalised array; and the 32 blocks cover the
  array, batch b lying in block b / 2.
-/
import proofs.«156847_j180388626588_1_alg».proof.Proof.KernelIdeal.NormRegion
import proofs.«156847_j180388626588_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat)

/-! ## The body's one store is its payload -/

section Generic

variable {F : FTy → Type} [FloatOps F]

/-- The zero offsets of a whole-block access over three axes. -/
theorem norm_hz3 : (![0, 0, 0] : Fin 3 → Nat) = fun _ => 0 := funext fun a => by fin_cases a <;> rfl

/-- What the body leaves in the output block's buffer is its store's payload of the five blocks it loaded: the one
    store covers the buffer, and each load reads a whole buffer through zero offsets. -/
theorem normOut_eq (c : Dev nD) (i : grid2.Coords) (arg1 : Memref sig .tc .vmem S2x256x3136 .f32) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .f32) (x1 x2 x3 x4 : Vec F S1x256x1 .f32) :
    normOut c i arg1 harg1 arg2 harg2 arg3 harg3 arg4 harg4 arg5 harg5 arg6 harg6 x0 x1 x2 x3 x4 = k2_pay1 x0 x1 x2 x3 x4 := by
  unfold normOut
  rw [View.read_writes_eq_canon _ _ _ (normOut_cover c i arg1 harg1 arg2 harg2 arg3 harg3 arg4 harg4 arg5 harg5 arg6 harg6 x0 x1 x2 x3 x4)]
  unfold normRun
  dsimp only
  rw [View.canon_unit_zero norm_hz3]
  simp only [View.readAt_eq_ld, harg1.read_unread, harg2.read_unread, harg3.read_unread, harg4.read_unread, harg5.read_unread,
    View.ld_unit_zero (S := S2x256x3136) norm_hz3, View.ld_unit_zero (S := S1x256x1) norm_hz3]

/-! ## The blocks, read off the arrays -/

variable (V : (c : Dev nD) → (b : Ref sig .tc) → Buf (Elt F) ((c : Thread nD τ).loc b))

/-- The printed index maps, decided over the grid: the input and the output block move along the batch axis with the
    point; the four parameter windows stay at block (0, 0, 0). -/
theorem norm_idx : ∀ t : Fin cfg2.N, win2_0.index t (0 : Fin 3) = t.val ∧ win2_0.index t (1 : Fin 3) = 0 ∧ win2_0.index t (2 : Fin 3) = 0
    ∧ win2_5.index t (0 : Fin 3) = t.val ∧ win2_5.index t (1 : Fin 3) = 0 ∧ win2_5.index t (2 : Fin 3) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 3) = 0 ∧ win2_3.index t (1 : Fin 3) = 0 ∧ win2_3.index t (2 : Fin 3) = 0
    ∧ win2_4.index t (0 : Fin 3) = 0 ∧ win2_4.index t (1 : Fin 3) = 0 ∧ win2_4.index t (2 : Fin 3) = 0 :=
  (by decide +kernel : ∀ t : Fin grid2.N, _)

/-- Block `t` of the input array is its batches `2t`, `2t + 1`, every channel and position. -/
theorem normBlk_in_apply (c : Dev nD) (t : Fin cfg2.N) (a : Fin 2) (ch : Fin 256) (s : Fin 3136) :
    (normBlk V c 0 t : S2x256x3136.Idx → Elt F .f32) (ix3 a ch s)
      = (V c main_v0 : S64x256x3136.Idx → Elt F .f32) (ix3 ⟨2 * t.val + a.val, by have := t.isLt; have : cfg2.N = 32 := N_2; omega⟩ ch s) := by
  obtain ⟨e0, e1, e2, -⟩ := norm_idx t
  show V c main_v0 (((cfg2.win 0).blk t).view.emb (ix3 a ch s)) = _
  refine congrArg (V c main_v0) (funext fun d => Fin.ext ?_)
  match d with
  | ⟨0, _⟩ => show win2_0.index t (0 : Fin 3) * 2 + 1 * a.val = 2 * t.val + a.val; omega
  | ⟨1, _⟩ => show win2_0.index t (1 : Fin 3) * 256 + 1 * ch.val = ch.val; omega
  | ⟨2, _⟩ => show win2_0.index t (2 : Fin 3) * 3136 + 1 * s.val = s.val; omega

/-- The mean window's one block is the whole column of means, at every point. -/
theorem normBlk_mean (c : Dev nD) (t : Fin cfg2.N) :
    (normBlk V c 1 t : S1x256x1.Idx → Elt F .f32) = V c main_v5 := by
  obtain ⟨-, -, -, -, -, -, p0, p1, p2, q0, q1, q2, r0, r1, r2, s0, s1, s2⟩ := norm_idx t
  funext j
  show V c main_v5 (((cfg2.win 1).blk t).view.emb j) = V c main_v5 j
  refine congrArg (V c main_v5) (funext fun d => Fin.ext ?_)
  have hj0 : (j 0).val < 1 := (j 0).isLt
  have hj1 : (j 1).val < 256 := (j 1).isLt
  have hj2 : (j 2).val < 1 := (j 2).isLt
  match d with
  | ⟨0, _⟩ => show win2_1.index t (0 : Fin 3) * 1 + 1 * (j 0).val = (j 0).val; omega
  | ⟨1, _⟩ => show win2_1.index t (1 : Fin 3) * 256 + 1 * (j 1).val = (j 1).val; omega
  | ⟨2, _⟩ => show win2_1.index t (2 : Fin 3) * 1 + 1 * (j 2).val = (j 2).val; omega

/-- The same of the column of scales, -/
theorem normBlk_scale (c : Dev nD) (t : Fin cfg2.N) :
    (normBlk V c 2 t : S1x256x1.Idx → Elt F .f32) = V c main_v17 := by
  obtain ⟨-, -, -, -, -, -, p0, p1, p2, q0, q1, q2, r0, r1, r2, s0, s1, s2⟩ := norm_idx t
  funext j
  show V c main_v17 (((cfg2.win 2).blk t).view.emb j) = V c main_v17 j
  refine congrArg (V c main_v17) (funext fun d => Fin.ext ?_)
  have hj0 : (j 0).val < 1 := (j 0).isLt
  have hj1 : (j 1).val < 256 := (j 1).isLt
  have hj2 : (j 2).val < 1 := (j 2).isLt
  match d with
  | ⟨0, _⟩ => show win2_2.index t (0 : Fin 3) * 1 + 1 * (j 0).val = (j 0).val; omega
  | ⟨1, _⟩ => show win2_2.index t (1 : Fin 3) * 256 + 1 * (j 1).val = (j 1).val; omega
  | ⟨2, _⟩ => show win2_2.index t (2 : Fin 3) * 1 + 1 * (j 2).val = (j 2).val; omega

/-- of the column of gains, -/
theorem normBlk_gamma (c : Dev nD) (t : Fin cfg2.N) :
    (normBlk V c 3 t : S1x256x1.Idx → Elt F .f32) = V c main_v20 := by
  obtain ⟨-, -, -, -, -, -, p0, p1, p2, q0, q1, q2, r0, r1, r2, s0, s1, s2⟩ := norm_idx t
  funext j
  show V c main_v20 (((cfg2.win 3).blk t).view.emb j) = V c main_v20 j
  refine congrArg (V c main_v20) (funext fun d => Fin.ext ?_)
  have hj0 : (j 0).val < 1 := (j 0).isLt
  have hj1 : (j 1).val < 256 := (j 1).isLt
  have hj2 : (j 2).val < 1 := (j 2).isLt
  match d with
  | ⟨0, _⟩ => show win2_3.index t (0 : Fin 3) * 1 + 1 * (j 0).val = (j 0).val; omega
  | ⟨1, _⟩ => show win2_3.index t (1 : Fin 3) * 256 + 1 * (j 1).val = (j 1).val; omega
  | ⟨2, _⟩ => show win2_3.index t (2 : Fin 3) * 1 + 1 * (j 2).val = (j 2).val; omega

/-- and of the column of offsets. -/
theorem normBlk_beta (c : Dev nD) (t : Fin cfg2.N) :
    (normBlk V c 4 t : S1x256x1.Idx → Elt F .f32) = V c main_v21 := by
  obtain ⟨-, -, -, -, -, -, p0, p1, p2, q0, q1, q2, r0, r1, r2, s0, s1, s2⟩ := norm_idx t
  funext j
  show V c main_v21 (((cfg2.win 4).blk t).view.emb j) = V c main_v21 j
  refine congrArg (V c main_v21) (funext fun d => Fin.ext ?_)
  have hj0 : (j 0).val < 1 := (j 0).isLt
  have hj1 : (j 1).val < 256 := (j 1).isLt
  have hj2 : (j 2).val < 1 := (j 2).isLt
  match d with
  | ⟨0, _⟩ => show win2_4.index t (0 : Fin 3) * 1 + 1 * (j 0).val = (j 0).val; omega
  | ⟨1, _⟩ => show win2_4.index t (1 : Fin 3) * 256 + 1 * (j 1).val = (j 1).val; omega
  | ⟨2, _⟩ => show win2_4.index t (2 : Fin 3) * 1 + 1 * (j 2).val = (j 2).val; omega

/-- An index of the output block at point `t` names, in the output array, batch `2t + a` at the same channel and position. -/
theorem normOut_emb (t : Fin cfg2.N) (a : Fin 2) (ch : Fin 256) (s : Fin 3136) :
    (((cfg2.win 5).blk t).view.emb (ix3 a ch s) : S64x256x3136.Idx)
      = ix3 ⟨2 * t.val + a.val, by have := t.isLt; have : cfg2.N = 32 := N_2; omega⟩ ch s := by
  obtain ⟨-, -, -, e0, e1, e2, -⟩ := norm_idx t
  refine funext fun d => Fin.ext ?_
  match d with
  | ⟨0, _⟩ => show win2_5.index t (0 : Fin 3) * 2 + 1 * a.val = 2 * t.val + a.val; omega
  | ⟨1, _⟩ => show win2_5.index t (1 : Fin 3) * 256 + 1 * ch.val = ch.val; omega
  | ⟨2, _⟩ => show win2_5.index t (2 : Fin 3) * 3136 + 1 * s.val = s.val; omega

/-- An index of the output array lies in point `t`'s block iff each coordinate is in the block's range on its axis. -/
theorem norm_mem_blk (t : Fin cfg2.N) (i : S64x256x3136.Idx) :
    i ∈ ((cfg2.win 5).blk t).view.set ↔ ∀ a : Fin 3, win2_5.index t a * S2x256x3136.size a ≤ (i a).val ∧ (i a).val < win2_5.index t a * S2x256x3136.size a + S2x256x3136.size a := by
  show i ∈ ((View.whole main_v22).slice (win2_5.rect t)).set ↔ _
  rw [View.set_slice_whole, Rect.mem_set_unit]
  exact Iff.rfl

/-- THE COVER: batch `b` of the output array lies in the block of point `b / 2`, which writes it back. -/
theorem norm_cover (i : S64x256x3136.Idx) : ∃ t : Fin cfg2.N, (cfg2.win 5).flush t = true ∧ i ∈ ((cfg2.win 5).blk t).view.set := by
  have hi0 : (i 0).val < 64 := (i 0).isLt
  have hi1 : (i 1).val < 256 := (i 1).isLt
  have hi2 : (i 2).val < 3136 := (i 2).isLt
  have hN : cfg2.N = 32 := N_2
  obtain ⟨tb, htb⟩ : ∃ tb : Fin cfg2.N, tb.val = (i 0).val / 2 := ⟨⟨(i 0).val / 2, by omega⟩, rfl⟩
  obtain ⟨-, -, -, e0, e1, e2, -⟩ := norm_idx tb
  refine ⟨tb, flush2_5 tb, ?_⟩
  rw [norm_mem_blk]
  intro a
  match a with
  | ⟨0, _⟩ => show win2_5.index tb (0 : Fin 3) * 2 ≤ (i 0).val ∧ (i 0).val < win2_5.index tb (0 : Fin 3) * 2 + 2; omega
  | ⟨1, _⟩ => show win2_5.index tb (1 : Fin 3) * 256 ≤ (i 1).val ∧ (i 1).val < win2_5.index tb (1 : Fin 3) * 256 + 256; omega
  | ⟨2, _⟩ => show win2_5.index tb (2 : Fin 3) * 3136 ≤ (i 2).val ∧ (i 2).val < win2_5.index tb (2 : Fin 3) * 3136 + 3136; omega

end Generic

/-! ## The payload at an index, over the extended reals -/

/-- A per-channel column spread over the block, read at an index: the column at that index's channel. -/
theorem normSpread_apply {α : Type} (x : S1x256x1.Idx → α) (h : S1x256x1.Broadcasts S2x256x3136) (a : Fin 2) (ch : Fin 256) (s : Fin 3136) :
    broadcastTo S2x256x3136 x h (ix3 a ch s) = x (ix3 0 ch 0) :=
  broadcastTo_apply x h (ix3 a ch s) (ix3 0 ch 0) fun d => by
    match d with
    | ⟨0, _⟩ => rfl
    | ⟨1, _⟩ => rfl
    | ⟨2, _⟩ => rfl

/-- The store's payload at batch `a` of the block, channel `ch`, position `s`: the normalisation of the input entry
    there by the four parameters at channel `ch`. -/
theorem normPay_apply (x0 : Vec Ideal S2x256x3136 .f32) (x1 x2 x3 x4 : Vec Ideal S1x256x1 .f32) (a : Fin 2) (ch : Fin 256) (s : Fin 3136) :
    (k2_pay1 x0 x1 x2 x3 x4 (ix3 a ch s) : EReal)
      = (((x0 (ix3 a ch s) : EReal) - x1 (ix3 0 ch 0)) * x2 (ix3 0 ch 0)) * x3 (ix3 0 ch 0) + x4 (ix3 0 ch 0) := by
  unfold k2_pay1
  simp only [shapeCast_self, addf_apply, mulf_apply, subf_apply, normSpread_apply]

/-! ## From blocks to the array -/

variable (V : (c : Dev nD) → (b : Ref sig .tc) → Buf (Elt Ideal) ((c : Thread nD τ).loc b))

/-- The normalised array, of the five arrays as the region finds them. -/
abbrev normed (c : Dev nD) : S64x256x3136.Idx → EReal :=
  Cert.BatchNorm.norm3 (V c main_v0 : S64x256x3136.Idx → EReal) (V c main_v5 : S1x256x1.Idx → EReal) (V c main_v17 : S1x256x1.Idx → EReal) (V c main_v20 : S1x256x1.Idx → EReal) (V c main_v21 : S1x256x1.Idx → EReal)

/-- WHAT POINT `t` WRITES BACK is block `t` of the normalised array. -/
theorem norm_flushed_eq (c : Dev nD) (t : Fin cfg2.N) :
    (normDat (F := Ideal) V c).flushed 5 t = ((cfg2.win 5).blk t).view.read (Elt Ideal) (normed V c) := by
  show (cfg2.win 5).cut (grid2.coords t) ((normDat V c).after 5 t) = _
  rw [normDat_after_5, normOut_eq]
  funext j
  obtain ⟨a, ch, s, rfl⟩ : ∃ (a : Fin 2) (ch : Fin 256) (s : Fin 3136), (j : S2x256x3136.Idx) = ix3 a ch s := ⟨j 0, j 1, j 2, eq_ix3 (n0 := 2) (n1 := 256) (n2 := 3136) j⟩
  show (k2_pay1 (normBlk V c 0 t) (normBlk V c 1 t) (normBlk V c 2 t) (normBlk V c 3 t) (normBlk V c 4 t) (ix3 a ch s) : EReal)
    = normed V c (((cfg2.win 5).blk t).view.emb (ix3 a ch s))
  rw [normPay_apply, normBlk_in_apply, normBlk_mean, normBlk_scale, normBlk_gamma, normBlk_beta, normOut_emb]
  exact (Cert.BatchNorm.norm3_ix3 _ _ _ _ _ _ ch s).symm

/-- THE ARRAY after the launch: the normalised array. -/
theorem norm_arrAt (c : Dev nD) :
    ((normDat (F := Ideal) V c).arrAt 5 cfg2.N : S64x256x3136.Idx → EReal)
      = Cert.BatchNorm.norm3 (V c main_v0 : S64x256x3136.Idx → EReal) (V c main_v5 : S1x256x1.Idx → EReal) (V c main_v17 : S1x256x1.Idx → EReal) (V c main_v20 : S1x256x1.Idx → EReal) (V c main_v21 : S1x256x1.Idx → EReal) :=
  (normDat (F := Ideal) V c).arrAt_eq_of_cover 5 (normed V c) (fun t _ => norm_flushed_eq V c t) norm_cover

end Cert.KernelIdeal.Gen

end
-- ==== Proof.KernelIdeal.HostValues.lean ====
/-
  THE HOST STRETCHES READ AT AN INDEX, over the extended reals. Between the three launches the program reshapes the
  input to three axes, divides the channel totals by the count, forms the scale 1 / sqrt(variance + eps), lays gamma
  and beta out as columns, and reshapes the result back to four axes. Each value a stretch computes is read here at
  one index from the contents the stretch found; a change of float format is the identity, a reshape moves an index
  to the index with the same row-major position, a broadcast of a scalar reads the scalar. The buffers a stretch or
  a launch does not write are carried across unchanged.
-/
import proofs.«156847_j180388626588_1_alg».proof.Proof.KernelIdeal.MainRun
import proofs.«156847_j180388626588_1_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Gen

open Idealize.ShloMosaic Idealize.ShloMosaic.TcCoe Idealize.ShloMosaic.StableHlo
open Idealize.ShloMosaic.ValueIdx Cert.BatchNorm

variable (m : (ℓ : Loc nD τ sig) → Buf (Elt Ideal) ℓ) (c : Dev nD)

/-- A scalar broadcast to a column holds the scalar at every index. -/
private theorem bcastConst_apply (w : BitVec FTy.f32.bits) (i : S1x256x1.Idx) :
    broadcastInDim S1x256x1 ![] bcast_S_S1x256x1 (constant (F := Ideal) S_ .f32 w) i = Ideal.ofBits .f32 w := by
  rw [broadcastInDim_apply _ bcast_S_S1x256x1 _ i ix0 (fun a => a.elim0)]
  rfl

/-- A vector of 256 laid out as a column: the column's entry `(0, ch, 0)` is the vector's entry `ch`. -/
private theorem column_apply (x : S256.Idx → EReal) (ch : Fin 256) :
    shapeCast S1x256x1 x shapeCasts_S256_S1x256x1 (ix3 0 ch 0) = x (ix1 ch) := by
  refine shapeCast_apply (s := S256) (t := S1x256x1) x shapeCasts_S256_S1x256x1 _ _ ?_
  rw [Shape.rowMajor_val_one, Shape.rowMajor_val_three]
  show ch.val = (0 * 256 + ch.val) * 1 + 0
  omega

/-- No operation of the stretch writes the buffer: each operation writes one buffer, and it is another one. -/
local macro "not_written" : tactic => `(tactic| (
  simp only [hostOps0, hostOps1, hostOps2, hostOps3, List.Forall, StableHlo.nullary_writes, StableHlo.unary_writes,
    StableHlo.binary_writes, StableHlo.reshape_writes, Finset.mem_singleton]
  repeat' apply And.intro
  all_goals exact StableHlo.devRef_ne_of_ne (by decide)))

/-! ## The first stretch: the input on three axes -/

/-- The reshaped input at batch `b`, channel `ch`, flat position `s` is the input at row `s / 56`, column `s % 56`:
the two indices have the same row-major position. -/
theorem W1_v0 (b : Fin 64) (ch : Fin 256) (s : Fin 3136) :
    (W1 m c main_v0 : S64x256x3136.Idx → EReal) (ix3 b ch s)
      = (W0 m c main_arg0 : S64x256x56x56.Idx → EReal)
          (ix4 b ch ⟨s.val / 56, by omega⟩ ⟨s.val % 56, Nat.mod_lt _ (by decide)⟩) := by
  show StableHlo.after hostOps0 (W0 m c) (Proc.devRef .tc main_v0) (ix3 b ch s) = _
  after_results
  generalize W0 m c (Proc.devRef .tc main_arg0) = y
  refine shapeCast_apply (s := S64x256x56x56) (t := S64x256x3136) y shapeCasts_S64x256x56x56_S64x256x3136 _ _ ?_
  rw [Shape.rowMajor_val_four, Shape.rowMajor_val_three]
  have hb := b.isLt; have hc := ch.isLt; have hs := s.isLt
  show ((b.val * 256 + ch.val) * 56 + s.val / 56) * 56 + s.val % 56 = (b.val * 256 + ch.val) * 3136 + s.val
  omega

/-! ## The second stretch: the mean -/

/-- The mean column at channel `ch` is the channel total divided by the count: the count is a scalar broadcast, and
the round trip through the shorter format is the identity. -/
theorem W3_v5 (ch : Fin 256) :
    (W3 m c main_v5 : S1x256x1.Idx → EReal) (ix3 0 ch 0)
      = Ideal.div ((W2 m c main_v1 : S1x256x1.Idx → EReal) (ix3 0 ch 0)) count := by
  show StableHlo.after hostOps1 (W2 m c) (Proc.devRef .tc main_v5) (ix3 0 ch 0) = _
  after_results
  show Ideal.div (W2 m c (Proc.devRef .tc main_v1) (ix3 0 ch 0))
      (broadcastInDim S1x256x1 ![] bcast_S_S1x256x1 (constant (F := Ideal) S_ .f32 0x48440000#32) (ix3 0 ch 0)) = _
  rw [bcastConst_apply]
  rfl

/-- The input on three axes passes the first launch, which reads it only, and the second stretch, which does not write it. -/
theorem W3_v0 : W3 m c main_v0 = W1 m c main_v0 :=
  calc W3 m c (Proc.devRef .tc main_v0)
    _ = W2 m c (Proc.devRef .tc main_v0) := host_keeps (b := main_v0) hostOps1 _ (by not_written)
    _ = W1 m c (Proc.devRef .tc main_v0) :=
          (W2_arr m c 0).trans (((sumDat (V1 m) c).arrAt_in 0 rfl _).trans (sumDat_A (V1 m) c 0))

/-! ## The third stretch: the scale, and gamma and beta as columns -/

/-- The scale column at channel `ch` is one over the square root of the variance plus eps, the variance the total of
the squared deviations divided by the count: three scalars broadcast, two round trips through the shorter format. -/
theorem W5_v17 (ch : Fin 256) :
    (W5 m c main_v17 : S1x256x1.Idx → EReal) (ix3 0 ch 0)
      = Ideal.div one (Ideal.sqrt (Ideal.div ((W4 m c main_v6 : S1x256x1.Idx → EReal) (ix3 0 ch 0)) count + eps)) := by
  show StableHlo.after hostOps2 (W4 m c) (Proc.devRef .tc main_v17) (ix3 0 ch 0) = _
  after_results
  show Ideal.div
      (broadcastInDim S1x256x1 ![] bcast_S_S1x256x1 (constant (F := Ideal) S_ .f32 0x3F800000#32) (ix3 0 ch 0))
      (Ideal.sqrt (Ideal.div (W4 m c (Proc.devRef .tc main_v6) (ix3 0 ch 0))
          (broadcastInDim S1x256x1 ![] bcast_S_S1x256x1 (constant (F := Ideal) S_ .f32 0x48440000#32) (ix3 0 ch 0))
        + broadcastInDim S1x256x1 ![] bcast_S_S1x256x1 (constant (F := Ideal) S_ .f32 0x3727C5AC#32) (ix3 0 ch 0))) = _
  rw [bcastConst_apply, bcastConst_apply, bcastConst_apply]
  rfl

/-- The gamma column at channel `ch` is gamma at `ch`. -/
theorem W5_v20 (ch : Fin 256) :
    (W5 m c main_v20 : S1x256x1.Idx → EReal) (ix3 0 ch 0) = (W4 m c main_arg1 : S256.Idx → EReal) (ix1 ch) := by
  show StableHlo.after hostOps2 (W4 m c) (Proc.devRef .tc main_v20) (ix3 0 ch 0) = _
  after_results
  exact column_apply _ ch

/-- The beta column at channel `ch` is beta at `ch`. -/
theorem W5_v21 (ch : Fin 256) :
    (W5 m c main_v21 : S1x256x1.Idx → EReal) (ix3 0 ch 0) = (W4 m c main_arg2 : S256.Idx → EReal) (ix1 ch) := by
  show StableHlo.after hostOps2 (W4 m c) (Proc.devRef .tc main_v21) (ix3 0 ch 0) = _
  after_results
  exact column_apply _ ch

/-- The mean column passes the second launch, which reads it only, and the third stretch, which does not write it. -/
theorem W5_v5 : W5 m c main_v5 = W3 m c main_v5 :=
  calc W5 m c (Proc.devRef .tc main_v5)
    _ = W4 m c (Proc.devRef .tc main_v5) := host_keeps (b := main_v5) hostOps2 _ (by not_written)
    _ = W3 m c (Proc.devRef .tc main_v5) :=
          (W4_arr m c 1).trans (((varDat (V3 m) c).arrAt_in 1 rfl _).trans (varDat_A (V3 m) c 1))

/-- The input on three axes passes the second launch and the third stretch the same way. -/
theorem W5_v0 : W5 m c main_v0 = W1 m c main_v0 :=
  calc W5 m c (Proc.devRef .tc main_v0)
    _ = W4 m c (Proc.devRef .tc main_v0) := host_keeps (b := main_v0) hostOps2 _ (by not_written)
    _ = W3 m c (Proc.devRef .tc main_v0) :=
          (W4_arr m c 0).trans (((varDat (V3 m) c).arrAt_in 0 rfl _).trans (varDat_A (V3 m) c 0))
    _ = W1 m c (Proc.devRef .tc main_v0) := W3_v0 m c

/-- Gamma is as launched when the third stretch begins: no stretch writes it and it is no launch's window. -/
theorem W4_arg1 : W4 m c main_arg1 = W0 m c main_arg1 :=
  calc W4 m c (Proc.devRef .tc main_arg1)
    _ = W3 m c (Proc.devRef .tc main_arg1) := W4_of_ne m c main_arg1 (by decide)
    _ = W2 m c (Proc.devRef .tc main_arg1) := host_keeps (b := main_arg1) hostOps1 _ (by not_written)
    _ = W1 m c (Proc.devRef .tc main_arg1) := W2_of_ne m c main_arg1 (by decide)
    _ = W0 m c (Proc.devRef .tc main_arg1) := host_keeps (b := main_arg1) hostOps0 _ (by not_written)

/-- Beta likewise. -/
theorem W4_arg2 : W4 m c main_arg2 = W0 m c main_arg2 :=
  calc W4 m c (Proc.devRef .tc main_arg2)
    _ = W3 m c (Proc.devRef .tc main_arg2) := W4_of_ne m c main_arg2 (by decide)
    _ = W2 m c (Proc.devRef .tc main_arg2) := host_keeps (b := main_arg2) hostOps1 _ (by not_written)
    _ = W1 m c (Proc.devRef .tc main_arg2) := W2_of_ne m c main_arg2 (by decide)
    _ = W0 m c (Proc.devRef .tc main_arg2) := host_keeps (b := main_arg2) hostOps0 _ (by not_written)

/-! ## The last stretch: the result on four axes -/

/-- The result at batch `b`, channel `ch`, row `h`, column `w` is the three-axis result at the flat position
`56·h + w`: the two indices have the same row-major position. -/
theorem W7_v23 (b : Fin 64) (ch : Fin 256) (h w : Fin 56) :
    (W7 m c main_v23 : S64x256x56x56.Idx → EReal) (ix4 b ch h w)
      = (W6 m c main_v22 : S64x256x3136.Idx → EReal) (ix3 b ch ⟨56 * h.val + w.val, by omega⟩) := by
  show StableHlo.after hostOps3 (W6 m c) (Proc.devRef .tc main_v23) (ix4 b ch h w) = _
  after_results
  generalize W6 m c (Proc.devRef .tc main_v22) = y
  refine shapeCast_apply (s := S64x256x3136) (t := S64x256x56x56) y shapeCasts_S64x256x3136_S64x256x56x56 _ _ ?_
  rw [Shape.rowMajor_val_three, Shape.rowMajor_val_four]
  have hb := b.isLt; have hc := ch.isLt; have hh := h.isLt; have hw := w.isLt
  show (b.val * 256 + ch.val) * 3136 + (56 * h.val + w.val) = ((b.val * 256 + ch.val) * 56 + h.val) * 56 + w.val
  omega

end Cert.KernelIdeal.Gen

end
-- ==== Proof.Assemble.lean ====
/-
  THE ASSEMBLY of the kernel's side. Given that the three-axis array is the four-axis input with its two spatial axes
  flattened row-major, that the columns of totals, means, deviations' totals and scales are what the three-axis
  functions of the specification say, and that the result is read back by the same flattening, the result over four
  axes is the batch normalisation G. The three-axis channel totals become the four-axis ones by the reshape law; the
  mean, the variance and the scale follow one from the other; the float literals stay folded.
-/
import proofs.«156847_j180388626588_1_alg».proof.Proof.Spec

open scoped BigOperators

noncomputable section

namespace Cert.BatchNorm

open Idealize.ShloMosaic Idealize.ShloMosaic.ValueIdx

/-- The three-axis array at the flat spatial index 56·h + w is the input at (h, w). -/
theorem X3_at (X : In4.Idx → EReal) (X3 : In3.Idx → EReal)
    (hX3 : ∀ (b : Fin 64) (ch : Fin 256) (s : Fin 3136), X3 (ix3 b ch s) = X (ix4 b ch ⟨s.val / 56, by omega⟩ ⟨s.val % 56, Nat.mod_lt _ (by decide)⟩))
    (b : Fin 64) (ch : Fin 256) (h w : Fin 56) :
    X3 (ix3 b ch ⟨56 * h.val + w.val, by omega⟩) = X (ix4 b ch h w) := by
  rw [hX3]
  refine congrArg X (funext fun a => ?_)
  match a with
  | ⟨0, _⟩ => rfl
  | ⟨1, _⟩ => rfl
  | ⟨2, _⟩ => exact Fin.ext (by show (56 * h.val + w.val) / 56 = h.val; omega)
  | ⟨3, _⟩ => exact Fin.ext (by show (56 * h.val + w.val) % 56 = w.val; omega)

/-- The three-axis channel total of the flattened array is the four-axis channel total of the input. -/
theorem tot3_eq (X : In4.Idx → EReal) (X3 : In3.Idx → EReal)
    (hX3 : ∀ (b : Fin 64) (ch : Fin 256) (s : Fin 3136), X3 (ix3 b ch s) = X (ix4 b ch ⟨s.val / 56, by omega⟩ ⟨s.val % 56, Nat.mod_lt _ (by decide)⟩))
    (ch : Fin 256) : tot3 X3 ch = chanSum X ch := by
  rw [← tot3_reshape X ch]
  unfold tot3
  exact Finset.sum_congr rfl fun b _ => Finset.sum_congr rfl fun s _ => hX3 b ch s

/-- The three-axis total of squared deviations from a column holding the channel mean is the four-axis channel total
    of the squared deviations from that mean. -/
theorem dev3_eq (X : In4.Idx → EReal) (X3 : In3.Idx → EReal)
    (hX3 : ∀ (b : Fin 64) (ch : Fin 256) (s : Fin 3136), X3 (ix3 b ch s) = X (ix4 b ch ⟨s.val / 56, by omega⟩ ⟨s.val % 56, Nat.mod_lt _ (by decide)⟩))
    (μ : Col.Idx → EReal) (ch : Fin 256) (hm : μ (ix3 0 ch 0) = meanOf X ch) :
    dev3 X3 μ ch = chanSum (fun i => (X i - meanOf X ch) * (X i - meanOf X ch)) ch := by
  rw [← tot3_reshape (fun i => (X i - meanOf X ch) * (X i - meanOf X ch)) ch]
  unfold dev3 tot3
  refine Finset.sum_congr rfl fun b _ => Finset.sum_congr rfl fun s _ => ?_
  rw [hX3 b ch s, hm]

/-- THE ASSEMBLY. -/
theorem assemble (X : In4.Idx → EReal) (γ β : Chan.Idx → EReal)
    (X3 : In3.Idx → EReal)
    (hX3 : ∀ (b : Fin 64) (ch : Fin 256) (s : Fin 3136), X3 (ix3 b ch s) = X (ix4 b ch ⟨s.val / 56, by omega⟩ ⟨s.val % 56, Nat.mod_lt _ (by decide)⟩))
    (tot dev μ sc γ3 β3 : Col.Idx → EReal)
    (htot : ∀ ch : Fin 256, tot (ix3 0 ch 0) = tot3 X3 ch)
    (hμ : ∀ ch : Fin 256, μ (ix3 0 ch 0) = Ideal.div (tot (ix3 0 ch 0)) count)
    (hdev : ∀ ch : Fin 256, dev (ix3 0 ch 0) = dev3 X3 μ ch)
    (hsc : ∀ ch : Fin 256, sc (ix3 0 ch 0) = Ideal.div one (Ideal.sqrt (Ideal.div (dev (ix3 0 ch 0)) count + eps)))
    (hγ : ∀ ch : Fin 256, γ3 (ix3 0 ch 0) = γ (ix1 ch)) (hβ : ∀ ch : Fin 256, β3 (ix3 0 ch 0) = β (ix1 ch))
    (out3 : In3.Idx → EReal) (hout3 : out3 = norm3 X3 μ sc γ3 β3)
    (out4 : In4.Idx → EReal)
    (hout4 : ∀ (b : Fin 64) (ch : Fin 256) (h w : Fin 56), out4 (ix4 b ch h w) = out3 (ix3 b ch ⟨56 * h.val + w.val, by omega⟩)) :
    out4 = G X γ β := by
  -- the column of means holds the channel means
  have mean_eq : ∀ ch : Fin 256, μ (ix3 0 ch 0) = meanOf X ch := fun ch => by
    rw [hμ, htot, tot3_eq X X3 hX3]; rfl
  -- the deviations' totals over the count are the channel variances
  have var_eq : ∀ ch : Fin 256, Ideal.div (dev (ix3 0 ch 0)) count = varOf X ch := fun ch => by
    rw [hdev, dev3_eq X X3 hX3 μ ch (mean_eq ch)]; rfl
  -- the column of scales holds the channel scales
  have scale_eq : ∀ ch : Fin 256, sc (ix3 0 ch 0) = scaleOf X ch := fun ch => by
    rw [hsc, var_eq]; rfl
  funext i
  obtain ⟨b, ch, h, w, rfl⟩ : ∃ (b : Fin 64) (ch : Fin 256) (h w : Fin 56), i = ix4 b ch h w :=
    ⟨i 0, i 1, i 2, i 3, eq_ix4 i⟩
  rw [hout4, hout3, norm3_ix3, G_ix4]
  unfold normAt outAt
  rw [X3_at X X3 hX3, mean_eq, scale_eq, hγ, hβ]

end Cert.BatchNorm

end
-- ==== Proof.KernelIdeal.Result.lean ====
/-
  THE KERNEL'S RESULT at the ideal instance: the array the program returns is the specification's function of the
  three argument arrays. The three launches are read by what they leave in their output arrays (the channel totals;
  the channel totals of squared deviations from the mean column; the pointwise normalisation from the parameter
  columns), the host stretches by what they write (the reshapes; the mean as total over count; the scale as
  one over the square root of variance plus eps; gamma and beta as columns), and the pieces are joined by the
  assembly lemma of the specification.
-/
import proofs.«156847_j180388626588_1_alg».proof.Proof.KernelIdeal.MainRun
import proofs.«156847_j180388626588_1_alg».proof.Proof.KernelIdeal.SumValue
import proofs.«156847_j180388626588_1_alg».proof.Proof.KernelIdeal.VarValue
import proofs.«156847_j180388626588_1_alg».proof.Proof.KernelIdeal.NormValue
import proofs.«156847_j180388626588_1_alg».proof.Proof.KernelIdeal.HostValues
import proofs.«156847_j180388626588_1_alg».proof.Proof.Assemble

noncomputable section

namespace Cert.KernelIdeal.Gen

open Idealize.ShloMosaic Idealize.ShloMosaic.TcCoe Idealize.ShloMosaic.ValueIdx
open Idealize.SL.Sem

variable (m : (ℓ : Loc nD τ sig) → Buf (Elt Ideal) ℓ) (c : Dev nD)

/-- The result buffer after the run is the specification at the launch contents of the three arguments. -/
theorem result_eq :
    (W7 m c main_v23 : S64x256x56x56.Idx → EReal)
      = Cert.BatchNorm.G (W0 m c main_arg0 : S64x256x56x56.Idx → EReal) (W0 m c main_arg1 : S256.Idx → EReal) (W0 m c main_arg2 : S256.Idx → EReal) := by
  refine Cert.BatchNorm.assemble (W0 m c main_arg0 : S64x256x56x56.Idx → EReal) (W0 m c main_arg1 : S256.Idx → EReal) (W0 m c main_arg2 : S256.Idx → EReal)
    (W1 m c main_v0 : S64x256x3136.Idx → EReal) (W1_v0 m c)
    (W2 m c main_v1 : S1x256x1.Idx → EReal) (W4 m c main_v6 : S1x256x1.Idx → EReal) (W3 m c main_v5 : S1x256x1.Idx → EReal)
    (W5 m c main_v17 : S1x256x1.Idx → EReal) (W5 m c main_v20 : S1x256x1.Idx → EReal) (W5 m c main_v21 : S1x256x1.Idx → EReal)
    ?htot (W3_v5 m c) ?hdev (W5_v17 m c) ?hγ ?hβ
    (W6 m c main_v22 : S64x256x3136.Idx → EReal) ?hout3
    (W7 m c main_v23 : S64x256x56x56.Idx → EReal) (W7_v23 m c)
  case htot =>
    intro ch
    rw [show (W2 m c main_v1 : S1x256x1.Idx → EReal) = (sumDat (F := Ideal) (V1 m) c).arrAt 1 cfg0.N from W2_arr m c 1]
    exact sum_arrAt (V1 m) c ch
  case hdev =>
    intro ch
    rw [show (W4 m c main_v6 : S1x256x1.Idx → EReal) = (varDat (F := Ideal) (V3 m) c).arrAt 2 cfg1.N from W4_arr m c 2]
    rw [var_arrAt (V3 m) c ch]
    rw [show (V3 m c main_v0 : S64x256x3136.Idx → EReal) = (W1 m c main_v0 : S64x256x3136.Idx → EReal) from W3_v0 m c]
  case hγ =>
    intro ch
    rw [W5_v20 m c ch, W4_arg1 m c]
  case hβ =>
    intro ch
    rw [W5_v21 m c ch, W4_arg2 m c]
  case hout3 =>
    rw [show (W6 m c main_v22 : S64x256x3136.Idx → EReal) = (normDat (F := Ideal) (V5 m) c).arrAt 5 cfg2.N from W6_arr m c 5]
    rw [norm_arrAt (V5 m) c]
    rw [show (V5 m c main_v0 : S64x256x3136.Idx → EReal) = (W1 m c main_v0 : S64x256x3136.Idx → EReal) from W5_v0 m c,
      show (V5 m c main_v5 : S1x256x1.Idx → EReal) = (W3 m c main_v5 : S1x256x1.Idx → EReal) from W5_v5 m c]

end Cert.KernelIdeal.Gen

end
-- ==== Proof.RefSide.lean ====
/-
  The reference's side: its run read back (generated) and, below, that its result is the specification.
  The reference's two sums over the batch and both spatial axes are read, at the ideal values, as the
  channel total of the specification; every other stage is read at an index from its operands, and the
  format changes are the identity on extended reals.
-/
import proofs.«156847_j180388626588_1_alg».proof.Proof.Gen.ReferenceIdeal.Run
import proofs.«156847_j180388626588_1_alg».proof.Proof.Gen.ReferenceIdeal.Read
import proofs.«156847_j180388626588_1_alg».proof.Proof.Spec
import proofs.«156847_j180388626588_1_alg».proof.Proof.LibSumIdx
import Idealize.ShloMosaic.Lib.ValueIdx
import Idealize.ShloMosaic.Lib.IdealHost
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The sum over the batch and both spatial axes, read at a channel -/

/-- Dropping the batch and the two spatial coordinates of a four-axis index leaves its channel. -/
theorem drop_ix4 (hr : S64x256x56x56.ReducesTo [0, 2, 3] S256) (b : Fin 64) (c : Fin 256) (h w : Fin 56) :
    hr.drop (ix4 b c h w) = ix1 c := by
  funext a
  match a with
  | ⟨0, _⟩ => exact Fin.ext (hr.drop_apply_val_of_eq (ix4 b c h w) ⟨0, by decide⟩ ⟨1, by decide⟩)

/-- So an index reduces to channel c exactly when its own channel is c. -/
theorem drop_ix4_eq_iff (hr : S64x256x56x56.ReducesTo [0, 2, 3] S256) (b : Fin 64) (c' c : Fin 256) (h w : Fin 56) :
    hr.drop (ix4 b c' h w) = ix1 c ↔ c' = c := by
  rw [drop_ix4]
  constructor
  · intro e; exact congrFun e ⟨0, by decide⟩
  · intro e; rw [e]

/-- The host's sum over axes 0, 2 and 3 of a [64, 256, 56, 56] array, at channel c: the initial value plus the
    threefold sum over the batch and the two spatial coordinates. -/
theorem hostReduceAdd_chan (hr : S64x256x56x56.ReducesTo [0, 2, 3] S256) (x : S64x256x56x56.Idx → EReal) (init : EReal)
    (c : Fin 256) :
    Ideal.hostReduceAdd hr x init (ix1 c) = init + ∑ b : Fin 64, ∑ h : Fin 56, ∑ w : Fin 56, x (ix4 b c h w) := by
  unfold Ideal.hostReduceAdd
  congr 1
  rw [Finset.sum_filter, Cert.LibSumIdx.sum_idx4]
  refine Finset.sum_congr rfl fun b _ => ?_
  simp only [drop_ix4_eq_iff]
  rw [Finset.sum_eq_single c]
  · simp only [if_true]
  · intro c' _ hne
    simp only [if_neg hne, Finset.sum_const_zero]
  · intro hc; exact absurd (Finset.mem_univ c) hc

/-! ## Indices: a reshape of a column read under a broadcast along the batch and the spatial axes -/

/-- The per-channel row of the [1, 256, 1, 1] column that a four-axis index reads is its channel (the mean's chain). -/
theorem idx_v11_v12 (b : Fin 64) (c : Fin 256) (h w : Fin 56) : idx_main_v11 (idx_main_v12 (ix4 b c h w)) = ix1 c := by
  funext a
  match a with
  | ⟨0, _⟩ => exact Fin.ext (by show ((0 * 256 + c.val) * 1 + 0) * 1 + 0 = c.val; omega)

theorem idx_v11_v30 (b : Fin 64) (c : Fin 256) (h w : Fin 56) : idx_main_v11 (idx_main_v30 (ix4 b c h w)) = ix1 c := by
  funext a
  match a with
  | ⟨0, _⟩ => exact Fin.ext (by show ((0 * 256 + c.val) * 1 + 0) * 1 + 0 = c.val; omega)

theorem idx_v24_v32 (b : Fin 64) (c : Fin 256) (h w : Fin 56) : idx_main_v24 (idx_main_v32 (ix4 b c h w)) = ix1 c := by
  funext a
  match a with
  | ⟨0, _⟩ => exact Fin.ext (by show ((0 * 256 + c.val) * 1 + 0) * 1 + 0 = c.val; omega)

theorem idx_v4_v36 (b : Fin 64) (c : Fin 256) (h w : Fin 56) : idx_main_v4 (idx_main_v36 (ix4 b c h w)) = ix1 c := by
  funext a
  match a with
  | ⟨0, _⟩ => exact Fin.ext (by show ((0 * 256 + c.val) * 1 + 0) * 1 + 0 = c.val; omega)

theorem idx_v5_v40 (b : Fin 64) (c : Fin 256) (h w : Fin 56) : idx_main_v5 (idx_main_v40 (ix4 b c h w)) = ix1 c := by
  funext a
  match a with
  | ⟨0, _⟩ => exact Fin.ext (by show ((0 * 256 + c.val) * 1 + 0) * 1 + 0 = c.val; omega)

/-! ## The stages, read at the ideal values -/

section Stages

variable (X : FVec Ideal S64x256x56x56 .f32) (γ β : FVec Ideal S256 .f32)

/-- The input's round trip through the narrow format is the input. -/
theorem v1_eq : val_main_v1 (F := Ideal) X = X := rfl

/-- The first reduction divided by the count: the channel mean. -/
theorem v10_ix1 (c : Fin 256) : val_main_v10 (F := Ideal) X (ix1 c) = Cert.BatchNorm.meanOf X c := by
  rw [val_main_v10_apply, val_main_v9_apply, val_main_v8_apply, val_main_v7_apply, val_main_cst_0_apply]
  unfold val_main_v6
  rw [hostReduceAdd_apply, v1_eq, hostReduceAdd_chan, val_main_cst_apply, Ideal.ofBits_def, Ideal.ofBits_zero_f32, zero_add]
  rfl

/-- The mean broadcast back over the array, for the squared deviations … -/
theorem v12_ix4 (b : Fin 64) (c : Fin 256) (h w : Fin 56) :
    val_main_v12 (F := Ideal) X (ix4 b c h w) = Cert.BatchNorm.meanOf X c := by
  rw [val_main_v12_apply, val_main_v11_apply, idx_v11_v12, v10_ix1]

/-- … and again for the normalisation. -/
theorem v30_ix4 (b : Fin 64) (c : Fin 256) (h w : Fin 56) :
    val_main_v30 (F := Ideal) X (ix4 b c h w) = Cert.BatchNorm.meanOf X c := by
  rw [val_main_v30_apply, val_main_v11_apply, idx_v11_v30, v10_ix1]

/-- The squared deviation from the channel mean at one entry. -/
theorem v16_ix4 (b : Fin 64) (c : Fin 256) (h w : Fin 56) :
    val_main_v16 (F := Ideal) X (ix4 b c h w)
      = (X (ix4 b c h w) - Cert.BatchNorm.meanOf X c) * (X (ix4 b c h w) - Cert.BatchNorm.meanOf X c) := by
  rw [val_main_v16_apply, val_main_v15_apply, val_main_v14_apply, val_main_v13_apply, v12_ix4, v1_eq]
  rfl

/-- The second reduction: the channel total of the squared deviations. -/
theorem v17_ix1 (c : Fin 256) :
    val_main_v17 (F := Ideal) X (ix1 c)
      = Cert.BatchNorm.chanSum (fun i => (X i - Cert.BatchNorm.meanOf X c) * (X i - Cert.BatchNorm.meanOf X c)) c := by
  unfold val_main_v17
  rw [hostReduceAdd_apply, hostReduceAdd_chan, val_main_cst_1_apply, Ideal.ofBits_def, Ideal.ofBits_zero_f32, zero_add]
  unfold Cert.BatchNorm.chanSum
  exact Finset.sum_congr rfl fun b _ => Finset.sum_congr rfl fun h _ => Finset.sum_congr rfl fun w _ => v16_ix4 X b c h w

/-- Divided by the count: the channel variance. -/
theorem v23_ix1 (c : Fin 256) : val_main_v23 (F := Ideal) X (ix1 c) = Cert.BatchNorm.varOf X c := by
  rw [val_main_v23_apply, val_main_v22_apply, val_main_v21_apply, val_main_v20_apply, val_main_cst_2_apply,
    val_main_v19_apply, val_main_v18_apply, v17_ix1]
  rfl

/-- One over the square root of the variance plus eps: the channel scale, where a four-axis index reads it. -/
theorem v29_at (b : Fin 64) (c : Fin 256) (h w : Fin 56) :
    val_main_v29 (F := Ideal) X (idx_main_v32 (ix4 b c h w)) = Cert.BatchNorm.scaleOf X c := by
  rw [val_main_v29_apply, val_main_v28_apply, val_main_cst_4_apply, val_main_v27_apply, val_main_v26_apply,
    val_main_v25_apply, val_main_cst_3_apply, val_main_v24_apply, idx_v24_v32, v23_ix1]
  rfl

/-- THE REFERENCE IS THE SPECIFICATION: the reference's result, as a function of the input, the weight and the bias,
    is the batch normalisation G. -/
theorem ref_is_G : val_main_v43 (F := Ideal) X γ β = Cert.BatchNorm.G X γ β := by
  funext i
  obtain ⟨b, c, h, w, rfl⟩ : ∃ (b : Fin 64) (c : Fin 256) (h w : Fin 56), i = ix4 b c h w :=
    ⟨i 0, i 1, i 2, i 3, eq_ix4 i⟩
  rw [Cert.BatchNorm.G_ix4, val_main_v43_apply, val_main_v42_apply, val_main_v41_apply, val_main_v39_apply,
    val_main_v38_apply, val_main_v37_apply, val_main_v35_apply, val_main_v34_apply, val_main_v33_apply,
    val_main_v31_apply, v30_ix4, val_main_v32_apply, v29_at, val_main_v36_apply, val_main_v4_apply, idx_v4_v36,
    val_main_v3_apply, val_main_v2_apply, val_main_v40_apply, val_main_v5_apply, idx_v5_v40, v1_eq]
  rfl

end Stages

end Cert.ReferenceIdeal.RefValue

end
-- ==== Proof.lean ====
/-
  The certificate's proof. The kernel's program is a batch normalisation forward in three launches — the channel
  totals, the channel totals of squared deviations from the mean, the pointwise normalisation — between stretches
  of host operations; the reference computes the same with whole-array operations. The two programs differ only
  in tiling and in the grouping of the two sums (sixteen blocks of four batches over a flattened spatial axis,
  against one sum over batch and both spatial axes), and addition of extended reals is commutative and associative,
  so at the ideal instance both end with the same function of the arguments (the specification `Cert.BatchNorm.G`).
  The three frames: the word-level and the idealized kernel programs by the run of their segments, read at the
  argument arrays; the reference by its run. Each removed bf16 round trip is the identity at the ideal instance.
-/
import proofs.«156847_j180388626588_1_alg».proof.Defs
import proofs.«156847_j180388626588_1_alg».proof.Proof.Gen.Kernel
import proofs.«156847_j180388626588_1_alg».proof.Proof.Gen.KernelIdeal
import proofs.«156847_j180388626588_1_alg».proof.Proof.Gen.ReferenceIdeal
import proofs.«156847_j180388626588_1_alg».proof.Proof.Gen.Pre_finite_inputs
import proofs.«156847_j180388626588_1_alg».proof.Proof.Kernel.MainRun
import proofs.«156847_j180388626588_1_alg».proof.Proof.KernelIdeal.Result
import proofs.«156847_j180388626588_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel :=
  fun m ρ _ => Cert.Kernel.Gen.frame_all m ρ

/-- So does the idealized kernel program. -/
theorem frame_kernelIdeal : Cert.frame_KernelIdeal :=
  fun m ρ _ => Cert.KernelIdeal.Gen.frame_all m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Each bf16 round trip the ideal pass removed is the identity at the ideal instance. -/
theorem preserves : Cert.preserves_Kernel_KernelIdeal :=
  ⟨IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

/-- Both idealized programs end with the specification's function of the (agreeing) arguments. -/
theorem algebraic : Cert.algebraic_KernelIdeal_ReferenceIdeal := by
  intro m ρ m' ρ' _ hagree
  refine ⟨fun c => Cert.BatchNorm.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.Gen.run_all m ρ)
    · exact (h c _ (Cert.KernelIdeal.Gen.mem_uc Cert.KernelIdeal.main_v23 (by decide))).trans (Cert.KernelIdeal.Gen.result_eq m c)
    · exact (h c _ (Cert.KernelIdeal.Gen.mem_uc Cert.KernelIdeal.main_arg0 (by decide))).trans (Cert.KernelIdeal.Gen.W7_main_arg0 m c)
    · exact (h c _ (Cert.KernelIdeal.Gen.mem_uc Cert.KernelIdeal.main_arg1 (by decide))).trans (Cert.KernelIdeal.Gen.W7_main_arg1 m c)
    · exact (h c _ (Cert.KernelIdeal.Gen.mem_uc Cert.KernelIdeal.main_arg2 (by decide))).trans (Cert.KernelIdeal.Gen.W7_main_arg2 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, Cert.ReferenceIdeal.RefValue.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
